-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x200 : Shape := ⟨2, ![100000, 200]⟩
abbrev S2x3200000 : Shape := ⟨2, ![2, 3200000]⟩
abbrev S100000 : Shape := ⟨1, ![100000]⟩
abbrev S200x64 : Shape := ⟨2, ![200, 64]⟩
abbrev S64 : Shape := ⟨1, ![64]⟩
abbrev S64x64 : Shape := ⟨2, ![64, 64]⟩
abbrev S_ : Shape := ⟨0, ![]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S200x64 : S_.BroadcastsInDim S200x64 (![] : Fin 0 → Fin S200x64.rank)
  reducesTo_S200x64_S_d0_1 : S200x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x200 .f32) (main_arg1 : IVec S2x3200000 32) (main_arg2 : IVec S100000 32) (main_arg3 : FVec F S200x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S100000x200 .f32 := Host.absf main_arg0
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S200x64 .f32 := Host.absf main_arg3
  let main_cst_0 : FVec F S_ .f32 := constant S_ .f32 0x7F800000#32
  let main_v5 : FVec F S200x64 .f32 := broadcastInDim S200x64 ![] bcast_S_S200x64 main_cst_0
  let main_v6 : IVec S200x64 1 := cmpf .olt main_v4 main_v5
  let main_c_1 : IVec S_ 1 := constantI S_ 1 1#1
  let main_v7 : IVec S_ 1 := (fun x v => Host.reduce IntOp.andi x v reducesTo_S200x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x200 : Shape := ⟨2, ![100000, 200]⟩
abbrev S2x3200000 : Shape := ⟨2, ![2, 3200000]⟩
abbrev S100000 : Shape := ⟨1, ![100000]⟩
abbrev S200x64 : Shape := ⟨2, ![200, 64]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S1x64 : Shape := ⟨2, ![1, 64]⟩
abbrev S100000x64 : Shape := ⟨2, ![100000, 64]⟩
abbrev S2000x200 : Shape := ⟨2, ![2000, 200]⟩
abbrev S2000x1 : Shape := ⟨2, ![2000, 1]⟩
abbrev S2000x64 : Shape := ⟨2, ![2000, 64]⟩
abbrev S3300000x64 : Shape := ⟨2, ![3300000, 64]⟩
abbrev S64x1 : Shape := ⟨2, ![64, 1]⟩

abbrev nBuf : Space → Nat
  | .hbm => 79
  | .vmem => 25
  | .smem => 0
  | _ => 0

abbrev bufTy : (tb : Table) → Fin (tcTables nBuf tb) → BufTy
  | .hbm, ⟨0, _⟩ => ⟨S100000x200, .f32⟩
  | .hbm, ⟨1, _⟩ => ⟨S2x3200000, .i32⟩
  | .hbm, ⟨2, _⟩ => ⟨S100000, .i32⟩
  | .hbm, ⟨3, _⟩ => ⟨S200x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000, .f32⟩
  | .hbm, ⟨33, _⟩ => ⟨S_, .f32⟩
  | .hbm, ⟨34, _⟩ => ⟨S64, .f32⟩
  | .hbm, ⟨35, _⟩ => ⟨S100000x1, .i32⟩
  | .hbm, ⟨36, _⟩ => ⟨S64, .f32⟩
  | .hbm, ⟨37, _⟩ => ⟨S1x64, .f32⟩
  | .hbm, ⟨38, _⟩ => ⟨S100000x64, .bf16⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000x64, .bf16⟩
  | .hbm, ⟨48, _⟩ => ⟨S3300000x64, .f32⟩
  | .hbm, ⟨49, _⟩ => ⟨S_, .f32⟩
  | .hbm, ⟨50, _⟩ => ⟨S100000x64, .f32⟩
  | .hbm, ⟨51, _⟩ => ⟨S3300000x1, .i32⟩
  | .hbm, ⟨52, _⟩ => ⟨S100000x64, .f32⟩
  | .hbm, ⟨53, _⟩ => ⟨S1x64, .f32⟩
  | .hbm, ⟨54, _⟩ => ⟨S100000x64, .bf16⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x64, .bf16⟩
  | .hbm, ⟨64, _⟩ => ⟨S3300000x64, .f32⟩
  | .hbm, ⟨65, _⟩ => ⟨S_, .f32⟩
  | .hbm, ⟨66, _⟩ => ⟨S100000x64, .f32⟩
  | .hbm, ⟨67, _⟩ => ⟨S3300000x1, .i32⟩
  | .hbm, ⟨68, _⟩ => ⟨S100000x64, .f32⟩
  | .hbm, ⟨69, _⟩ => ⟨S100000x1, .i32⟩
  | .hbm, ⟨70, _⟩ => ⟨S1x64, .f32⟩
  | .hbm, ⟨71, _⟩ => ⟨S64x64, .f32⟩
  | .hbm, ⟨72, _⟩ => ⟨S_, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S64x1, .f32⟩
  | .hbm, ⟨77, _⟩ => ⟨S64x64, .f32⟩
  | .hbm, ⟨78, _⟩ => ⟨S64x64, .f32⟩
  | .local _ .vmem, ⟨0, _⟩ => ⟨S2000x200, .f32⟩
  | .local _ .vmem, ⟨1, _⟩ => ⟨S2000x200, .f32⟩
  | .local _ .vmem, ⟨2, _⟩ => ⟨S200x64, .f32⟩
  | .local _ .vmem, ⟨3, _⟩ => ⟨S1x64, .f32⟩
  | .local _ .vmem, ⟨4, _⟩ => ⟨S64x64, .f32⟩
  | .local _ .vmem, ⟨5, _⟩ => ⟨S2000x1, .f32⟩
  | .local _ .vmem, ⟨6, _⟩ => ⟨S2000x1, .f32⟩
  | .local _ .vmem, ⟨7, _⟩ => ⟨S2000x64, .bf16⟩
  | .local _ .vmem, ⟨8, _⟩ => ⟨S2000x64, .bf16⟩
  | .local _ .vmem, ⟨9, _⟩ => ⟨S2000x64, .f32⟩
  | .local _ .vmem, ⟨10, _⟩ => ⟨S2000x64, .f32⟩
  | .local _ .vmem, ⟨11, _⟩ => ⟨S2000x1, .f32⟩
  | .local _ .vmem, ⟨12, _⟩ => ⟨S2000x1, .f32⟩
  | .local _ .vmem, ⟨13, _⟩ => ⟨S1x64, .f32⟩
  | .local _ .vmem, ⟨14, _⟩ => ⟨S64x64, .f32⟩
  | .local _ .vmem, ⟨15, _⟩ => ⟨S2000x64, .bf16⟩
  | .local _ .vmem, ⟨16, _⟩ => ⟨S2000x64, .bf16⟩
  | .local _ .vmem, ⟨17, _⟩ => ⟨S2000x1, .i32⟩
  | .local _ .vmem, ⟨18, _⟩ => ⟨S2000x1, .i32⟩
  | .local _ .vmem, ⟨19, _⟩ => ⟨S2000x64, .f32⟩
  | .local _ .vmem, ⟨20, _⟩ => ⟨S2000x64, .f32⟩
  | .local _ .vmem, ⟨21, _⟩ => ⟨S2000x1, .f32⟩
  | .local _ .vmem, ⟨22, _⟩ => ⟨S2000x1, .f32⟩
  | .local _ .vmem, ⟨23, _⟩ => ⟨S1x64, .f32⟩
  | .local _ .vmem, ⟨24, _⟩ => ⟨S64x64, .f32⟩
  | _, _ => ⟨S100000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_call1_v0 : Ref sig .tc := ⟨.hbm, 73, rfl⟩
abbrev main_call1_v1 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  bcast_S_S64 : S_.BroadcastsInDim S64 (![] : Fin 0 → Fin S64.rank)
  bcast_S100000_S100000x1_0 : S100000.BroadcastsInDim S100000x1 (![0] : Fin 1 → Fin S100000x1.rank)
  shapeCasts_S64_S1x64 : S64.ShapeCasts S1x64
  inb_S2000x200_S2000x200_0_0 : ∀ a, (![0, 0] : Fin 2 → Nat) a + S2000x200.size a ≤ S2000x200.size a
  h_S2000x200 : 0 < S2000x200.numel
  bitsLt_bf16_f32 : FTy.bits .bf16 < FTy.bits .f32
  inb_S200x64_S200x64_0_0 : ∀ a, (![0, 0] : Fin 2 → Nat) a + S200x64.size a ≤ S200x64.size a
  h_S200x64 : 0 < S200x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S100000x64 : S_.BroadcastsInDim S100000x64 (![] : Fin 0 → Fin S100000x64.rank)
  shapeCasts_S2000x64_S2000x64 : S2000x64.ShapeCasts S2000x64
  iota_S2000x64_d1_w32 : S2000x64.Iotas .tc 32 [1]
  natLt_1_32 : 1 < 32
  shapeCasts_S64x64_S64x64 : S64x64.ShapeCasts S64x64
  shapeCasts_S64_S64x1 : S64.ShapeCasts S64x1
  bcast_S64x1_S64x64_0_1 : S64x1.BroadcastsInDim S64x64 (![0, 1] : Fin 2 → Fin S64x64.rank)
  scatter_S100000_S3300000x1_S3300000_n_0_0_1_wf : ScatterDims.WF S100000 S3300000x1 S3300000 [] [0] [0] 1
  scatter_S64_S100000x1_S100000_n_0_0_1_wf : ScatterDims.WF S64 S100000x1 S100000 [] [0] [0] 1
  dot_S2000x200_S200x64_S2000x64_1_0_0_1_n_n_wf : DotDims.WF S2000x200 S200x64 S2000x64 [1] [0] [0] [1] [] []
  dot_S2000x64_S64x64_S2000x64_1_0_0_1_n_n_wf : DotDims.WF S2000x64 S64x64 S2000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S2000x64_S2000x64_S64x64_0_0_1_1_n_n_wf : DotDims.WF S2000x64 S2000x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x200.size a ≤ S100000x200.size a
  hwx0_0 : ∀ i : grid0.Coords, EltTy.bits .f32 = 32 ∨ (Rect.block (s := S100000x200) S2000x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x64.size a ≤ S200x64.size a
  hwx0_1 : ∀ i : grid0.Coords, EltTy.bits .f32 = 32 ∨ (Rect.block (s := S200x64) S200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S100000x1.size a
  hwx0_4 : ∀ i : grid0.Coords, EltTy.bits .f32 = 32 ∨ (Rect.block (s := S100000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .bf16 = 32 ∨ (Rect.block (s := S100000x64) S2000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .bf16 = 32 ∨ (Rect.block (s := S100000x64) S2000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S100000x1.size a
  hwx2_0 : ∀ i : grid2.Coords, EltTy.bits .i32 = 32 ∨ (Rect.block (s := S100000x1) S2000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S2000x200_S200x64_S2000x64_1_0_0_1_n_n : DotDims S2000x200 S200x64 S2000x64 where
  lhsContracting := [1]
  rhsContracting := [0]
  lhsNonContracting := [0]
  rhsNonContracting := [1]
  lhsBatch := []
  rhsBatch := []
  wf := dot_S2000x200_S200x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S2000x64_S2000x64_S64x64_0_0_1_1_n_n : DotDims S2000x64 S2000x64 S64x64 where
  lhsContracting := [0]
  rhsContracting := [0]
  lhsNonContracting := [1]
  rhsNonContracting := [1]
  lhsBatch := []
  rhsBatch := []
  wf := dot_S2000x64_S2000x64_S64x64_0_0_1_1_n_n_wf

abbrev win0_0 : Pipeline.Window sig grid0 :=
  Pipeline.Window.ofSpec (Memref.whole main_arg0) S2000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S200x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S64x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x200 : Shape := ⟨2, ![100000, 200]⟩
abbrev S2x3200000 : Shape := ⟨2, ![2, 3200000]⟩
abbrev S100000 : Shape := ⟨1, ![100000]⟩
abbrev S200x64 : Shape := ⟨2, ![200, 64]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S100000x64 : Shape := ⟨2, ![100000, 64]⟩
abbrev S1x64 : Shape := ⟨2, ![1, 64]⟩
abbrev S_ : Shape := ⟨0, ![]⟩
abbrev S3300000 : Shape := ⟨1, ![3300000]⟩
abbrev S3300000x1 : Shape := ⟨2, ![3300000, 1]⟩
abbrev S3300000x64 : Shape := ⟨2, ![3300000, 64]⟩
abbrev S100000x1 : Shape := ⟨2, ![100000, 1]⟩
abbrev S64x1 : Shape := ⟨2, ![64, 1]⟩

abbrev nBuf : Space → Nat
  | .hbm => 152
  | .vmem => 0
  | .smem => 0
  | _ => 0

abbrev hbmTy0_0 (i : Nat) : BufTy := match i % 128 with
  | 0 => ⟨S100000x200, .f32⟩
  | 1 => ⟨S2x3200000, .i32⟩
  | 2 => ⟨S100000, .i32⟩
  | 3 => ⟨S200x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S1x3200000, .i32⟩
  | 10 => ⟨S3200000, .i32⟩
  | 11 => ⟨S1x3200000, .i32⟩
  | 12 => ⟨S3200000, .i32⟩
  | 13 => ⟨S100000x64, .f32⟩
  | 14 => ⟨S1x64, .f32⟩
  | 15 => ⟨S100000x64, .f32⟩
  | 16 => ⟨S100000x64, .f32⟩
  | 17 => ⟨S_, .f32⟩
  | 18 => ⟨S100000x64, .f32⟩
  | 19 => ⟨S100000x64, .f32⟩
  | 20 => ⟨S100000x64, .f32⟩
  | 21 => ⟨S100000, .i32⟩
  | 22 => ⟨S3300000, .i32⟩
  | 23 => ⟨S3300000, .i32⟩
  | 24 => ⟨S_, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S_, .i32⟩
  | 58 => ⟨S3300000, .i32⟩
  | 59 => ⟨S3300000, .i1⟩
  | 60 => ⟨S_, .i32⟩
  | 61 => ⟨S3300000, .i32⟩
  | 62 => ⟨S3300000, .i32⟩
  | 63 => ⟨S3300000, .i32⟩
  | 64 => ⟨S3300000x1, .i32⟩
  | 65 => ⟨S3300000x64, .f32⟩
  | 66 => ⟨S3300000x1, .f32⟩
  | 67 => ⟨S3300000x64, .f32⟩
  | 68 => ⟨S3300000x64, .f32⟩
  | 69 => ⟨S_, .f32⟩
  | 70 => ⟨S100000x64, .f32⟩
  | 71 => ⟨S3300000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S100000, .i32⟩
  | 81 => ⟨S3300000, .i32⟩
  | 82 => ⟨S3300000, .i32⟩
  | 83 => ⟨S_, .f32⟩
  | 84 => ⟨S3300000, .f32⟩
  | 85 => ⟨S_, .f32⟩
  | 86 => ⟨S100000, .f32⟩
  | 87 => ⟨S3300000x1, .i32⟩
  | 88 => ⟨S100000, .f32⟩
  | 89 => ⟨S_, .f32⟩
  | 90 => ⟨S100000, .f32⟩
  | 91 => ⟨S100000, .i1⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000, .f32⟩
  | 115 => ⟨S3300000, .f32⟩
  | 116 => ⟨S_, .i32⟩
  | 117 => ⟨S3300000, .i32⟩
  | 118 => ⟨S3300000, .i1⟩
  | 119 => ⟨S_, .i32⟩
  | 120 => ⟨S3300000, .i32⟩
  | 121 => ⟨S3300000, .i32⟩
  | 122 => ⟨S3300000, .i32⟩
  | 123 => ⟨S3300000x1, .i32⟩
  | 124 => ⟨S3300000x64, .f32⟩
  | 125 => ⟨S3300000x1, .f32⟩
  | 126 => ⟨S3300000x64, .f32⟩
  | 127 => ⟨S3300000x64, .f32⟩
  | _ => ⟨S100000x200, .f32⟩

abbrev hbmTy0_1 (i : Nat) : BufTy := match i % 128 with
  | 0 => ⟨S_, .f32⟩
  | 1 => ⟨S100000x64, .f32⟩
  | 2 => ⟨S3300000x1, .i32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S64x64, .f32⟩
  | 9 => ⟨S100000x1, .i32⟩
  | 10 => ⟨S64x64, .f32⟩
  | 11 => ⟨S_, .f32⟩
  | 12 => ⟨S100000, .f32⟩
  | 13 => ⟨S_, .f32⟩
  | 14 => ⟨S64, .f32⟩
  | 15 => ⟨S100000x1, .i32⟩
  | 16 => ⟨S64, .f32⟩
  | 17 => ⟨S_, .f32⟩
  | 18 => ⟨S_, .f32⟩
  | 19 => ⟨S64, .f32⟩
  | 20 => ⟨S64, .f32⟩
  | 21 => ⟨S64x1, .f32⟩
  | 22 => ⟨S64x64, .f32⟩
  | 23 => ⟨S64x64, .f32⟩
  | _ => ⟨S100000x200, .f32⟩

abbrev hbmTy (i : Nat) : BufTy := match i / 128 with
  | 0 => hbmTy0_0 i
  | 1 => hbmTy0_1 i
  | _ => ⟨S100000x200, .f32⟩

abbrev bufTy : (tb : Table) → Fin (tcTables nBuf tb) → BufTy
  | .hbm, ⟨i, _⟩ => hbmTy i
  | _, _ => ⟨S100000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_12 : Ref sig .tc := ⟨.hbm, 93, rfl⟩
abbrev main_call3_v0 : Ref sig .tc := ⟨.hbm, 94, rfl⟩
abbrev main_call3_v1 : Ref sig .tc := ⟨.hbm, 95, rfl⟩
abbrev main_v64 : Ref sig .tc := ⟨.hbm, 96, rfl⟩
abbrev main_c_13 : Ref sig .tc := ⟨.hbm, 97, rfl⟩
abbrev main_v65 : Ref sig .tc := ⟨.hbm, 98, rfl⟩
abbrev main_v66 : Ref sig .tc := ⟨.hbm, 99, rfl⟩
abbrev main_c_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_15 : Ref sig .tc := ⟨.hbm, 106, rfl⟩
abbrev main_v72 : Ref sig .tc := ⟨.hbm, 107, rfl⟩
abbrev main_v73 : Ref sig .tc := ⟨.hbm, 108, rfl⟩
abbrev main_c_16 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_17 : Ref sig .tc := ⟨.hbm, 116, rfl⟩
abbrev main_v80 : Ref sig .tc := ⟨.hbm, 117, rfl⟩
abbrev main_v81 : Ref sig .tc := ⟨.hbm, 118, rfl⟩
abbrev main_c_18 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_19 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_20 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_21 : Ref sig .tc := ⟨.hbm, 139, rfl⟩
abbrev main_v99 : Ref sig .tc := ⟨.hbm, 140, rfl⟩
abbrev main_cst_22 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_23 : Ref sig .tc := ⟨.hbm, 145, rfl⟩
abbrev main_call4_v0 : Ref sig .tc := ⟨.hbm, 146, rfl⟩
abbrev main_call4_v1 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  dot_S100000x200_S200x64_S100000x64_1_0_0_1_n_n_wf : DotDims.WF S100000x200 S200x64 S100000x64 [1] [0] [0] [1] [] []
  dot_S100000x64_S64x64_S100000x64_1_0_0_1_n_n_wf : DotDims.WF S100000x64 S64x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def dot_S100000x200_S200x64_S100000x64_1_0_0_1_n_n : DotDims S100000x200 S200x64 S100000x64 where
  lhsContracting := [1]
  rhsContracting := [0]
  lhsNonContracting := [0]
  rhsNonContracting := [1]
  lhsBatch := []
  rhsBatch := []
  wf := dot_S100000x200_S200x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Spec.lean ====
/-
  Two graph-convolution layers and a mean pool over graph ids, written over plain indices.

  Nodes are numbered below 100000, edges (with one self-loop per node appended) below 3300000, features and graphs
  below 64.  An edge e carries a source word s e and a destination word d e.  Its message is read from the source
  ROW (the word wrapped by the node count when negative, read signed, clamped into the node range) and is added
  to the destination node when the destination word, read signed, is a node; otherwise it is dropped.
  With dis the inverse square root of the in-degree, one layer sends a feature matrix H to

      out n c = ( Σ over the edges e landing on n of  H (row e) c · ( dis (row e) · dis (drow e) ) ) + b c ,

  drow e being the row the destination word reads, which is n itself on every edge that lands on n.  The second
  arrangement scales each row of H by dis BEFORE the sum and the sum by dis n AFTER it:

      out n c = ( Σ over the edges e landing on n of  H (row e) c · dis (row e) ) · dis n + b c .

  The two agree wherever H and dis are real numbers (the sum of products distributes).  The pool adds the rows of
  each graph; the quotient by the clipped row count is taken entry by entry.
-/
import Idealize.ShloMosaic.PureOps
import Idealize.ShloMosaic.Lib.ValueIdx

noncomputable section

open scoped BigOperators

namespace Cert.Gcn

open Idealize.ShloMosaic Idealize.ShloMosaic.ValueIdx

/-! ## Shapes -/

abbrev SNode : Shape := ⟨1, ![100000]⟩
abbrev SNodeCol : Shape := ⟨2, ![100000, 1]⟩
abbrev SNodeFeat : Shape := ⟨2, ![100000, 64]⟩
abbrev SNodeIn : Shape := ⟨2, ![100000, 200]⟩
abbrev SEdge : Shape := ⟨1, ![3300000]⟩
abbrev SEdgeCol : Shape := ⟨2, ![3300000, 1]⟩
abbrev SEdgeFeat : Shape := ⟨2, ![3300000, 64]⟩
abbrev SRaw : Shape := ⟨1, ![3200000]⟩
abbrev SRawRow : Shape := ⟨2, ![1, 3200000]⟩
abbrev SPair : Shape := ⟨2, ![2, 3200000]⟩
abbrev SFeat : Shape := ⟨1, ![64]⟩
abbrev SFeatCol : Shape := ⟨2, ![64, 1]⟩
abbrev SSq : Shape := ⟨2, ![64, 64]⟩
abbrev SInFeat : Shape := ⟨2, ![200, 64]⟩
abbrev SUnit : Shape := ⟨0, ![]⟩

/-! ## The edge list with self-loops, the degree weights and the clipped counts, as the programs spell them -/

theorem joins : Shape.Concatenates [SRaw, SNode] SEdge 0 := by decide

/-- Row r of the edge array, followed by the node numbers: sources (r = 0) or destinations (r = 1) with a self-loop per node. -/
def edgeWords (r : ℕ) (hr : SPair.Slices ![r, 0] SRawRow) (ei : IVec SPair 32) : IVec SEdge 32 :=
  concatenate SEdge 0 [⟨SRaw, shapeCast SRaw (extractStridedSlice SRawRow ![r, 0] ei hr) (by decide)⟩,
    ⟨SNode, iotaInDim SNode 32 0⟩] joins

/-- Sources with self-loops. -/
def srcWords (ei : IVec SPair 32) : IVec SEdge 32 := edgeWords 0 (by decide) ei
/-- Destinations with self-loops. -/
def dstWords (ei : IVec SPair 32) : IVec SEdge 32 := edgeWords 1 (by decide) ei

/-- A gather's start words: a negative word wraps by the node count; as a column. -/
def wrapCol (v : IVec SEdge 32) : IVec SEdgeCol 32 :=
  broadcastInDim SEdgeCol ![0] (by decide)
    (select (cmpi .slt v (broadcastInDim SEdge ![] (by decide) (constantI SUnit 32 0#32)))
      (addi v (broadcastInDim SEdge ![] (by decide) (constantI SUnit 32 100000#32))) v)

/-- A scatter's index words: the words themselves, as a column. -/
def rawCol (v : IVec SEdge 32) : IVec SEdgeCol 32 := broadcastInDim SEdgeCol ![0] (by decide) v

/-- A scatter of scalars along the one axis of a vector: the dimension numbers of both count scatters. -/
def degDims : ScatterDims SNode SEdgeCol SEdge where
  updateWindowDims := []
  insertedWindowDims := [0]
  scatterDimsToOperandDims := [0]
  indexVectorDim := 1
def cntDims : ScatterDims SFeat SNodeCol SNode where
  updateWindowDims := []
  insertedWindowDims := [0]
  scatterDimsToOperandDims := [0]
  indexVectorDim := 1

/-- The in-degree with self-loops: one added per edge at the node its destination word names. -/
def degOf (d : IVec SEdge 32) : FVec Ideal SNode .f32 :=
  Host.scatterAdd degDims (broadcastInDim SNode ![] (by decide) (constant SUnit .f32 0x00000000#32)) (rawCol d)
    (broadcastInDim SEdge ![] (by decide) (constant SUnit .f32 0x3F800000#32))

/-- The symmetric normalisation weight: the inverse square root of the degree where it is positive, else zero. -/
def disOf (d : IVec SEdge 32) : FVec Ideal SNode .f32 :=
  select (cmpf (F := Ideal) .ogt (degOf d) (broadcastInDim SNode ![] (by decide) (constant SUnit .f32 0x00000000#32)))
    (Host.rsqrt (degOf d))
    (broadcastInDim SNode ![] (by decide) (id (constant SUnit .f32 0x00000000#32)))

/-- The rows of each graph, counted, and clipped below at one. -/
def clipOf (bt : IVec SNode 32) : FVec Ideal SFeat .f32 :=
  maximumf (broadcastInDim SFeat ![] (by decide) (id (constant SUnit .f32 0x3F800000#32)))
    (Host.scatterAdd cntDims (broadcastInDim SFeat ![] (by decide) (constant SUnit .f32 0x00000000#32))
      (broadcastInDim SNodeCol ![0] (by decide) bt)
      (broadcastInDim SNode ![] (by decide) (constant SUnit .f32 0x3F800000#32)))

/-! ## Plain indices -/

/-- The row a start word reads: wrapped when negative, read signed, clamped into the node range. -/
def row (v : BitVec 32) : Fin 100000 :=
  ⟨min (Scalar.select (IntOp.cmpi .slt v 0#32) (IntOp.addi v 100000#32) v).toInt.toNat 99999, by omega⟩

/-- A scatter word names node n. -/
def lands (v : BitVec 32) (n : Fin 100000) : Prop := v.toInt = (n.val : ℤ)

instance (v : BitVec 32) (n : Fin 100000) : Decidable (lands v n) := by unfold lands; infer_instance

variable {K : ℕ}

/-- A feature matrix times a weight matrix. -/
def dense (h : Fin 100000 → Fin K → EReal) (W : Fin K → Fin 64 → EReal) (n : Fin 100000) (c : Fin 64) : EReal :=
  ∑ k : Fin K, h n k * W k c

/-- The encoder: a dense layer, its bias, the positive part. -/
def encode (x : Fin 100000 → Fin 200 → EReal) (We : Fin 200 → Fin 64 → EReal) (be : Fin 64 → EReal)
    (n : Fin 100000) (k : Fin 64) : EReal :=
  max (dense x We n k + be k) 0

/-- The edges' sum: what lands on node n of the source rows of a matrix P. -/
def edgeSum (P : Fin 100000 → Fin 64 → EReal) (s d : Fin 3300000 → BitVec 32) (n : Fin 100000) (c : Fin 64) : EReal :=
  0 + ∑ e ∈ Finset.univ.filter (fun e => lands (d e) n), P (row (s e)) c

/-- One layer, each row scaled by its weight before the sum and the sum by the destination's weight after it. -/
def convPost (H : Fin 100000 → Fin 64 → EReal) (dis : Fin 100000 → EReal) (s d : Fin 3300000 → BitVec 32)
    (b : Fin 64 → EReal) (n : Fin 100000) (c : Fin 64) : EReal :=
  edgeSum (fun p k => H p k * dis p) s d n c * dis n + b c

/-- One layer, both weights on every edge. -/
def convEdge (H : Fin 100000 → Fin 64 → EReal) (dis : Fin 100000 → EReal) (s d : Fin 3300000 → BitVec 32)
    (b : Fin 64 → EReal) (n : Fin 100000) (c : Fin 64) : EReal :=
  (0 + ∑ e ∈ Finset.univ.filter (fun e => lands (d e) n), H (row (s e)) c * (dis (row (s e)) * dis (row (d e)))) + b c

/-- The two layers, given one layer's arrangement. -/
def net (conv : (Fin 100000 → Fin 64 → EReal) → (Fin 64 → EReal) → Fin 100000 → Fin 64 → EReal)
    (x : Fin 100000 → Fin 200 → EReal) (We : Fin 200 → Fin 64 → EReal) (be : Fin 64 → EReal)
    (W1 : Fin 64 → Fin 64 → EReal) (b1 : Fin 64 → EReal) (W2 : Fin 64 → Fin 64 → EReal) (b2 : Fin 64 → EReal) :
    Fin 100000 → Fin 64 → EReal :=
  conv (dense (fun n k => max (conv (dense (encode x We be) W1) b1 n k) 0) W2) b2

/-- The rows of graph g, added. -/
def pool (h : Fin 100000 → Fin 64 → EReal) (bt : Fin 100000 → BitVec 32) (g c : Fin 64) : EReal :=
  0 + ∑ n ∈ Finset.univ.filter (fun n => (bt n).toInt = (g.val : ℤ)), h n c

/-- The mean: each graph's sum over its clipped count. -/
def meanOf (p : Fin 64 → Fin 64 → EReal) (clip : FVec Ideal SFeat .f32) : FVec Ideal SSq .f32 :=
  fun i => Ideal.div (p (i 0) (i 1)) (clip (ix1 (i 0)))

/-! ## The whole network over the argument arrays -/

/-- A rank-2 array as a function of its two coordinates. -/
def mat {α : Type} {a b : ℕ} (x : (⟨2, ![a, b]⟩ : Shape).Idx → α) : Fin a → Fin b → α := fun p q => x (ix2 p q)
/-- A rank-1 array as a function of its coordinate. -/
def vec {α : Type} {a : ℕ} (x : (⟨1, ![a]⟩ : Shape).Idx → α) : Fin a → α := fun p => x (ix1 p)

/-- The network's output given one layer's arrangement: the two layers, the pool, the mean. -/
def outWith (conv : (Fin 100000 → EReal) → (Fin 3300000 → BitVec 32) → (Fin 3300000 → BitVec 32) →
      (Fin 100000 → Fin 64 → EReal) → (Fin 64 → EReal) → Fin 100000 → Fin 64 → EReal)
    (x : FVec Ideal SNodeIn .f32) (ei : IVec SPair 32) (bt : IVec SNode 32) (We : FVec Ideal SInFeat .f32)
    (be : FVec Ideal SFeat .f32) (W1 : FVec Ideal SSq .f32) (b1 : FVec Ideal SFeat .f32) (W2 : FVec Ideal SSq .f32)
    (b2 : FVec Ideal SFeat .f32) : FVec Ideal SSq .f32 :=
  meanOf (pool (net (conv (vec (disOf (dstWords ei))) (vec (srcWords ei)) (vec (dstWords ei)))
    (mat x) (mat We) (vec be) (mat W1) (vec b1) (mat W2) (vec b2)) (vec bt)) (clipOf bt)

/-- The output with each row weighted before the edges' sum and each sum after it. -/
def outPost := outWith (fun dis s d H b => convPost H dis s d b)
/-- The output with both weights on every edge. -/
def outEdge := outWith (fun dis s d H b => convEdge H dis s d b)

end Cert.Gcn

end
-- ==== Proof.LibColumn.lean ====
/-
  Column vectors read at an index, and a two-entry weight matrix built from them.

  A vector [a] viewed as a column [a, 1] reads its entry p at (p, 0); a column [a, 1] broadcast along a second axis
  to [a, b] reads, at (p, k), the column's entry p.  From these: the matrix whose row p holds (one − w p) at the
  column numbered by the word i p, w p at the column numbered by the next word, and zero elsewhere, when it is
  spelt with two selects over comparisons of a column-number iota against the broadcast words.  And the sum of
  an [a, b] matrix along its second axis, read at p: the sum of row p's entries.
-/
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.Column

open Idealize.ShloMosaic Idealize.ShloMosaic.ValueIdx

variable {α : Type}

/-- An [a] array cast to [a, 1] reads, at (p, u), the operand at p, whatever the unit coordinate u. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, k), the operand's one column at p. -/
theorem broadcastTo_a1_ab_apply {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- A select on a word comparison for equality is a conditional on the equality. -/
theorem select_cmpi_eq {w : ℕ} (A B : BitVec w) (x y : α) :
    Scalar.select (IntOp.cmpi .eq A B) x y = if A = B then x else y := by
  unfold Scalar.select
  exact if_congr StableHlo.Predicate.cmpi_eq_iff rfl rfl

/-- THE WEIGHT MATRIX at (p, k): one − w p where column k is the word i p, w p where it is the next word, else zero. -/
theorem weights_apply {a b : ℕ} (i : IVec ⟨1, ![a]⟩ 32) (w : FVec Ideal ⟨1, ![a]⟩ .f32) (one zero : Ideal .f32)
    (hc : (⟨1, ![a]⟩ : Shape).ShapeCasts ⟨2, ![a, 1]⟩) (hc' : (⟨2, ![a, 1]⟩ : Shape).ShapeCasts ⟨2, ![a, 1]⟩)
    (hb : (⟨2, ![a, 1]⟩ : Shape).Broadcasts ⟨2, ![a, b]⟩) (hi : (⟨2, ![a, b]⟩ : Shape).Iotas .tc 32 [1])
    (p : Fin a) (k : Fin b) :
    select (cmpi .eq (iota .tc ⟨2, ![a, b]⟩ 32 [1] hi) (broadcastTo ⟨2, ![a, b]⟩ (shapeCast ⟨2, ![a, 1]⟩ i hc) hb))
        (broadcastTo ⟨2, ![a, b]⟩ (shapeCast ⟨2, ![a, 1]⟩
          (subf (broadcast ⟨2, ![a, 1]⟩ one) (shapeCast ⟨2, ![a, 1]⟩ w hc)) hc') hb)
        (select (cmpi .eq (iota .tc ⟨2, ![a, b]⟩ 32 [1] hi)
            (broadcastTo ⟨2, ![a, b]⟩ (addi (shapeCast ⟨2, ![a, 1]⟩ i hc) (broadcast ⟨2, ![a, 1]⟩ 1#32)) hb))
          (broadcastTo ⟨2, ![a, b]⟩ (shapeCast ⟨2, ![a, 1]⟩ (shapeCast ⟨2, ![a, 1]⟩ w hc) hc') hb)
          (broadcast ⟨2, ![a, b]⟩ zero)) (ix2 p k)
      = if BitVec.ofNat 32 k.val = i (ix1 p) then one - w (ix1 p)
        else if BitVec.ofNat 32 k.val = i (ix1 p) + 1#32 then w (ix1 p) else zero := by
  rw [select_apply, select_apply]
  show Scalar.select (IntOp.cmpi .eq (iota .tc ⟨2, ![a, b]⟩ 32 [1] hi (ix2 p k)) _) _
      (Scalar.select (IntOp.cmpi .eq (iota .tc ⟨2, ![a, b]⟩ 32 [1] hi (ix2 p k)) _) _ _) = _
  rw [select_cmpi_eq, select_cmpi_eq, iota_single_apply, broadcastTo_a1_ab_apply, broadcastTo_a1_ab_apply,
    broadcastTo_a1_ab_apply, broadcastTo_a1_ab_apply, shapeCast_self, shapeCast_self, shapeCast_a_a1_apply]
  show (if BitVec.ofNat 32 k.val = i (ix1 p) then one - shapeCast ⟨2, ![a, 1]⟩ w hc (ix2 p 0) else
      if BitVec.ofNat 32 k.val = shapeCast ⟨2, ![a, 1]⟩ i hc (ix2 p 0) + 1#32
      then shapeCast ⟨2, ![a, 1]⟩ w hc (ix2 p 0) else zero) = _
  rw [shapeCast_a_a1_apply, shapeCast_a_a1_apply]

/-- The index over p with lane c inserted on the second axis is (p, c). -/
theorem lift_lane {a b : ℕ} (h : (⟨2, ![a, b]⟩ : Shape).Reduces [1] ⟨1, ![a]⟩) (p : Fin a) (c : Fin b) :
    h.lift (ix1 p) c = ix2 p c := by
  funext ax; refine Fin.ext ?_
  show h.liftVal (ix1 p) c.val ax = (ix2 p c ax).val
  match ax with
  | ⟨0, _⟩ => simp [Shape.Reduces.liftVal]
  | ⟨1, _⟩ => simp [Shape.Reduces.liftVal]

/-- A sum along the second axis into a zero accumulator, read at p: the sum of row p. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ c : Fin b, src (ix2 p c) :=
  (Ideal.multiReduction_add_single src _ h hφ hacc (ix1 p)).trans
    (Finset.sum_congr rfl fun c _ => congrArg src (lift_lane h p c))

end Cert.Column

end
-- ==== Proof.KRegion0.lean ====
/-
  The first kernel's output array: the encoder, the first projection, each row scaled by its degree weight.
-/
import proofs.«425043_j20134806683790_3_alg».proof.Proof.Gen.KernelIdeal.Frame
import proofs.«425043_j20134806683790_3_alg».proof.Proof.Spec
import proofs.«425043_j20134806683790_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-! ## The two products' operand indices -/

/-- The encoder product's left operand is read at the output's row … -/
theorem encLhs_0 (i : S2000x64.Idx) (q : dot_S2000x200_S200x64_S2000x64_1_0_0_1_n_n.contr.Idx) :
    (dot_S2000x200_S200x64_S2000x64_1_0_0_1_n_n.lhsIdx i q 0).val = (i 0).val := by
  unfold DotDims.lhsIdx
  rw [dif_neg (show ¬(0 : Fin S2000x200.rank) ∈ dot_S2000x200_S200x64_S2000x64_1_0_0_1_n_n.lhsBatch by decide),
    dif_pos (show (0 : Fin S2000x200.rank) ∈ dot_S2000x200_S200x64_S2000x64_1_0_0_1_n_n.lhsNonContracting by decide)]
  rfl
/-- … and the summation index, -/
theorem encLhs_1 (i : S2000x64.Idx) (q : dot_S2000x200_S200x64_S2000x64_1_0_0_1_n_n.contr.Idx) :
    (dot_S2000x200_S200x64_S2000x64_1_0_0_1_n_n.lhsIdx i q 1).val = (q ⟨0, by decide⟩).val :=
  dot_S2000x200_S200x64_S2000x64_1_0_0_1_n_n.lhsIdx_val_of_single rfl i q
/-- its right operand at the summation index … -/
theorem encRhs_0 (i : S2000x64.Idx) (q : dot_S2000x200_S200x64_S2000x64_1_0_0_1_n_n.contr.Idx) :
    (dot_S2000x200_S200x64_S2000x64_1_0_0_1_n_n.rhsIdx i q 0).val = (q ⟨0, by decide⟩).val :=
  dot_S2000x200_S200x64_S2000x64_1_0_0_1_n_n.rhsIdx_val_of_single rfl i q
/-- … and the output's column. -/
theorem encRhs_1 (i : S2000x64.Idx) (q : dot_S2000x200_S200x64_S2000x64_1_0_0_1_n_n.contr.Idx) :
    (dot_S2000x200_S200x64_S2000x64_1_0_0_1_n_n.rhsIdx i q 1).val = (i 1).val := by
  unfold DotDims.rhsIdx
  rw [dif_neg (show ¬(1 : Fin S200x64.rank) ∈ dot_S2000x200_S200x64_S2000x64_1_0_0_1_n_n.rhsBatch by decide),
    dif_pos (show (1 : Fin S200x64.rank) ∈ dot_S2000x200_S200x64_S2000x64_1_0_0_1_n_n.rhsNonContracting by decide)]
  rfl

/-- The encoder product into a zero accumulator, at (r, j): row r of the left operand against column j of the right. -/
theorem encProduct_apply (A : FVec Ideal S2000x200 .bf16) (B : FVec Ideal S200x64 .bf16) (r : Fin 2000) (j : Fin 64) :
    matmul dot_S2000x200_S200x64_S2000x64_1_0_0_1_n_n none A B (constant S2000x64 .f32 0x00000000#32) (ix2 r j)
      = ∑ i : Fin 200, A (ix2 r i) * B (ix2 i j) := by
  simp only [matmul]
  rw [Ideal.matmul_constant_zero_apply,
    ← Equiv.sum_comp (contrEquiv1 dot_S2000x200_S200x64_S2000x64_1_0_0_1_n_n 200 rfl rfl).symm]
  refine Finset.sum_congr rfl fun i _ => ?_
  have hi := contrEquiv1_symm_val dot_S2000x200_S200x64_S2000x64_1_0_0_1_n_n 200 rfl rfl i
  have el : dot_S2000x200_S200x64_S2000x64_1_0_0_1_n_n.lhsIdx (ix2 r j)
      ((contrEquiv1 dot_S2000x200_S200x64_S2000x64_1_0_0_1_n_n 200 rfl rfl).symm i) = ix2 r i :=
    funext fun a => Fin.ext (by
      match a with
      | ⟨0, _⟩ => exact encLhs_0 _ _
      | ⟨1, _⟩ => exact (encLhs_1 _ _).trans hi)
  have er : dot_S2000x200_S200x64_S2000x64_1_0_0_1_n_n.rhsIdx (ix2 r j)
      ((contrEquiv1 dot_S2000x200_S200x64_S2000x64_1_0_0_1_n_n 200 rfl rfl).symm i) = ix2 i j :=
    funext fun a => Fin.ext (by
      match a with
      | ⟨0, _⟩ => exact (encRhs_0 _ _).trans hi
      | ⟨1, _⟩ => exact encRhs_1 _ _)
  rw [el, er]

/-- The projection product's left operand is read at the output's row … -/
theorem projLhs_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
/-- … and the summation index, -/
theorem projLhs_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- its right operand at the summation index … -/
theorem projRhs_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- … and the output's column. -/
theorem projRhs_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The projection product into a zero accumulator, at (r, k): row r of the left operand against column k of the right. -/
theorem projProduct_apply (A : FVec Ideal S2000x64 .bf16) (B : FVec Ideal S64x64 .bf16) (r : Fin 2000) (k : Fin 64) :
    matmul dot_S2000x64_S64x64_S2000x64_1_0_0_1_n_n none A B (constant S2000x64 .f32 0x00000000#32) (ix2 r k)
      = ∑ j : Fin 64, A (ix2 r j) * B (ix2 j k) := by
  simp only [matmul]
  rw [Ideal.matmul_constant_zero_apply,
    ← Equiv.sum_comp (contrEquiv1 dot_S2000x64_S64x64_S2000x64_1_0_0_1_n_n 64 rfl rfl).symm]
  refine Finset.sum_congr rfl fun j _ => ?_
  have hj := contrEquiv1_symm_val dot_S2000x64_S64x64_S2000x64_1_0_0_1_n_n 64 rfl rfl j
  have el : dot_S2000x64_S64x64_S2000x64_1_0_0_1_n_n.lhsIdx (ix2 r k)
      ((contrEquiv1 dot_S2000x64_S64x64_S2000x64_1_0_0_1_n_n 64 rfl rfl).symm j) = ix2 r j :=
    funext fun a => Fin.ext (by
      match a with
      | ⟨0, _⟩ => exact projLhs_0 _ _
      | ⟨1, _⟩ => exact (projLhs_1 _ _).trans hj)
  have er : dot_S2000x64_S64x64_S2000x64_1_0_0_1_n_n.rhsIdx (ix2 r k)
      ((contrEquiv1 dot_S2000x64_S64x64_S2000x64_1_0_0_1_n_n 64 rfl rfl).symm j) = ix2 j k :=
    funext fun a => Fin.ext (by
      match a with
      | ⟨0, _⟩ => exact (projRhs_0 _ _).trans hj
      | ⟨1, _⟩ => exact projRhs_1 _ _)
  rw [el, er]

/-! ## The body's arithmetic at an index -/

/-- What the body stores, at (r, k) of its block: the encoded row r (the input row against the encoder's
    weights, the bias added, the positive part) against column k of the projection's weights, times the row's
    degree weight. -/
theorem body_apply (x0 : Vec Ideal S2000x200 .f32) (x1 : Vec Ideal S200x64 .f32) (x2 : Vec Ideal S1x64 .f32)
    (x3 : Vec Ideal S64x64 .f32) (x4 : Vec Ideal S2000x1 .f32) (r : Fin 2000) (k : Fin 64) :
    k0_pay1 (F := Ideal) x0 x1 x2 x3 x4 (ix2 r k)
      = (∑ j : Fin 64, max ((∑ i : Fin 200, x0 (ix2 r i) * x1 (ix2 i j)) + x2 (ix2 (0 : Fin 1) j)) 0 * x3 (ix2 j k))
          * x4 (ix2 r (0 : Fin 1)) := by
  unfold k0_pay1
  show (matmul (F := Ideal) dot_S2000x64_S64x64_S2000x64_1_0_0_1_n_n none _ _ (constant (F := Ideal) S2000x64 .f32 0x00000000#32)) (ix2 r k)
      * (broadcastTo S2000x64 (shapeCast S2000x1 x4 shapeCasts_S2000x1_S2000x1) broadcasts_S2000x1_S2000x64) (ix2 r k) = _
  rw [projProduct_apply, Cert.Column.broadcastTo_a1_ab_apply, shapeCast_self x4, shapeCast_self x2]
  refine congrArg (· * x4 (ix2 r (0 : Fin 1))) (Finset.sum_congr rfl fun j _ => ?_)
  show max ((matmul (F := Ideal) dot_S2000x200_S200x64_S2000x64_1_0_0_1_n_n none _ _ (constant (F := Ideal) S2000x64 .f32 0x00000000#32)) (ix2 r j)
      + (broadcastTo S2000x64 x2 broadcasts_S1x64_S2000x64) (ix2 r j))
      (Ideal.ofBits .f32 0x00000000#32) * x3 (ix2 j k) = _
  rw [encProduct_apply, broadcastTo_1b_ab_apply, Ideal.ofBits_zero_f32]
  rfl

/-! ## The blocks of a grid point -/

/-- The offsets of a whole-buffer access are zero on both axes. -/
theorem zeroOffsets : (![0, 0] : Fin 2 → Nat) = fun _ => 0 := funext fun a => by fin_cases a <;> rfl

/-- The grid has fifty points. -/
theorem points : cfg0.N = 50 := N_0

/-- The index maps over the grid: the rows' windows (inputs, degree weights, result) take block t at point t on the
    first axis and block 0 on the second; the weights and the bias take their one block at every point. -/
theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row r of point t's block is row 2000 t + r of the array. -/
def rowOf (t : Fin cfg0.N) (r : Fin 2000) : Fin 100000 :=
  ⟨2000 * t.val + r.val, by have ht : t.val < 50 := Nat.lt_of_lt_of_eq t.isLt points; have hr := r.isLt; omega⟩

/-- The input rows' block at point t: rows 2000 t … 2000 t + 1999 of the input array. -/
theorem inputBlock_apply (c : Dev nD) (t : Fin cfg0.N) (r : Fin 2000) (i : Fin 200) :
    (iblk0 (F := Ideal) V c 0 t : Vec Ideal S2000x200 .f32) (ix2 r i)
      = (V c main_arg0 : Vec Ideal S100000x200 .f32) (ix2 (rowOf t r) i) := by
  obtain ⟨e0, e1, -⟩ := blockIndices t
  unfold iblk0
  rw [View.read_apply]
  show V c main_arg0 (((cfg0.win 0).blk t).view.emb (ix2 r i)) = V c main_arg0 (ix2 (rowOf t r) i)
  refine congrArg (V c main_arg0) (funext fun a => Fin.ext ?_)
  match a with
  | ⟨0, _⟩ => show win0_0.index t (0 : Fin 2) * 2000 + 1 * r.val = 2000 * t.val + r.val; omega
  | ⟨1, _⟩ => show win0_0.index t (1 : Fin 2) * 200 + 1 * i.val = i.val; omega

/-- The encoder's weights' block at every point: the whole matrix. -/
theorem encWeightBlock_apply (c : Dev nD) (t : Fin cfg0.N) (i : Fin 200) (j : Fin 64) :
    (iblk0 (F := Ideal) V c 1 t : Vec Ideal S200x64 .f32) (ix2 i j)
      = (V c main_arg3 : Vec Ideal S200x64 .f32) (ix2 i j) := by
  obtain ⟨-, -, e0, e1, -⟩ := blockIndices t
  unfold iblk0
  rw [View.read_apply]
  show V c main_arg3 (((cfg0.win 1).blk t).view.emb (ix2 i j)) = V c main_arg3 (ix2 i j)
  refine congrArg (V c main_arg3) (funext fun a => Fin.ext ?_)
  match a with
  | ⟨0, _⟩ => show win0_1.index t (0 : Fin 2) * 200 + 1 * i.val = i.val; omega
  | ⟨1, _⟩ => show win0_1.index t (1 : Fin 2) * 64 + 1 * j.val = j.val; omega

/-- The encoder's bias row's block at every point: the whole row. -/
theorem biasBlock_apply (c : Dev nD) (t : Fin cfg0.N) (u : Fin 1) (j : Fin 64) :
    (iblk0 (F := Ideal) V c 2 t : Vec Ideal S1x64 .f32) (ix2 u j)
      = (V c main_v20 : Vec Ideal S1x64 .f32) (ix2 u j) := by
  obtain ⟨-, -, -, -, e0, e1, -⟩ := blockIndices t
  unfold iblk0
  rw [View.read_apply]
  show V c main_v20 (((cfg0.win 2).blk t).view.emb (ix2 u j)) = V c main_v20 (ix2 u j)
  refine congrArg (V c main_v20) (funext fun a => Fin.ext ?_)
  match a with
  | ⟨0, _⟩ => show win0_2.index t (0 : Fin 2) * 1 + 1 * u.val = u.val; omega
  | ⟨1, _⟩ => show win0_2.index t (1 : Fin 2) * 64 + 1 * j.val = j.val; omega

/-- The projection's weights' block at every point: the whole matrix. -/
theorem projWeightBlock_apply (c : Dev nD) (t : Fin cfg0.N) (j : Fin 64) (k : Fin 64) :
    (iblk0 (F := Ideal) V c 3 t : Vec Ideal S64x64 .f32) (ix2 j k)
      = (V c main_arg5 : Vec Ideal S64x64 .f32) (ix2 j k) := by
  obtain ⟨-, -, -, -, -, -, e0, e1, -⟩ := blockIndices t
  unfold iblk0
  rw [View.read_apply]
  show V c main_arg5 (((cfg0.win 3).blk t).view.emb (ix2 j k)) = V c main_arg5 (ix2 j k)
  refine congrArg (V c main_arg5) (funext fun a => Fin.ext ?_)
  match a with
  | ⟨0, _⟩ => show win0_3.index t (0 : Fin 2) * 64 + 1 * j.val = j.val; omega
  | ⟨1, _⟩ => show win0_3.index t (1 : Fin 2) * 64 + 1 * k.val = k.val; omega

/-- The degree weights' block at point t: rows 2000 t … 2000 t + 1999 of the column. -/
theorem degreeBlock_apply (c : Dev nD) (t : Fin cfg0.N) (r : Fin 2000) (u : Fin 1) :
    (iblk0 (F := Ideal) V c 4 t : Vec Ideal S2000x1 .f32) (ix2 r u)
      = (V c main_v15 : Vec Ideal S100000x1 .f32) (ix2 (rowOf t r) u) := by
  obtain ⟨-, -, -, -, -, -, -, -, e0, e1, -⟩ := blockIndices t
  unfold iblk0
  rw [View.read_apply]
  show V c main_v15 (((cfg0.win 4).blk t).view.emb (ix2 r u)) = V c main_v15 (ix2 (rowOf t r) u)
  refine congrArg (V c main_v15) (funext fun a => Fin.ext ?_)
  match a with
  | ⟨0, _⟩ => show win0_4.index t (0 : Fin 2) * 2000 + 1 * r.val = 2000 * t.val + r.val; omega
  | ⟨1, _⟩ => show win0_4.index t (1 : Fin 2) * 1 + 1 * u.val = u.val; omega

/-! ## From the blocks to the array -/

/-- The whole array the kernel computes, as one function of the arrays it is entered with: at (n, k) the encoded row n
    against column k of the projection's weights, times the degree weight of n. -/
def encodedScaled (c : Dev nD) : (⟨2, ![100000, 64]⟩ : Shape).Idx → EReal := fun i =>
  Cert.Gcn.dense (Cert.Gcn.encode (fun p j => V c main_arg0 (ix2 p j)) (fun j q => V c main_arg3 (ix2 j q))
      (fun q => V c main_v20 (ix2 (0 : Fin 1) q))) (fun j q => V c main_arg5 (ix2 j q)) (i 0) (i 1)
    * (V c main_v15 (ix2 (i 0) (0 : Fin 1)) : EReal)

/-- What point t writes back is block t of that array. -/
theorem writeBack_eq (c : Dev nD) (t : Fin cfg0.N) :
    (dat0 (F := Ideal) V c).flushed 5 t = ((cfg0.win 5).blk t).view.read (Elt Ideal) (encodedScaled V c) := by
  show (cfg0.win 5).cut (grid0.coords t) ((dat0 (F := Ideal) V c).after 5 t) = _
  rw [after0_5]
  unfold out0_5
  rw [View.canon_unit_zero zeroOffsets]
  simp only [View.ld_unit_zero (S := S2000x200) zeroOffsets, View.ld_unit_zero (S := S200x64) zeroOffsets,
    View.ld_unit_zero (S := S1x64) zeroOffsets, View.ld_unit_zero (S := S64x64) zeroOffsets,
    View.ld_unit_zero (S := S2000x1) zeroOffsets]
  funext y
  obtain ⟨r, k, rfl⟩ : ∃ (r : Fin 2000) (k : Fin 64), y = ix2 r k := ⟨y 0, y 1, eq_ix2 y⟩
  obtain ⟨-, -, -, -, -, -, -, -, -, -, e0, e1⟩ := blockIndices t
  show k0_pay1 (F := Ideal) (iblk0 V c 0 t) (iblk0 V c 1 t) (iblk0 V c 2 t) (iblk0 V c 3 t) (iblk0 V c 4 t) (ix2 r k)
      = encodedScaled V c (((cfg0.win 5).blk t).view.emb (ix2 r k))
  have hemb : ((cfg0.win 5).blk t).view.emb (ix2 r k) = ix2 (rowOf t r) k := funext fun a => Fin.ext (by
    match a with
    | ⟨0, _⟩ => show win0_5.index t (0 : Fin 2) * 2000 + 1 * r.val = 2000 * t.val + r.val; omega
    | ⟨1, _⟩ => show win0_5.index t (1 : Fin 2) * 64 + 1 * k.val = k.val; omega)
  rw [hemb, body_apply]
  simp only [inputBlock_apply, encWeightBlock_apply, biasBlock_apply, projWeightBlock_apply, degreeBlock_apply]
  rfl

/-- Every index of the array is in the block of the point its row falls to: row n in point n / 2000. -/
theorem covered (i : S100000x64.Idx) :
    ∃ t : Fin cfg0.N, (cfg0.win 5).flush t = true ∧ i ∈ ((cfg0.win 5).blk t).view.set := by
  have h0 : (i 0).val < 100000 := (i 0).isLt
  have h1 : (i 1).val < 64 := (i 1).isLt
  have hN : (i 0).val / 2000 < cfg0.N := by rw [points]; omega
  obtain ⟨-, -, -, -, -, -, -, -, -, -, e0, e1⟩ := blockIndices ⟨(i 0).val / 2000, hN⟩
  have e0' : win0_5.index ⟨(i 0).val / 2000, hN⟩ (0 : Fin 2) = (i 0).val / 2000 := e0
  refine ⟨⟨(i 0).val / 2000, hN⟩, flush0_5 _, ?_⟩
  show i ∈ ((View.whole main_v21).slice (win0_5.rect ⟨(i 0).val / 2000, hN⟩)).set
  rw [View.set_slice_whole, Rect.mem_set_unit]
  intro a
  match a with
  | ⟨0, _⟩ =>
    show win0_5.index ⟨(i 0).val / 2000, hN⟩ (0 : Fin 2) * 2000 ≤ (i 0).val
      ∧ (i 0).val < win0_5.index ⟨(i 0).val / 2000, hN⟩ (0 : Fin 2) * 2000 + 2000
    omega
  | ⟨1, _⟩ =>
    show win0_5.index ⟨(i 0).val / 2000, hN⟩ (1 : Fin 2) * 64 ≤ (i 1).val
      ∧ (i 1).val < win0_5.index ⟨(i 0).val / 2000, hN⟩ (1 : Fin 2) * 64 + 64
    omega

/-- After the first kernel's fifty grid points its output array holds, at (n, k), the encoded row n projected by the
    first weight matrix, column k, times the degree weight of n — whatever the arrays held at entry (V). -/
theorem region0_value (c : Dev nD) (n : Fin 100000) (k : Fin 64) :
    (dat0 (F := Ideal) V c).arrAt 5 cfg0.N (ix2 n k)
      = Cert.Gcn.dense (Cert.Gcn.encode (fun p j => V c main_arg0 (ix2 p j)) (fun j q => V c main_arg3 (ix2 j q))
            (fun q => V c main_v20 (ix2 (0 : Fin 1) q))) (fun j q => V c main_arg5 (ix2 j q)) n k
          * (V c main_v15 (ix2 n (0 : Fin 1)) : EReal) :=
  congrFun ((dat0 (F := Ideal) V c).arrAt_eq_of_cover 5 (encodedScaled V c) (fun t _ => writeBack_eq V c t) covered)
    (ix2 n k)

end Cert.KernelIdeal.KValue

end
-- ==== Proof.KRegion1.lean ====
/-
  The second kernel's output array: the first layer closed (weight, bias, positive part), the second projection, each row scaled.
-/
import proofs.«425043_j20134806683790_3_alg».proof.Proof.Gen.KernelIdeal.Frame
import proofs.«425043_j20134806683790_3_alg».proof.Proof.Spec
import proofs.«425043_j20134806683790_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The arrays the second kernel is entered with, at their literal types: the first aggregate, the degree weights as a
    column, the first layer's bias as a row, the second weight matrix. -/
abbrev agg1Arr (c : Dev nD) : (⟨2, ![100000, 64]⟩ : Shape).Idx → EReal := V c main_v32
abbrev dis1Arr (c : Dev nD) : (⟨2, ![100000, 1]⟩ : Shape).Idx → EReal := V c main_v15
abbrev bias1Arr (c : Dev nD) : (⟨2, ![1, 64]⟩ : Shape).Idx → EReal := V c main_v33
abbrev w2Arr (c : Dev nD) : (⟨2, ![64, 64]⟩ : Shape).Idx → EReal := V c main_arg7

/-! ## The projection's operand indices -/

/-- The left operand of the second projection is read at the output's row … -/
theorem region1_proj_lhs_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- … and at the summed feature; -/
theorem region1_proj_lhs_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- the right operand at the summed feature … -/
theorem region1_proj_rhs_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- … and at the output's column. -/
theorem region1_proj_rhs_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- A [2000, 64] by [64, 64] product into a zero accumulator, at (r, k): the sum over the shared feature j of
    the left operand at (r, j) times the right operand at (j, k). -/
theorem region1_proj_apply (x : FVec Ideal S2000x64 .bf16) (W : FVec Ideal S64x64 .bf16) (r : Fin 2000) (k : Fin 64) :
    matmul dot_S2000x64_S64x64_S2000x64_1_0_0_1_n_n none x W (constant S2000x64 .f32 0x00000000#32) (ix2 r k)
      = ∑ j : Fin 64, x (ix2 r j) * W (ix2 j k) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun j _ => ?_
  have hj := ValueIdx.contrEquiv1_symm_val dot_S2000x64_S64x64_S2000x64_1_0_0_1_n_n 64 rfl rfl j
  have el : dot_S2000x64_S64x64_S2000x64_1_0_0_1_n_n.lhsIdx (ix2 r k) ((ValueIdx.contrEquiv1 dot_S2000x64_S64x64_S2000x64_1_0_0_1_n_n 64 rfl rfl).symm j) = ix2 r j := funext fun a => Fin.ext (by
    match a with
    | ⟨0, _⟩ => exact region1_proj_lhs_0 _ _
    | ⟨1, _⟩ => exact (region1_proj_lhs_1 _ _).trans hj)
  have er : dot_S2000x64_S64x64_S2000x64_1_0_0_1_n_n.rhsIdx (ix2 r k) ((ValueIdx.contrEquiv1 dot_S2000x64_S64x64_S2000x64_1_0_0_1_n_n 64 rfl rfl).symm j) = ix2 j k := funext fun a => Fin.ext (by
    match a with
    | ⟨0, _⟩ => exact (region1_proj_rhs_0 _ _).trans hj
    | ⟨1, _⟩ => exact region1_proj_rhs_1 _ _)
  rw [el, er]

/-! ## The body's payload at an index -/

/-- What one grid point stores, at (r, k) of its block: row r of the aggregate block scaled by the row's degree
    weight, the bias added, the positive part taken; that row projected by the second weight matrix onto column k;
    the result scaled by the row's degree weight again.  (A change of float format is the identity on extended reals.) -/
theorem region1_payload_apply (a : Vec Ideal S2000x64 .f32) (w : Vec Ideal S2000x1 .f32) (b : Vec Ideal S1x64 .f32)
    (W : Vec Ideal S64x64 .f32) (r : Fin 2000) (k : Fin 64) :
    k1_pay1 a w b W w (ix2 r k)
      = (∑ j : Fin 64, max (a (ix2 r j) * w (ix2 r (0 : Fin 1)) + b (ix2 (0 : Fin 1) j)) 0 * W (ix2 j k))
          * w (ix2 r (0 : Fin 1)) := by
  unfold k1_pay1
  simp only [shapeCast_self]
  rw [truncf_apply, mulf_apply, Cert.Column.broadcastTo_a1_ab_apply, region1_proj_apply]
  refine congrArg (· * w (ix2 r (0 : Fin 1))) (Finset.sum_congr rfl fun j _ => ?_)
  rw [truncf_apply, truncf_apply, maximumf_apply, addf_apply, mulf_apply, Cert.Column.broadcastTo_a1_ab_apply,
    broadcastTo_1b_ab_apply, broadcast_apply]
  show max _ (Ideal.ofBits .f32 0x00000000#32) * _ = _
  rw [Ideal.ofBits_zero_f32]

/-! ## The output array as one function of the arrays the region is entered with -/

/-- The entry (n, k) of the second kernel's result: the positive part of (aggregate · weight + bias) on row n,
    projected by the second weight matrix onto column k, times the degree weight of n. -/
def region1_cell (A : (⟨2, ![100000, 64]⟩ : Shape).Idx → EReal) (d : (⟨2, ![100000, 1]⟩ : Shape).Idx → EReal)
    (B : (⟨2, ![1, 64]⟩ : Shape).Idx → EReal) (Wt : (⟨2, ![64, 64]⟩ : Shape).Idx → EReal) (n : Fin 100000) (k : Fin 64) : EReal :=
  Cert.Gcn.dense (fun p j => max (A (ix2 p j) * d (ix2 p (0 : Fin 1)) + B (ix2 (0 : Fin 1) j)) 0) (fun j q => Wt (ix2 j q)) n k
    * d (ix2 n (0 : Fin 1))

/-- The whole result array: entry i is the cell at i's two coordinates. -/
def region1_arr (A : (⟨2, ![100000, 64]⟩ : Shape).Idx → EReal) (d : (⟨2, ![100000, 1]⟩ : Shape).Idx → EReal)
    (B : (⟨2, ![1, 64]⟩ : Shape).Idx → EReal) (Wt : (⟨2, ![64, 64]⟩ : Shape).Idx → EReal) :
    (⟨2, ![100000, 64]⟩ : Shape).Idx → EReal :=
  fun i => region1_cell A d B Wt ⟨(i 0).val, idx2_lt0 i⟩ ⟨(i 1).val, idx2_lt1 i⟩

/-- One block entry is one array entry: when row x of the aggregate block and of the weight block are row i of their
    arrays, the bias and matrix blocks are their whole arrays, and the columns agree, the payload at x is the cell at i. -/
theorem region1_block_cell (a : Vec Ideal S2000x64 .f32) (w : Vec Ideal S2000x1 .f32) (b : Vec Ideal S1x64 .f32)
    (W : Vec Ideal S64x64 .f32) (A : (⟨2, ![100000, 64]⟩ : Shape).Idx → EReal) (d : (⟨2, ![100000, 1]⟩ : Shape).Idx → EReal)
    (x : S2000x64.Idx) (i : (⟨2, ![100000, 64]⟩ : Shape).Idx)
    (hk : (x 1).val = (i 1).val)
    (ha : ∀ j : Fin 64, a (ix2 (⟨(x 0).val, idx2_lt0 x⟩ : Fin 2000) j) = A (ix2 (⟨(i 0).val, idx2_lt0 i⟩ : Fin 100000) j))
    (hw : w (ix2 (⟨(x 0).val, idx2_lt0 x⟩ : Fin 2000) (0 : Fin 1)) = d (ix2 (⟨(i 0).val, idx2_lt0 i⟩ : Fin 100000) (0 : Fin 1))) :
    k1_pay1 a w b W w x = region1_arr A d b W i := by
  obtain ⟨r, q, rfl⟩ : ∃ (r : Fin 2000) (q : Fin 64), x = ix2 r q := ⟨x 0, x 1, eq_ix2 x⟩
  obtain ⟨n, k, rfl⟩ : ∃ (n : Fin 100000) (k : Fin 64), i = ix2 n k := ⟨i 0, i 1, eq_ix2 i⟩
  obtain rfl : q = k := Fin.ext hk
  rw [region1_payload_apply]
  show _ = (∑ j : Fin 64, max (A (ix2 n j) * d (ix2 n (0 : Fin 1)) + b (ix2 (0 : Fin 1) j)) 0 * W (ix2 j q)) * d (ix2 n (0 : Fin 1))
  have hw' : w (ix2 r (0 : Fin 1)) = d (ix2 n (0 : Fin 1)) := hw
  rw [hw']
  refine congrArg (· * d (ix2 n (0 : Fin 1))) (Finset.sum_congr rfl fun j _ => ?_)
  have ha' : a (ix2 r j) = A (ix2 n j) := ha j
  rw [ha']

/-! ## The blocks a grid point reads, and the block it writes back -/

/-- The offsets of a whole-buffer access, written as a vector, are zero on both axes. -/
theorem region1_zero_offsets : (![0, 0] : Fin 2 → Nat) = fun _ => 0 := funext fun a => by fin_cases a <;> rfl

/-- The index maps over the fifty grid points: the aggregate's, the degree weights' and the result's blocks are
    numbered by the point along the rows; the bias and the second weight matrix are one block each. -/
theorem region1_block_numbers : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point t holds rows 2000·t … 2000·t + 1999 of the aggregate. -/
theorem region1_aggBlock_apply (c : Dev nD) (t : Fin cfg1.N) (x : S2000x64.Idx) (i : (⟨2, ![100000, 64]⟩ : Shape).Idx)
    (h0 : (i 0).val = 2000 * t.val + (x 0).val) (h1 : (i 1).val = (x 1).val) :
    (iblk1 V c 0 t : Vec Ideal S2000x64 .f32) x = agg1Arr V c i := by
  obtain ⟨e0, e1, -⟩ := region1_block_numbers t
  unfold iblk1
  rw [View.read_apply]
  show V c main_v32 _ = V c main_v32 _
  congr 1
  funext a
  apply Fin.ext
  match a with
  | ⟨0, _⟩ => show win1_0.index t (0 : Fin 2) * 2000 + 1 * (x 0).val = (i 0).val; rw [e0, h0]; omega
  | ⟨1, _⟩ => show win1_0.index t (1 : Fin 2) * 64 + 1 * (x 1).val = (i 1).val; rw [e1, h1]; omega

/-- The degree weights' block at point t holds rows 2000·t … 2000·t + 1999 of the column. -/
theorem region1_disBlock_apply (c : Dev nD) (t : Fin cfg1.N) (x : S2000x1.Idx) (i : (⟨2, ![100000, 1]⟩ : Shape).Idx)
    (h0 : (i 0).val = 2000 * t.val + (x 0).val) :
    (iblk1 V c 1 t : Vec Ideal S2000x1 .f32) x = dis1Arr V c i := by
  obtain ⟨-, -, e0, e1, -⟩ := region1_block_numbers t
  unfold iblk1
  rw [View.read_apply]
  show V c main_v15 _ = V c main_v15 _
  congr 1
  funext a
  apply Fin.ext
  match a with
  | ⟨0, _⟩ => show win1_1.index t (0 : Fin 2) * 2000 + 1 * (x 0).val = (i 0).val; rw [e0, h0]; omega
  | ⟨1, _⟩ =>
    show win1_1.index t (1 : Fin 2) * 1 + 1 * (x 1).val = (i 1).val
    have hx : (x 1).val < 1 := idx2_lt1 x
    have hi : (i 1).val < 1 := idx2_lt1 i
    rw [e1]; omega

/-- The bias's one block is the bias row. -/
theorem region1_biasBlock_eq (c : Dev nD) (t : Fin cfg1.N) : (iblk1 V c 2 t : Vec Ideal S1x64 .f32) = bias1Arr V c := by
  obtain ⟨-, -, -, -, e0, e1, -⟩ := region1_block_numbers t
  funext x
  unfold iblk1
  rw [View.read_apply]
  show V c main_v33 _ = V c main_v33 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 64 + 1 * (x 1).val = (x 1).val; rw [e1]; omega

/-- The second weight matrix's one block is the matrix. -/
theorem region1_w2Block_eq (c : Dev nD) (t : Fin cfg1.N) : (iblk1 V c 3 t : Vec Ideal S64x64 .f32) = w2Arr V c := by
  obtain ⟨-, -, -, -, -, -, e0, e1, -⟩ := region1_block_numbers t
  funext x
  unfold iblk1
  rw [View.read_apply]
  show V c main_arg7 _ = V c main_arg7 _
  congr 1
  funext a
  apply Fin.ext
  match a with
  | ⟨0, _⟩ => show win1_3.index t (0 : Fin 2) * 64 + 1 * (x 0).val = (x 0).val; rw [e0]; omega
  | ⟨1, _⟩ => show win1_3.index t (1 : Fin 2) * 64 + 1 * (x 1).val = (x 1).val; rw [e1]; omega

/-- WHAT POINT t WRITES BACK is block t of the whole result array. -/
theorem region1_flushed (c : Dev nD) (t : Fin cfg1.N) :
    (dat1 (F := Ideal) V c).flushed 4 t
      = ((cfg1.win 4).blk t).view.read (Elt Ideal) (region1_arr (agg1Arr V c) (dis1Arr V c) (bias1Arr V c) (w2Arr V c)) := by
  show (cfg1.win 4).cut (grid1.coords t) ((dat1 V c).after 4 t) = _
  rw [after1_4]
  unfold out1_4
  rw [View.canon_unit_zero region1_zero_offsets]
  simp only [View.ld_unit_zero (S := S2000x64) region1_zero_offsets, View.ld_unit_zero (S := S2000x1) region1_zero_offsets, View.ld_unit_zero (S := S1x64) region1_zero_offsets,
    View.ld_unit_zero (S := S64x64) region1_zero_offsets]
  rw [region1_biasBlock_eq, region1_w2Block_eq]
  obtain ⟨-, -, -, -, -, -, -, -, e0, e1⟩ := region1_block_numbers t
  funext y
  have hy0 : (y 0).val < 2000 := (y 0).isLt
  have hy1 : (y 1).val < 64 := (y 1).isLt
  have hi0 : ((((cfg1.win 4).blk t).view.emb y) 0).val = 2000 * t.val + (y 0).val := by
    show win1_4.index t (0 : Fin 2) * 2000 + 1 * (y 0).val = _; rw [e0]; omega
  have hi1 : ((((cfg1.win 4).blk t).view.emb y) 1).val = (y 1).val := by
    show win1_4.index t (1 : Fin 2) * 64 + 1 * (y 1).val = _; rw [e1]; omega
  rw [View.read_apply]
  refine region1_block_cell (iblk1 V c 0 t) (iblk1 V c 1 t) (bias1Arr V c) (w2Arr V c) (agg1Arr V c) (dis1Arr V c)
    ((cfg1.win 4).xinj (grid1.coords t) y) (((cfg1.win 4).blk t).view.emb y) hi1.symm (fun j => ?_) ?_
  · exact region1_aggBlock_apply V c t _ _ hi0 rfl
  · exact region1_disBlock_apply V c t _ _ hi0

/-- Every row lies in the block of the point numbered by the row over 2000. -/
theorem region1_cover (i : (⟨2, ![100000, 64]⟩ : Shape).Idx) :
    ∃ t : Fin cfg1.N, (cfg1.win 4).flush t = true ∧ i ∈ ((cfg1.win 4).blk t).view.set := by
  have hi0 : (i 0).val < 100000 := idx2_lt0 i
  have hi1 : (i 1).val < 64 := idx2_lt1 i
  have hN : cfg1.N = 50 := N_1
  let t : Fin cfg1.N := ⟨(i 0).val / 2000, by rw [hN]; omega⟩
  obtain ⟨-, -, -, -, -, -, -, -, e0, e1⟩ := region1_block_numbers t
  refine ⟨t, flush1_4 t, ?_⟩
  show i ∈ ((View.whole main_v34).slice (win1_4.rect t)).set
  rw [View.set_slice_whole, Rect.mem_set_unit]
  intro a
  match a with
  | ⟨0, _⟩ =>
    show win1_4.index t (0 : Fin 2) * 2000 ≤ (i 0).val ∧ (i 0).val < win1_4.index t (0 : Fin 2) * 2000 + 2000
    rw [e0]; show (i 0).val / 2000 * 2000 ≤ (i 0).val ∧ (i 0).val < (i 0).val / 2000 * 2000 + 2000; omega
  | ⟨1, _⟩ =>
    show win1_4.index t (1 : Fin 2) * 64 ≤ (i 1).val ∧ (i 1).val < win1_4.index t (1 : Fin 2) * 64 + 64
    rw [e1]; omega

/-- After the second kernel's fifty grid points its output array holds, at (n, k), the positive part of
    (aggregate · weight + bias) on row n, projected by the second weight matrix, column k, times the degree weight of n. -/
theorem region1_value (c : Dev nD) (n : Fin 100000) (k : Fin 64) :
    (dat1 (F := Ideal) V c).arrAt 4 cfg1.N (ix2 n k)
      = Cert.Gcn.dense (fun p j => max (agg1Arr V c (ix2 p j) * dis1Arr V c (ix2 p (0 : Fin 1))
            + bias1Arr V c (ix2 (0 : Fin 1) j)) 0) (fun j q => w2Arr V c (ix2 j q)) n k
          * dis1Arr V c (ix2 n (0 : Fin 1)) := by
  rw [(dat1 (F := Ideal) V c).arrAt_eq_of_cover 4 (region1_arr (agg1Arr V c) (dis1Arr V c) (bias1Arr V c) (w2Arr V c))
    (fun t _ => region1_flushed V c t) region1_cover]
  rfl

end Cert.KernelIdeal.KValue

end
-- ==== Proof.KRegion2.lean ====
/-
  The third kernel's output array: the second layer closed (weight, bias), its rows added per graph over the fifty grid points.
-/
import proofs.«425043_j20134806683790_3_alg».proof.Proof.Gen.KernelIdeal.Frame
import proofs.«425043_j20134806683790_3_alg».proof.Proof.Spec
import proofs.«425043_j20134806683790_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat Cfg Window)

open Idealize.ShloMosaic.Tactic

/-- The block offsets of a whole-buffer access are all zero. -/
theorem pool_zero_offsets : (![0, 0] : Fin 2 → Nat) = fun _ => 0 := funext fun a => by fin_cases a <;> rfl

section Pieces
variable {F : FTy → Type} [FloatOps F]

/-- At a point other than the first the body leaves, in the output buffer holding `xo`, the one store's value: the
    buffer's contents plus the point's contribution, each load reading a whole buffer. -/
theorem pool_out_later (c : Dev nD) (i : grid2.Coords)
    (a1 : Memref sig .tc .vmem S2000x1 .i32) (h1 : a1.IsWhole) (a2 : Memref sig .tc .vmem S2000x64 .f32) (h2 : a2.IsWhole)
    (a3 : Memref sig .tc .vmem S2000x1 .f32) (h3 : a3.IsWhole) (a4 : Memref sig .tc .vmem S1x64 .f32) (h4 : a4.IsWhole)
    (a5 : Memref sig .tc .vmem S64x64 .f32) (h5 : a5.IsWhole) (hc : ¬cond2_0 i)
    (x0 : Vec F S2000x1 .i32) (x1 : Vec F S2000x64 .f32) (x2 : Vec F S2000x1 .f32) (x3 : Vec F S1x64 .f32)
    (xo : Vec F S64x64 .f32) :
    out2_B_4 c i a1 h1 a2 h2 a3 h3 a4 h4 a5 h5 hc x0 x1 x2 x3 xo = k2_pay2 x1 x2 x3 x0 xo := by
  unfold out2_B_4
  rw [View.read_writes_eq_canon _ _ _ (cover2_B_4 c i a1 h1 a2 h2 a3 h3 a4 h4 a5 h5 hc x0 x1 x2 x3 xo)]
  unfold kernelRun2_B
  dsimp only
  sl_unfold_words
  rw [View.canon_unit_zero pool_zero_offsets]
  simp only [View.readAt_eq_ld, h1.read_unread, h2.read_unread, h3.read_unread, h4.read_unread, h5.read_unread,
    View.ld_unit_zero (S := S2000x1) pool_zero_offsets, View.ld_unit_zero (S := S2000x64) pool_zero_offsets, View.ld_unit_zero (S := S1x64) pool_zero_offsets,
    View.ld_unit_zero (S := S64x64) pool_zero_offsets]

/-- At the first point the body stores the zero block, reads it back, and leaves the zero block plus the point's
    contribution. -/
theorem pool_out_first (c : Dev nD) (i : grid2.Coords)
    (a1 : Memref sig .tc .vmem S2000x1 .i32) (h1 : a1.IsWhole) (a2 : Memref sig .tc .vmem S2000x64 .f32) (h2 : a2.IsWhole)
    (a3 : Memref sig .tc .vmem S2000x1 .f32) (h3 : a3.IsWhole) (a4 : Memref sig .tc .vmem S1x64 .f32) (h4 : a4.IsWhole)
    (a5 : Memref sig .tc .vmem S64x64 .f32) (h5 : a5.IsWhole) (hc : cond2_0 i)
    (x0 : Vec F S2000x1 .i32) (x1 : Vec F S2000x64 .f32) (x2 : Vec F S2000x1 .f32) (x3 : Vec F S1x64 .f32) :
    out2_A_4 c i a1 h1 a2 h2 a3 h3 a4 h4 a5 h5 hc x0 x1 x2 x3 = k2_pay2 x1 x2 x3 x0 (k2_pay1 (F := F)) := by
  unfold out2_A_4
  rw [View.read_writes_eq_canon _ _ _ (cover2_A_4 c i a1 h1 a2 h2 a3 h3 a4 h4 a5 h5 hc x0 x1 x2 x3)]
  unfold kernelRun2_A
  dsimp only
  sl_unfold_words
  rw [View.canon_cons_unit_zero (S := S64x64) pool_zero_offsets, View.readCov_unit_zero (S := S64x64) _ pool_zero_offsets]
  simp only [View.readAt_eq_ld, h1.read_unread, h2.read_unread, h3.read_unread, h4.read_unread,
    View.ld_unit_zero (S := S2000x1) pool_zero_offsets, View.ld_unit_zero (S := S2000x64) pool_zero_offsets, View.ld_unit_zero (S := S1x64) pool_zero_offsets,
    View.ld_unit_zero (S := S64x64) pool_zero_offsets]
end Pieces

/-! ## The point's contribution at an entry -/

/-- The pooling product contracts the row axis of both operands: the first operand is read at (contraction row, output
    row), the second at (contraction row, output column). Axis by axis: -/
theorem lhs_pool_0 (i : S64x64.Idx) (q : dot_S2000x64_S2000x64_S64x64_0_0_1_1_n_n.contr.Idx) :
    (dot_S2000x64_S2000x64_S64x64_0_0_1_1_n_n.lhsIdx i q 0).val = (q ⟨0, by decide⟩).val :=
  dot_S2000x64_S2000x64_S64x64_0_0_1_1_n_n.lhsIdx_val_of_single rfl i q
/-- the first operand's column is the output's row; -/
theorem lhs_pool_1 (i : S64x64.Idx) (q : dot_S2000x64_S2000x64_S64x64_0_0_1_1_n_n.contr.Idx) :
    (dot_S2000x64_S2000x64_S64x64_0_0_1_1_n_n.lhsIdx i q 1).val = (i 0).val := by
  unfold DotDims.lhsIdx
  rw [dif_neg (show ¬(1 : Fin S2000x64.rank) ∈ dot_S2000x64_S2000x64_S64x64_0_0_1_1_n_n.lhsBatch by decide), dif_pos (show (1 : Fin S2000x64.rank) ∈ dot_S2000x64_S2000x64_S64x64_0_0_1_1_n_n.lhsNonContracting by decide)]
  rfl
/-- the second operand's row is the contraction row; -/
theorem rhs_pool_0 (i : S64x64.Idx) (q : dot_S2000x64_S2000x64_S64x64_0_0_1_1_n_n.contr.Idx) :
    (dot_S2000x64_S2000x64_S64x64_0_0_1_1_n_n.rhsIdx i q 0).val = (q ⟨0, by decide⟩).val :=
  dot_S2000x64_S2000x64_S64x64_0_0_1_1_n_n.rhsIdx_val_of_single rfl i q
/-- the second operand's column is the output's column. -/
theorem rhs_pool_1 (i : S64x64.Idx) (q : dot_S2000x64_S2000x64_S64x64_0_0_1_1_n_n.contr.Idx) :
    (dot_S2000x64_S2000x64_S64x64_0_0_1_1_n_n.rhsIdx i q 1).val = (i 1).val := by
  unfold DotDims.rhsIdx
  rw [dif_neg (show ¬(1 : Fin S2000x64.rank) ∈ dot_S2000x64_S2000x64_S64x64_0_0_1_1_n_n.rhsBatch by decide), dif_pos (show (1 : Fin S2000x64.rank) ∈ dot_S2000x64_S2000x64_S64x64_0_0_1_1_n_n.rhsNonContracting by decide)]
  rfl

/-- The product of two [2000,64] matrices contracted along their rows, into a zero accumulator, at (g, k): the sum over
    the rows r of the first at (r, g) times the second at (r, k). -/
theorem poolDot_apply (l r : FVec Ideal S2000x64 .bf16) (g k : Fin 64) :
    matmul dot_S2000x64_S2000x64_S64x64_0_0_1_1_n_n none l r (constant S64x64 .f32 0x00000000#32) (ix2 g k)
      = ∑ p : Fin 2000, l (ix2 p g) * r (ix2 p k) := by
  simp only [matmul]
  rw [Ideal.matmul_constant_zero_apply, ← Equiv.sum_comp (ValueIdx.contrEquiv1 dot_S2000x64_S2000x64_S64x64_0_0_1_1_n_n 2000 rfl rfl).symm]
  refine Finset.sum_congr rfl fun p _ => ?_
  have hp := ValueIdx.contrEquiv1_symm_val dot_S2000x64_S2000x64_S64x64_0_0_1_1_n_n 2000 rfl rfl p
  have el : dot_S2000x64_S2000x64_S64x64_0_0_1_1_n_n.lhsIdx (ix2 g k) ((ValueIdx.contrEquiv1 dot_S2000x64_S2000x64_S64x64_0_0_1_1_n_n 2000 rfl rfl).symm p) = ix2 p g := funext fun a => Fin.ext (by
    match a with
    | ⟨0, _⟩ => exact (lhs_pool_0 _ _).trans hp
    | ⟨1, _⟩ => exact lhs_pool_1 _ _)
  have er : dot_S2000x64_S2000x64_S64x64_0_0_1_1_n_n.rhsIdx (ix2 g k) ((ValueIdx.contrEquiv1 dot_S2000x64_S2000x64_S64x64_0_0_1_1_n_n 2000 rfl rfl).symm p) = ix2 p k := funext fun a => Fin.ext (by
    match a with
    | ⟨0, _⟩ => exact (rhs_pool_0 _ _).trans hp
    | ⟨1, _⟩ => exact rhs_pool_1 _ _)
  rw [el, er]

/-- A one-bit equality test, widened and read as a signed integer: one where the words agree, zero elsewhere. -/
theorem pool_onehot_val (A B : BitVec 32) :
    (FloatOps.sitofp (F := Ideal) .f32 ((IntOp.cmpi .eq A B).setWidth 32) : EReal) = if A = B then 1 else 0 := by
  by_cases h : A = B
  · rw [if_pos h, StableHlo.Predicate.cmpi_eq_iff.mpr h]
    show (((((1#1 : BitVec 1).setWidth 32).toInt : ℤ) : ℝ) : EReal) = 1
    rw [show ((1#1 : BitVec 1).setWidth 32).toInt = 1 by decide]; simp
  · rw [if_neg h, eq_zero_of_ne_one (fun h' => h (StableHlo.Predicate.cmpi_eq_iff.mp h'))]
    show (((((0#1 : BitVec 1).setWidth 32).toInt : ℤ) : ℝ) : EReal) = 0
    rw [show ((0#1 : BitVec 1).setWidth 32).toInt = 0 by decide]; simp

/-- A [1, b] array broadcast to [a, b] reads, at (p, k), the operand's one row at k. -/
theorem pool_broadcastTo_1b_ab_apply {α : Type} {a b : ℕ} (v : (⟨2, ![1, b]⟩ : Shape).Idx → α)
    (h : (⟨2, ![1, b]⟩ : Shape).Broadcasts ⟨2, ![a, b]⟩) (p : Fin a) (k : Fin b) :
    broadcastTo ⟨2, ![a, b]⟩ v h (ix2 p k) = v (ix2 (0 : Fin 1) k) := by
  refine broadcastTo_apply v h (ix2 p k) (ix2 (0 : Fin 1) k) fun ax => ?_
  match ax with
  | ⟨0, _⟩ => rfl
  | ⟨1, _⟩ =>
    show k.val = if b = 1 then 0 else k.val
    split
    · have := k.isLt; omega
    · rfl

/-- THE BODY'S VALUE at (g, k): the buffer's entry plus, over the block's rows r whose graph word is g, the row's
    aggregate times its weight plus the bias in column k — the 0/1 matrix has a one at (r, g) exactly there. -/
theorem pool_pay_apply (x1 : (⟨2, ![2000, 64]⟩ : Shape).Idx → EReal) (x2 : (⟨2, ![2000, 1]⟩ : Shape).Idx → EReal)
    (x3 : (⟨2, ![1, 64]⟩ : Shape).Idx → EReal) (x0 : (⟨2, ![2000, 1]⟩ : Shape).Idx → BitVec 32)
    (xo : (⟨2, ![64, 64]⟩ : Shape).Idx → EReal) (g k : Fin 64) :
    k2_pay2 (F := Ideal) x1 x2 x3 x0 xo (ix2 g k)
      = xo (ix2 g k) + ∑ p : Fin 2000, (if BitVec.ofNat 32 g.val = x0 (ix2 p (0 : Fin 1)) then (1 : EReal) else 0)
          * (x1 (ix2 p k) * x2 (ix2 p (0 : Fin 1)) + x3 (ix2 (0 : Fin 1) k)) := by
  unfold k2_pay2
  dsimp only
  refine (addf_apply _ _ _).trans ?_
  refine congrArg₂ (· + ·) (congrFun (shapeCast_self xo _) _) ?_
  refine (poolDot_apply _ _ g k).trans (Finset.sum_congr rfl fun p _ => ?_)
  refine congrArg₂ (· * ·) ?_ ?_
  · show FloatOps.sitofp (F := Ideal) .f32 ((IntOp.cmpi .eq (iota .tc S2000x64 32 [1] iota_S2000x64_d1_w32 (ix2 p g))
        (broadcastTo S2000x64 (shapeCast S2000x1 x0 shapeCasts_S2000x1_S2000x1) broadcasts_S2000x1_S2000x64 (ix2 p g))).setWidth 32) = _
    rw [pool_onehot_val, iota_single_apply, Cert.Column.broadcastTo_a1_ab_apply, shapeCast_self]
  · show shapeCast S2000x64 x1 shapeCasts_S2000x64_S2000x64 (ix2 p k)
        * broadcastTo S2000x64 (shapeCast S2000x1 x2 shapeCasts_S2000x1_S2000x1) broadcasts_S2000x1_S2000x64 (ix2 p k)
        + broadcastTo S2000x64 (shapeCast S1x64 x3 shapeCasts_S1x64_S1x64) broadcasts_S1x64_S2000x64 (ix2 p k) = _
    rw [shapeCast_self, shapeCast_self, shapeCast_self, Cert.Column.broadcastTo_a1_ab_apply, pool_broadcastTo_1b_ab_apply]

variable (V : (c : Dev nD) → (b : Ref sig .tc) → Buf (Elt Ideal) ((c : Thread nD τ).loc b))

/-- The arrays the third kernel is entered with, at their literal types: the second aggregate, the degree weights as a
    column, the second layer's bias as a row, the graph words as a column. -/
abbrev agg2Arr (c : Dev nD) : (⟨2, ![100000, 64]⟩ : Shape).Idx → EReal := V c main_v45
abbrev dis2Arr (c : Dev nD) : (⟨2, ![100000, 1]⟩ : Shape).Idx → EReal := V c main_v15
abbrev bias2Arr (c : Dev nD) : (⟨2, ![1, 64]⟩ : Shape).Idx → EReal := V c main_v47
abbrev graphArr (c : Dev nD) : (⟨2, ![100000, 1]⟩ : Shape).Idx → BitVec 32 := V c main_v46

/-! ## The input blocks at a point -/

/-- The blocks of the four input windows at a point, at their literal types: graph words, aggregate rows, weights, bias. -/
abbrev poolGraphBlk (c : Dev nD) (t : Fin cfg2.N) : (⟨2, ![2000, 1]⟩ : Shape).Idx → BitVec 32 := iblk2 V c 0 t
abbrev poolAggBlk (c : Dev nD) (t : Fin cfg2.N) : (⟨2, ![2000, 64]⟩ : Shape).Idx → EReal := iblk2 V c 1 t
abbrev poolDisBlk (c : Dev nD) (t : Fin cfg2.N) : (⟨2, ![2000, 1]⟩ : Shape).Idx → EReal := iblk2 V c 2 t
abbrev poolBiasBlk (c : Dev nD) (t : Fin cfg2.N) : (⟨2, ![1, 64]⟩ : Shape).Idx → EReal := iblk2 V c 3 t

/-- Where the windows' blocks sit: at point t the three row-blocked inputs are at block row t, the bias and the output at
    block (0, 0). -/
theorem pool_block_indices : ∀ t : Fin cfg2.N,
    (win2_0.index t 0 = t.val ∧ win2_0.index t 1 = 0) ∧ (win2_1.index t 0 = t.val ∧ win2_1.index t 1 = 0)
    ∧ (win2_2.index t 0 = t.val ∧ win2_2.index t 1 = 0) ∧ (win2_3.index t 0 = 0 ∧ win2_3.index t 1 = 0)
    ∧ (win2_4.index t 0 = 0 ∧ win2_4.index t 1 = 0) :=
  (by decide +kernel : ∀ t : Fin grid2.N, _)

/-- Row p of point t's graph-word block is node 2000 t + p's word. -/
theorem poolGraphBlk_apply (c : Dev nD) (t : Fin cfg2.N) (p : Fin 2000) (u : Fin 1) (h : 2000 * t.val + p.val < 100000) :
    poolGraphBlk V c t (ix2 p u) = graphArr V c (ix2 ⟨2000 * t.val + p.val, h⟩ u) := by
  unfold poolGraphBlk iblk2
  rw [View.read_apply]
  show V c main_v46 _ = V c main_v46 _
  refine congrArg (V c main_v46) (funext fun a => Fin.ext ?_)
  match a with
  | ⟨0, _⟩ =>
    show win2_0.index t 0 * 2000 + 1 * p.val = 2000 * t.val + p.val
    rw [(pool_block_indices t).1.1]; omega
  | ⟨1, _⟩ =>
    show win2_0.index t 1 * 1 + 1 * u.val = u.val
    rw [(pool_block_indices t).1.2]; omega

/-- Row p of point t's aggregate block is node 2000 t + p's row. -/
theorem poolAggBlk_apply (c : Dev nD) (t : Fin cfg2.N) (p : Fin 2000) (k : Fin 64) (h : 2000 * t.val + p.val < 100000) :
    poolAggBlk V c t (ix2 p k) = agg2Arr V c (ix2 ⟨2000 * t.val + p.val, h⟩ k) := by
  unfold poolAggBlk iblk2
  rw [View.read_apply]
  show V c main_v45 _ = V c main_v45 _
  refine congrArg (V c main_v45) (funext fun a => Fin.ext ?_)
  match a with
  | ⟨0, _⟩ =>
    show win2_1.index t 0 * 2000 + 1 * p.val = 2000 * t.val + p.val
    rw [(pool_block_indices t).2.1.1]; omega
  | ⟨1, _⟩ =>
    show win2_1.index t 1 * 64 + 1 * k.val = k.val
    rw [(pool_block_indices t).2.1.2]; omega

/-- Row p of point t's weight block is node 2000 t + p's weight. -/
theorem poolDisBlk_apply (c : Dev nD) (t : Fin cfg2.N) (p : Fin 2000) (u : Fin 1) (h : 2000 * t.val + p.val < 100000) :
    poolDisBlk V c t (ix2 p u) = dis2Arr V c (ix2 ⟨2000 * t.val + p.val, h⟩ u) := by
  unfold poolDisBlk iblk2
  rw [View.read_apply]
  show V c main_v15 _ = V c main_v15 _
  refine congrArg (V c main_v15) (funext fun a => Fin.ext ?_)
  match a with
  | ⟨0, _⟩ =>
    show win2_2.index t 0 * 2000 + 1 * p.val = 2000 * t.val + p.val
    rw [(pool_block_indices t).2.2.1.1]; omega
  | ⟨1, _⟩ =>
    show win2_2.index t 1 * 1 + 1 * u.val = u.val
    rw [(pool_block_indices t).2.2.1.2]; omega

/-- Every point's bias block is the whole bias row. -/
theorem poolBiasBlk_apply (c : Dev nD) (t : Fin cfg2.N) (u : Fin 1) (k : Fin 64) :
    poolBiasBlk V c t (ix2 u k) = bias2Arr V c (ix2 u k) := by
  unfold poolBiasBlk iblk2
  rw [View.read_apply]
  show V c main_v47 _ = V c main_v47 _
  refine congrArg (V c main_v47) (funext fun a => Fin.ext ?_)
  match a with
  | ⟨0, _⟩ =>
    show win2_3.index t 0 * 1 + 1 * u.val = u.val
    rw [(pool_block_indices t).2.2.2.1.1]; omega
  | ⟨1, _⟩ =>
    show win2_3.index t 1 * 64 + 1 * k.val = k.val
    rw [(pool_block_indices t).2.2.2.1.2]; omega

/-! ## The running sum -/

/-- Node i's term in the sum for graph g and column k: its closed row (aggregate · weight + bias) where its graph word is
    g, zero elsewhere, and zero past the last node. -/
def poolTerm (c : Dev nD) (g k : Fin 64) (i : ℕ) : EReal :=
  if h : i < 100000 then
    (if BitVec.ofNat 32 g.val = graphArr V c (ix2 ⟨i, h⟩ (0 : Fin 1)) then (1 : EReal) else 0)
      * (agg2Arr V c (ix2 ⟨i, h⟩ k) * dis2Arr V c (ix2 ⟨i, h⟩ (0 : Fin 1)) + bias2Arr V c (ix2 (0 : Fin 1) k))
  else 0

/-- Point t's contribution at (g, k) is the sum of the terms of the nodes 2000 t, …, 2000 t + 1999. -/
theorem pool_contrib_eq (c : Dev nD) (t : Fin cfg2.N) (g k : Fin 64) :
    (∑ p : Fin 2000, (if BitVec.ofNat 32 g.val = poolGraphBlk V c t (ix2 p (0 : Fin 1)) then (1 : EReal) else 0)
        * (poolAggBlk V c t (ix2 p k) * poolDisBlk V c t (ix2 p (0 : Fin 1)) + poolBiasBlk V c t (ix2 (0 : Fin 1) k)))
      = ∑ p ∈ Finset.range 2000, poolTerm V c g k (2000 * t.val + p) := by
  have hN : t.val < 50 := lt_of_lt_of_eq t.isLt (show cfg2.N = 50 from N_2)
  rw [Finset.sum_range]
  refine Finset.sum_congr rfl fun p _ => ?_
  have h : 2000 * t.val + p.val < 100000 := by have := p.isLt; omega
  unfold poolTerm
  rw [dif_pos h, poolGraphBlk_apply V c t p 0 h, poolAggBlk_apply V c t p k h, poolDisBlk_apply V c t p 0 h, poolBiasBlk_apply V c t 0 k]

/-- THE ACCUMULATION: after point n the output buffer holds, at (g, k), zero plus the terms of the first 2000 (n + 1)
    nodes — the first point stores zero and adds its block, every later point adds its block to what it finds. -/
theorem pool_outsAt_eq (c : Dev nD) (g k : Fin 64) : ∀ (n : ℕ) (hn : n < cfg2.N),
    outsAt2 V c n hn (ix2 g k) = 0 + ∑ i ∈ Finset.range (2000 * (n + 1)), poolTerm V c g k i
  | 0, hn => by
    refine (congrFun (outsAt2_A V c ⟨0, hn⟩ rfl) (ix2 g k)).trans ?_
    refine (congrFun (pool_out_first (F := Ideal) c (grid2.coords ⟨0, hn⟩) (ms2_0 ⟨0, hn⟩) (hs2_0 ⟨0, hn⟩) (ms2_1 ⟨0, hn⟩) (hs2_1 ⟨0, hn⟩)
      (ms2_2 ⟨0, hn⟩) (hs2_2 ⟨0, hn⟩) (ms2_3 ⟨0, hn⟩) (hs2_3 ⟨0, hn⟩) (ms2_4 ⟨0, hn⟩) (hs2_4 ⟨0, hn⟩)
      ((hcond2_0 ⟨0, hn⟩).mpr rfl) (iblk2 V c 0 ⟨0, hn⟩) (iblk2 V c 1 ⟨0, hn⟩) (iblk2 V c 2 ⟨0, hn⟩) (iblk2 V c 3 ⟨0, hn⟩))
      (ix2 g k)).trans ?_
    refine (pool_pay_apply (poolAggBlk V c ⟨0, hn⟩) (poolDisBlk V c ⟨0, hn⟩) (poolBiasBlk V c ⟨0, hn⟩) (poolGraphBlk V c ⟨0, hn⟩) (k2_pay1 (F := Ideal)) g k).trans ?_
    rw [pool_contrib_eq V c ⟨0, hn⟩ g k]
    show Ideal.ofBits .f32 0x00000000#32 + _ = _
    rw [Ideal.ofBits_zero_f32]
    simp only [Nat.mul_zero, Nat.zero_add, Nat.mul_one]
  | n + 1, hn => by
    have hN : cfg2.N = 50 := N_2
    have hB : ¬(⟨n + 1, hn⟩ : Fin cfg2.N).val % 50 = 0 := by dsimp only; omega
    refine (congrFun (outsAt2_B V c ⟨n + 1, hn⟩ hB) (ix2 g k)).trans ?_
    refine (congrFun (pool_out_later (F := Ideal) c (grid2.coords ⟨n + 1, hn⟩) (ms2_0 ⟨n + 1, hn⟩) (hs2_0 ⟨n + 1, hn⟩) (ms2_1 ⟨n + 1, hn⟩) (hs2_1 ⟨n + 1, hn⟩)
      (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩)
      (fun h => hB ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩)
      (outsAt2 V c n (Nat.lt_of_succ_lt hn))) (ix2 g k)).trans ?_
    refine (pool_pay_apply (poolAggBlk V c ⟨n + 1, hn⟩) (poolDisBlk V c ⟨n + 1, hn⟩) (poolBiasBlk V c ⟨n + 1, hn⟩) (poolGraphBlk V c ⟨n + 1, hn⟩)
      (outsAt2 V c n (Nat.lt_of_succ_lt hn)) g k).trans ?_
    rw [pool_outsAt_eq c g k n (Nat.lt_of_succ_lt hn), pool_contrib_eq V c ⟨n + 1, hn⟩ g k,
      show 2000 * (n + 1 + 1) = 2000 * (n + 1) + 2000 by ring, Finset.sum_range_add, add_assoc]

/-! ## The array after the run -/

/-- The last grid point. -/
abbrev poolLast : Fin cfg2.N := ⟨49, by rw [show cfg2.N = 50 from N_2]; decide⟩

/-- What the output buffer holds after the last point, as contents of the result array (its one block is the array). -/
abbrev poolLastBuf (c : Dev nD) : Buf (Elt Ideal) ((c : Thread nD τ).loc main_v48) := outsAt2 V c 49 poolLast.isLt

/-- The one write-back, at the last point, writes the buffer: block (0, 0) of the [64,64] array, read through zero
    offsets, is the array. -/
theorem pool_flushed_eq (c : Dev nD) (t : Fin cfg2.N) (hf : (cfg2.win 4).flush t = true) :
    (dat2 V c).flushed 4 t = ((cfg2.win 4).blk t).view.read (Elt Ideal) (poolLastBuf V c) := by
  have hN : cfg2.N = 50 := N_2
  have h49 : t.val = 49 := by have := (flush2_4 t).mp hf; have := t.isLt; omega
  obtain rfl : t = poolLast := Fin.ext h49
  show (cfg2.win 4).cut (grid2.coords poolLast) ((dat2 V c).after 4 poolLast) = _
  rw [after2_4]
  have hz' : (fun a => win2_4.index poolLast a * main_v48.ty.shape.size a) = fun _ => 0 :=
    funext fun a => by fin_cases a <;> decide +kernel
  exact (Memref.read_access_unit_zero (Elt Ideal) main_v48 hz' (fun a => by rw [congrFun hz' a]; simp) (poolLastBuf V c)).symm

/-- So the result array ends holding the buffer's contents after the last point: that point's block covers the array. -/
theorem pool_final (c : Dev nD) : (dat2 V c).arrAt 4 cfg2.N = poolLastBuf V c :=
  (dat2 V c).arrAt_eq_of_cover 4 (poolLastBuf V c) (pool_flushed_eq V c) fun i =>
    ⟨poolLast, (flush2_4 poolLast).mpr rfl, by
      show i ∈ ((View.whole main_v48).slice (win2_4.rect poolLast)).set
      rw [View.set_slice_whole, Rect.mem_set_unit]
      intro a
      have h0 : (i 0 : Nat) < 64 := (i 0).isLt
      have h1 : (i 1 : Nat) < 64 := (i 1).isLt
      match a with
      | ⟨0, _⟩ =>
        show win2_4.index poolLast 0 * win2_4.size 0 ≤ (i 0 : Nat) ∧ (i 0 : Nat) < win2_4.index poolLast 0 * win2_4.size 0 + win2_4.xsize (grid2.coords poolLast) 0
        rw [show win2_4.index poolLast 0 * win2_4.size 0 = 0 from by decide +kernel, show win2_4.xsize (grid2.coords poolLast) 0 = 64 from by decide +kernel]; omega
      | ⟨1, _⟩ =>
        show win2_4.index poolLast 1 * win2_4.size 1 ≤ (i 1 : Nat) ∧ (i 1 : Nat) < win2_4.index poolLast 1 * win2_4.size 1 + win2_4.xsize (grid2.coords poolLast) 1
        rw [show win2_4.index poolLast 1 * win2_4.size 1 = 0 from by decide +kernel, show win2_4.xsize (grid2.coords poolLast) 1 = 64 from by decide +kernel]; omega⟩

/-- A graph number below 64, as a word, is a given word exactly when that word, read signed, is the number. -/
theorem pool_word_iff (w : BitVec 32) (g : Fin 64) : BitVec.ofNat 32 g.val = w ↔ w.toInt = (g.val : ℤ) := by
  have hg : g.val < 2 ^ 31 := by have := g.isLt; omega
  constructor
  · intro h; rw [← h]; exact StableHlo.Predicate.toInt_ofNat_small g.val hg
  · intro h; exact BitVec.eq_of_toInt_eq (by rw [StableHlo.Predicate.toInt_ofNat_small g.val hg, h])

/-- After the third kernel's fifty grid points its output array holds, at (g, k), the sum over the nodes of graph g
    of (aggregate · weight + bias) in column k: the accumulator is zeroed at the first point and every point adds its
    block's rows through a 0/1 matrix that has a one at (row, g) exactly when the row's graph word is g. -/
theorem region2_value (c : Dev nD) (g k : Fin 64) :
    (dat2 (F := Ideal) V c).arrAt 4 cfg2.N (ix2 g k)
      = Cert.Gcn.pool (fun n q => agg2Arr V c (ix2 n q) * dis2Arr V c (ix2 n (0 : Fin 1))
            + bias2Arr V c (ix2 (0 : Fin 1) q)) (fun n => graphArr V c (ix2 n (0 : Fin 1))) g k := by
  rw [pool_final V c]
  show outsAt2 V c 49 poolLast.isLt (ix2 g k) = _
  rw [pool_outsAt_eq V c g k 49 poolLast.isLt]
  unfold Cert.Gcn.pool
  refine congrArg (fun s : EReal => 0 + s) ?_
  rw [show 2000 * (49 + 1) = 100000 from rfl, Finset.sum_range, Finset.sum_filter]
  refine Finset.sum_congr rfl fun n _ => ?_
  unfold poolTerm
  rw [dif_pos n.isLt]
  by_cases h : (graphArr V c (ix2 n (0 : Fin 1))).toInt = (g.val : ℤ)
  · rw [if_pos h, if_pos ((pool_word_iff _ g).mpr h), one_mul]
  · rw [if_neg h, if_neg (fun h' => h ((pool_word_iff _ g).mp h')), zero_mul]

end Cert.KernelIdeal.KValue

end
-- ==== Proof.LibRows.lean ====
/-
  A gather of rows and an accumulating scatter of rows, read at an index.

  A table [A, B] gathered by a column [U, 1] of start words gives [U, B]: row e of the result is the table's row
  at the word of e, read signed and clamped into [0, A − 1].  Scattering the rows of an update [U, B] into [A, B]
  by such a column with an adding body leaves, at (n, c), the operand's entry plus the sum of the update's entries
  (e, c) over the rows e whose word, read signed, is n; a word outside [0, A) names no row and its update is dropped.
-/
import Idealize.ShloMosaic.PureOps
import Idealize.ShloMosaic.PureOps.Ideal.Laws
import Idealize.ShloMosaic.Lib.ValueIdx

noncomputable section

open scoped BigOperators

namespace Cert.Rows

open Idealize.ShloMosaic Idealize.ShloMosaic.ValueIdx

/-- Row e of a gather of rows: the table's row at the start word of e, read signed and clamped into the table. -/
theorem gather_rows_apply {α : Type} {A B U w : ℕ} (d : GatherDims ⟨2, ![A, B]⟩ ⟨2, ![U, 1]⟩ ⟨2, ![U, B]⟩)
    (hoff : d.offsetDims = [1]) (hcoll : d.collapsedSliceDims = [0]) (hob : d.operandBatchingDims = [])
    (hsim : d.startIndexMap = [0]) (hivd : d.indexVectorDim = 1)
    (x : (⟨2, ![A, B]⟩ : Shape).Idx → α) (idx : IVec ⟨2, ![U, 1]⟩ w) (e : Fin U) (c : Fin B) (hA : 0 < A) :
    Host.gather d x idx (ix2 e c)
      = x (ix2 (⟨min (idx (ix2 e (0 : Fin 1))).toInt.toNat (A - 1), by omega⟩ : Fin A) c) := by
  have hb : ∀ a : Fin 2, a ∉ d.operandBatchingDims := by intro a; rw [hob]; exact List.not_mem_nil
  have hbatch : ∀ X ∈ d.batchDims, X = (0 : Fin 2) := by
    intro X hX
    simp only [GatherDims.batchDims, Shape.kept, hoff, List.mem_filter] at hX
    match X, hX with
    | ⟨0, _⟩, _ => rfl
    | ⟨1, _⟩, hX => exact absurd (of_decide_eq_true hX.2) (fun hn => hn (List.mem_singleton.mpr rfl))
  have hoffm : ∀ X ∈ d.offsetDims, X = (1 : Fin 2) := by
    intro X hX; rw [hoff] at hX; exact List.mem_singleton.mp hX
  have key0 : (d.operandIdx (ix2 e c) idx 0).val = min (idx (ix2 e (0 : Fin 1))).toInt.toNat (A - 1) := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e c) idx 0 + d.batchCoord (ix2 e c) 0 + d.offCoord (ix2 e c) 0 = _
    rw [GatherDims.batchCoord_eq_zero _ _ _ (hb 0), GatherDims.offCoord_eq_zero _ _ _ hk, Nat.add_zero]
    unfold GatherDims.start
    rw [dif_pos hm, hsl]
    show min (idx _).toInt.toNat (A - 1) = min (idx (ix2 e 0)).toInt.toNat (A - 1)
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatch _ (List.getElem_mem _)]
    | ⟨1, _⟩ =>
      unfold GatherDims.siIdx
      rw [dif_pos (by rw [hivd])]
      apply Fin.ext
      show List.idxOf (0 : Fin 2) d.startIndexMap = 0
      rw [hsim]; simp
  have key1 : (d.operandIdx (ix2 e c) idx 1).val = c.val := by
    have hk : (1 : Fin 2) ∈ d.sKept := by rw [GatherDims.mem_sKept, hcoll, hob]; simp
    have hm : (1 : Fin 2) ∉ d.startIndexMap := by rw [hsim]; simp
    show d.start (ix2 e c) idx 1 + d.batchCoord (ix2 e c) 1 + d.offCoord (ix2 e c) 1 = _
    rw [GatherDims.batchCoord_eq_zero _ _ _ (hb 1), Nat.add_zero]
    unfold GatherDims.start
    rw [dif_neg hm, Nat.zero_add]
    unfold GatherDims.offCoord
    rw [dif_pos hk, hoffm _ (List.getElem_mem _)]
  unfold Host.gather
  congr 1
  funext a
  apply Fin.ext
  match a with
  | ⟨0, _⟩ => exact key0
  | ⟨1, _⟩ => exact key1

/-- An update index lands on an operand index exactly when, on every axis, the window's start plus the window
    coordinate is that index's coordinate. -/
theorem resultIdx?_eq_some_iff {s si u : Shape} {w : ℕ} (d : ScatterDims s si u) (j : u.Idx) (idx : IVec si w) (i : s.Idx) :
    d.resultIdx? j idx = some i ↔ ∀ a, d.start j idx a + d.window j a = ((i a).val : ℤ) := by
  unfold ScatterDims.resultIdx?
  split
  · rename_i h
    rw [Option.some.injEq]
    constructor
    · intro heq a
      rw [← heq]
      exact (Int.toNat_of_nonneg (h a).1).symm
    · intro hall
      funext a
      apply Fin.ext
      show (d.start j idx a + d.window j a).toNat = (i a).val
      rw [hall a]; exact Int.toNat_natCast _
  · rename_i h
    constructor
    · intro heq; exact absurd heq (by simp)
    · intro hall
      exact absurd (fun a => by rw [hall a]; exact ⟨Int.natCast_nonneg _, by exact_mod_cast (i a).isLt⟩) h

/-- Entry (n, c) after an accumulating scatter of rows, at the exact values: the operand's entry plus the update's
    entries (e, c) over the rows e whose scatter word, read signed, is n. -/
theorem scatterAdd_rows_apply {A B U w : ℕ} {φ : FTy} (d : ScatterDims ⟨2, ![A, B]⟩ ⟨2, ![U, 1]⟩ ⟨2, ![U, B]⟩)
    (huw : d.updateWindowDims = [1]) (hiw : d.insertedWindowDims = [0]) (hsd : d.scatterDimsToOperandDims = [0])
    (hivd : d.indexVectorDim = 1)
    (x : FVec Ideal ⟨2, ![A, B]⟩ φ) (idx : IVec ⟨2, ![U, 1]⟩ w) (upd : FVec Ideal ⟨2, ![U, B]⟩ φ) (n : Fin A) (c : Fin B) :
    Host.scatterAdd d x idx upd (ix2 n c)
      = x (ix2 n c) + ∑ e ∈ Finset.univ.filter (fun e : Fin U => (idx (ix2 e (0 : Fin 1))).toInt = (n.val : ℤ)), upd (ix2 e c) := by
  have huwm : ∀ X ∈ d.updateWindowDims, X = (1 : Fin 2) := by
    intro X hX; rw [huw] at hX; exact List.mem_singleton.mp hX
  have huscat : ∀ X ∈ d.uScatter, X = (0 : Fin 2) := by
    intro X hX
    simp only [ScatterDims.uScatter, Shape.kept, huw, List.mem_filter] at hX
    match X, hX with
    | ⟨0, _⟩, _ => rfl
    | ⟨1, _⟩, hX => exact absurd (of_decide_eq_true hX.2) (fun hn => hn (List.mem_singleton.mpr rfl))
  have hk0 : (0 : Fin 2) ∉ d.sKept := by
    simp only [ScatterDims.sKept, Shape.kept, hiw, List.mem_filter]; simp
  have hk1 : (1 : Fin 2) ∈ d.sKept := by
    simp only [ScatterDims.sKept, Shape.kept, hiw, List.mem_filter]; simp
  have hm0 : (0 : Fin 2) ∈ d.scatterDimsToOperandDims := by rw [hsd]; exact List.mem_singleton.mpr rfl
  have hm1 : (1 : Fin 2) ∉ d.scatterDimsToOperandDims := by rw [hsd]; simp
  have hst0 : ∀ (e : Fin U) (b : Fin B), d.start (ix2 e b) idx 0 = (idx (ix2 e (0 : Fin 1))).toInt := by
    intro e b
    unfold ScatterDims.start
    rw [dif_pos hm0]
    congr 2
    funext k
    match k with
    | ⟨0, _⟩ =>
      unfold ScatterDims.siIdx
      rw [dif_neg (by rw [hivd]; simp)]
      unfold ScatterDims.siCoord
      apply Fin.ext
      simp only [Fin.val_cast]
      rw [huscat _ (List.getElem_mem _)]
    | ⟨1, _⟩ =>
      unfold ScatterDims.siIdx
      rw [dif_pos (by rw [hivd])]
      apply Fin.ext
      show List.idxOf (0 : Fin 2) d.scatterDimsToOperandDims = 0
      rw [hsd]; simp
  have hst1 : ∀ (j : (⟨2, ![U, B]⟩ : Shape).Idx), d.start j idx 1 = 0 := by
    intro j; unfold ScatterDims.start; rw [dif_neg hm1]
  have hw0 : ∀ (j : (⟨2, ![U, B]⟩ : Shape).Idx), d.window j 0 = 0 := by
    intro j; unfold ScatterDims.window; rw [dif_neg hk0]
  have hw1 : ∀ (e : Fin U) (b : Fin B), d.window (ix2 e b) 1 = b.val := by
    intro e b; unfold ScatterDims.window; rw [dif_pos hk1, huwm _ (List.getElem_mem _)]
  have hchar : ∀ (e : Fin U) (b : Fin B), d.resultIdx? (ix2 e b) idx = some (ix2 n c)
      ↔ (idx (ix2 e (0 : Fin 1))).toInt = (n.val : ℤ) ∧ b = c := by
    intro e b
    rw [resultIdx?_eq_some_iff]
    constructor
    · intro h
      have h0 : d.start (ix2 e b) idx 0 + ((d.window (ix2 e b) 0 : ℕ) : ℤ) = (n.val : ℤ) := h 0
      have h1 : d.start (ix2 e b) idx 1 + ((d.window (ix2 e b) 1 : ℕ) : ℤ) = (c.val : ℤ) := h 1
      rw [hst0, hw0] at h0
      rw [hst1, hw1] at h1
      refine ⟨by simpa using h0, Fin.ext ?_⟩
      have hbc : (b.val : ℤ) = (c.val : ℤ) := by simpa using h1
      exact_mod_cast hbc
    · rintro ⟨h0, rfl⟩ a
      match a with
      | ⟨0, _⟩ =>
        show d.start (ix2 e b) idx 0 + ((d.window (ix2 e b) 0 : ℕ) : ℤ) = (n.val : ℤ)
        rw [hst0, hw0, h0]; simp
      | ⟨1, _⟩ =>
        show d.start (ix2 e b) idx 1 + ((d.window (ix2 e b) 1 : ℕ) : ℤ) = (b.val : ℤ)
        rw [hst1, hw1]; simp
  show x (ix2 n c) + ∑ j ∈ Finset.univ.filter (fun j => d.resultIdx? j idx = some (ix2 n c)), upd j = _
  congr 1
  refine Finset.sum_bij' (fun j _ => (j 0 : Fin U)) (fun e _ => ix2 e c) ?_ ?_ ?_ ?_ ?_
  · intro j hj
    obtain ⟨p, q, rfl⟩ : ∃ p q, j = ix2 p q := ⟨j 0, j 1, eq_ix2 j⟩
    exact Finset.mem_filter.2 ⟨Finset.mem_univ _, ((hchar p q).1 (Finset.mem_filter.1 hj).2).1⟩
  · intro e he
    exact Finset.mem_filter.2 ⟨Finset.mem_univ _, (hchar e c).2 ⟨(Finset.mem_filter.1 he).2, rfl⟩⟩
  · intro j hj
    rw [Finset.mem_filter] at hj
    obtain ⟨p, q, rfl⟩ : ∃ p q, j = ix2 p q := ⟨j 0, j 1, eq_ix2 j⟩
    obtain ⟨_, rfl⟩ := (hchar p q).1 hj.2
    rfl
  · intro e he; rfl
  · intro j hj
    rw [Finset.mem_filter] at hj
    obtain ⟨p, q, rfl⟩ : ∃ p q, j = ix2 p q := ⟨j 0, j 1, eq_ix2 j⟩
    obtain ⟨_, rfl⟩ := (hchar p q).1 hj.2
    rfl

end Cert.Rows

end
-- ==== Proof.EdgeOps.lean ====
/-
  The printed gather and scatter of the edge list, read over plain indices.

  The gather's start column is the wrapped words, so row e of the result is the table's row (row of the word of e);
  the scatter's index column is the words themselves, so entry (n, c) of the result is the operand's entry plus the
  update's entries (e, c) over the edges e whose word lands on n.  The pool's scatter is the same over the graph words.
-/
import proofs.«425043_j20134806683790_3_alg».proof.Proof.Spec
import proofs.«425043_j20134806683790_3_alg».proof.Proof.LibRows
import Idealize.ShloMosaic.Lib.StableHlo.Predicate
import Idealize.ShloMosaic.Lib.Pipeline.Value

noncomputable section

open scoped BigOperators

namespace Cert.Gcn

open Idealize.ShloMosaic Idealize.ShloMosaic.ValueIdx

/-- A scalar zero broadcast to any shape is zero everywhere. -/
theorem zeros_apply {t : Shape} (h : SUnit.BroadcastsInDim t (![] : Fin 0 → Fin t.rank)) (j : t.Idx) :
    broadcastInDim t ![] h (constant (F := Ideal) SUnit .f32 0x00000000#32) j = (0 : EReal) := by
  rw [StableHlo.Predicate.bcast_scalar h (by decide)]
  exact Ideal.ofBits_zero_f32

/-- The rank-1 index at coordinate p, in either spelling. -/
theorem ofFin_eq_ix1 {n : ℕ} (p : Fin n) : Shape.Idx.ofFin p = ix1 p := by
  funext a
  match a with
  | ⟨0, _⟩ => exact Fin.ext rfl

/-- The index (p, 0) of a column, in either spelling. -/
theorem ixP_eq_ix2 {n : ℕ} (p : Fin n) : StableHlo.Predicate.ixP p = ix2 p (0 : Fin 1) := by
  funext a
  match a with
  | ⟨0, _⟩ => rfl
  | ⟨1, _⟩ => rfl

/-- A vector laid as a column reads, at (p, 0), the vector's entry p. -/
theorem col_apply {α : Type} {n : ℕ} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  rw [← ixP_eq_ix2, StableHlo.Predicate.bcast_col1, ofFin_eq_ix1]

/-- The raw index column at edge e is the word of e. -/
theorem rawCol_apply (v : IVec SEdge 32) (e : Fin 3300000) : rawCol v (ix2 e (0 : Fin 1)) = vec v e := by
  unfold rawCol vec
  exact col_apply _ v e

/-- The row the wrapped start column names at edge e, read signed and clamped, is row of the word of e. -/
theorem wrapCol_row (v : IVec SEdge 32) (e : Fin 3300000) :
    (⟨min (wrapCol v (ix2 e (0 : Fin 1))).toInt.toNat (100000 - 1), by omega⟩ : Fin 100000) = row (vec v e) := by
  have hw : wrapCol v (ix2 e (0 : Fin 1))
      = Scalar.select (IntOp.cmpi .slt (vec v e) 0#32) (IntOp.addi (vec v e) 100000#32) (vec v e) := by
    unfold wrapCol vec
    rw [col_apply, select_apply]
    show Scalar.select (IntOp.cmpi .slt (v (ix1 e)) (broadcastInDim SEdge ![] _ (constantI SUnit 32 0#32) (ix1 e)))
        (IntOp.addi (v (ix1 e)) (broadcastInDim SEdge ![] _ (constantI SUnit 32 100000#32) (ix1 e))) (v (ix1 e)) = _
    rw [StableHlo.Predicate.bcast_scalar _ (by decide), StableHlo.Predicate.bcast_scalar _ (by decide)]
    rfl
  apply Fin.ext
  show min (wrapCol v (ix2 e (0 : Fin 1))).toInt.toNat (100000 - 1) = min _ 99999
  rw [hw]

/-- A gather of the rows of a [100000, 64] table at the wrapped words: row e is the table's row (row of the word of e). -/
theorem gather_wrapCol_apply {α : Type} (dG : GatherDims SNodeFeat SEdgeCol SEdgeFeat)
    (hoff : dG.offsetDims = [1]) (hcoll : dG.collapsedSliceDims = [0]) (hob : dG.operandBatchingDims = [])
    (hsim : dG.startIndexMap = [0]) (hivd : dG.indexVectorDim = 1)
    (P : SNodeFeat.Idx → α) (s : IVec SEdge 32) (e : Fin 3300000) (k : Fin 64) :
    Host.gather dG P (wrapCol s) (ix2 e k) = P (ix2 (row (vec s e)) k) := by
  rw [Rows.gather_rows_apply dG hoff hcoll hob hsim hivd P (wrapCol s) e k (by decide), wrapCol_row]

/-- A gather of the entries of a [100000] vector at the wrapped words: entry e is the vector's entry (row of the word of e). -/
theorem gather1_wrapCol_apply {α : Type} (dG : GatherDims SNode SEdgeCol SEdge)
    (hcoll : dG.collapsedSliceDims = [0]) (hob : dG.operandBatchingDims = [])
    (hsim : dG.startIndexMap = [0]) (hivd : dG.indexVectorDim = 1)
    (v : SNode.Idx → α) (s : IVec SEdge 32) (e : Fin 3300000) :
    Host.gather dG v (wrapCol s) (ix1 e) = v (ix1 (row (vec s e))) := by
  have h := StableHlo.Predicate.gather_take dG hcoll hob hsim hivd v (wrapCol s) e (by decide)
  rw [ofFin_eq_ix1, ofFin_eq_ix1] at h
  refine h.trans (congrArg (fun r => v (ix1 r)) (Fin.ext ?_))
  show min (wrapCol s (StableHlo.Predicate.ixP e)).toInt.toNat (100000 - 1) = (row (vec s e)).val
  rw [ixP_eq_ix2]
  exact congrArg Fin.val (wrapCol_row s e)

/-- An accumulating scatter of edge rows into zeros at the raw words: entry (n, k) is the sum of the update's entries
    (e, k) over the edges landing on n. -/
theorem scatter_rawCol_apply {φ : FTy} (dS : ScatterDims SNodeFeat SEdgeCol SEdgeFeat)
    (huw : dS.updateWindowDims = [1]) (hiw : dS.insertedWindowDims = [0]) (hsd : dS.scatterDimsToOperandDims = [0])
    (hivd : dS.indexVectorDim = 1)
    (z : FVec Ideal SNodeFeat φ) (hz : ∀ i, z i = (0 : EReal)) (d : IVec SEdge 32) (upd : FVec Ideal SEdgeFeat φ)
    (n : Fin 100000) (k : Fin 64) :
    Host.scatterAdd dS z (rawCol d) upd (ix2 n k)
      = 0 + ∑ e ∈ Finset.univ.filter (fun e => lands (vec d e) n), upd (ix2 e k) := by
  refine (Rows.scatterAdd_rows_apply dS huw hiw hsd hivd z (rawCol d) upd n k).trans ?_
  rw [hz]
  refine congrArg (fun t => (0 : EReal) + t) ?_
  refine Finset.sum_congr (Finset.filter_congr fun e _ => ?_) fun _ _ => rfl
  rw [rawCol_apply]
  exact Iff.rfl

/-- So the printed pair (gather at the wrapped sources, scatter at the raw destinations) is the edges' sum of the table. -/
theorem edgeSum_of_gather_scatter {φ : FTy} (dG : GatherDims SNodeFeat SEdgeCol SEdgeFeat)
    (hoff : dG.offsetDims = [1]) (hcoll : dG.collapsedSliceDims = [0]) (hob : dG.operandBatchingDims = [])
    (hsim : dG.startIndexMap = [0]) (hivdG : dG.indexVectorDim = 1)
    (dS : ScatterDims SNodeFeat SEdgeCol SEdgeFeat)
    (huw : dS.updateWindowDims = [1]) (hiw : dS.insertedWindowDims = [0]) (hsd : dS.scatterDimsToOperandDims = [0])
    (hivd : dS.indexVectorDim = 1)
    (z : FVec Ideal SNodeFeat φ) (hz : ∀ i, z i = (0 : EReal)) (P : FVec Ideal SNodeFeat φ) (s d : IVec SEdge 32)
    (n : Fin 100000) (k : Fin 64) :
    Host.scatterAdd dS z (rawCol d) (Host.gather dG P (wrapCol s)) (ix2 n k)
      = edgeSum (mat P) (vec s) (vec d) n k := by
  refine (scatter_rawCol_apply dS huw hiw hsd hivd z hz d _ n k).trans ?_
  unfold edgeSum mat
  refine congrArg (fun t => (0 : EReal) + t) ?_
  exact Finset.sum_congr rfl fun e _ => gather_wrapCol_apply dG hoff hcoll hob hsim hivdG P s e k

/-- An accumulating scatter of node rows into a zero [64, 64] array at the graph words (as a column): entry (g, k) is the
    sum of the update's entries (n, k) over the nodes whose graph word, read signed, is g. -/
theorem scatter_graph_apply {φ : FTy} (dP : ScatterDims SSq SNodeCol SNodeFeat)
    (huw : dP.updateWindowDims = [1]) (hiw : dP.insertedWindowDims = [0]) (hsd : dP.scatterDimsToOperandDims = [0])
    (hivd : dP.indexVectorDim = 1)
    (z : FVec Ideal SSq φ) (hz : ∀ i, z i = (0 : EReal)) (hb : SNode.BroadcastsInDim SNodeCol (![0] : Fin 1 → Fin SNodeCol.rank))
    (bt : IVec SNode 32) (upd : FVec Ideal SNodeFeat φ) (g k : Fin 64) :
    Host.scatterAdd dP z (broadcastInDim SNodeCol ![0] hb bt) upd (ix2 g k)
      = pool (mat upd) (vec bt) g k := by
  refine (Rows.scatterAdd_rows_apply dP huw hiw hsd hivd z _ upd g k).trans ?_
  rw [hz]
  unfold pool mat vec
  refine congrArg (fun t => (0 : EReal) + t) ?_
  refine Finset.sum_congr (Finset.filter_congr fun n _ => ?_) fun _ _ => rfl
  rw [col_apply]

end Cert.Gcn

end
-- ==== Proof.KHostA.lean ====
/-
  The host operations before the first and the second kernel, read at an index.
-/
import proofs.«425043_j20134806683790_3_alg».proof.Proof.Gen.KernelIdeal.Frame
import proofs.«425043_j20134806683790_3_alg».proof.Proof.Spec
import proofs.«425043_j20134806683790_3_alg».proof.Proof.LibColumn
import proofs.«425043_j20134806683790_3_alg».proof.Proof.LibRows
import proofs.«425043_j20134806683790_3_alg».proof.Proof.EdgeOps
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ) (ρ : Dev nD → PrngReg)

/-- A buffer that no operation of a literal stretch of host operations writes holds after the stretch what it held
    before it: each operation writes one reference, and that reference is another one. -/
local macro "stretch_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What the first kernel is entered with -/

theorem V3_arg0 (c : Dev nD) : V3 m ρ c main_arg0 = m ((c.tc : Thread nD τ).loc main_arg0) :=
  calc W3 m ρ c (Proc.devRef .tc main_arg0)
    _ = W2 m ρ c (Proc.devRef .tc main_arg0) := by stretch_keeps hostOps0_2
    _ = W1 m ρ c (Proc.devRef .tc main_arg0) := by stretch_keeps hostOps0_1
    _ = W0 m ρ c (Proc.devRef .tc main_arg0) := by stretch_keeps hostOps0
    _ = m ((c.tc : Thread nD τ).loc main_arg0) := rfl
theorem V3_arg3 (c : Dev nD) : V3 m ρ c main_arg3 = m ((c.tc : Thread nD τ).loc main_arg3) :=
  calc W3 m ρ c (Proc.devRef .tc main_arg3)
    _ = W2 m ρ c (Proc.devRef .tc main_arg3) := by stretch_keeps hostOps0_2
    _ = W1 m ρ c (Proc.devRef .tc main_arg3) := by stretch_keeps hostOps0_1
    _ = W0 m ρ c (Proc.devRef .tc main_arg3) := by stretch_keeps hostOps0
    _ = m ((c.tc : Thread nD τ).loc main_arg3) := rfl
theorem V3_arg5 (c : Dev nD) : V3 m ρ c main_arg5 = m ((c.tc : Thread nD τ).loc main_arg5) :=
  calc W3 m ρ c (Proc.devRef .tc main_arg5)
    _ = W2 m ρ c (Proc.devRef .tc main_arg5) := by stretch_keeps hostOps0_2
    _ = W1 m ρ c (Proc.devRef .tc main_arg5) := by stretch_keeps hostOps0_1
    _ = W0 m ρ c (Proc.devRef .tc main_arg5) := by stretch_keeps hostOps0
    _ = m ((c.tc : Thread nD τ).loc main_arg5) := rfl

/-- A [b] array cast to [1, b] reads, at (u, q), the operand at q, whatever the unit coordinate u. -/
theorem shapeCast_b_1b_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- The encoder's bias row, as a whole array: the bias vector viewed as one row. -/
theorem W3_v20 (c : Dev nD) : W3 m ρ c (Proc.devRef .tc main_v20)
    = shapeCast S1x64 (m ((c.tc : Thread nD τ).loc main_arg4)) shapeCasts_S64_S1x64 := by
  show StableHlo.after hostOps0_2 _ (Proc.devRef .tc main_v20) = _
  after_results; rfl

/-- The encoder's bias as a row. -/
theorem V3_v20 (c : Dev nD) (q : Fin 64) : V3 m ρ c main_v20 (ix2 (0 : Fin 1) q) = m ((c.tc : Thread nD τ).loc main_arg4) (ix1 q) :=
  (congrFun (W3_v20 m ρ c) (ix2 (0 : Fin 1) q)).trans (shapeCast_b_1b_apply _ _ 0 q)

/-! ## The edge words, the degrees and the degree weights after the first stretch of host operations -/

/-- The destination words with a self-loop per node, as the first stretch leaves them. -/
theorem W1_v6 (c : Dev nD) : W1 m ρ c (Proc.devRef .tc main_v6)
    = Cert.Gcn.dstWords (m ((c.tc : Thread nD τ).loc main_arg1)) := by
  show StableHlo.after hostOps0 _ (Proc.devRef .tc main_v6) = _
  after_results
  unfold Cert.Gcn.dstWords Cert.Gcn.edgeWords
  rfl

/-- The source words with a self-loop per node, as the first stretch leaves them. -/
theorem W1_v5 (c : Dev nD) : W1 m ρ c (Proc.devRef .tc main_v5)
    = Cert.Gcn.srcWords (m ((c.tc : Thread nD τ).loc main_arg1)) := by
  show StableHlo.after hostOps0 _ (Proc.devRef .tc main_v5) = _
  after_results
  unfold Cert.Gcn.srcWords Cert.Gcn.edgeWords
  rfl

/-- The in-degrees, as the first stretch leaves them. -/
theorem W1_v10 (c : Dev nD) : W1 m ρ c (Proc.devRef .tc main_v10)
    = Cert.Gcn.degOf (Cert.Gcn.dstWords (m ((c.tc : Thread nD τ).loc main_arg1))) := by
  show StableHlo.after hostOps0 _ (Proc.devRef .tc main_v10) = _
  after_results
  unfold Cert.Gcn.degOf Cert.Gcn.rawCol Cert.Gcn.dstWords Cert.Gcn.edgeWords
  rfl

/-- Where the in-degree is positive, as the first stretch leaves it. -/
theorem W1_v12 (c : Dev nD) : W1 m ρ c (Proc.devRef .tc main_v12)
    = cmpf (F := Ideal) .ogt (Cert.Gcn.degOf (Cert.Gcn.dstWords (m ((c.tc : Thread nD τ).loc main_arg1))))
        (broadcastInDim Cert.Gcn.SNode ![] bcast_S_S100000 (constant Cert.Gcn.SUnit .f32 0x00000000#32)) := by
  show StableHlo.after hostOps0 _ (Proc.devRef .tc main_v12) = _
  after_results
  unfold Cert.Gcn.degOf Cert.Gcn.rawCol Cert.Gcn.dstWords Cert.Gcn.edgeWords
  rfl

/-- The inverse square roots of the in-degrees, as the first stretch leaves them. -/
theorem W1_v13 (c : Dev nD) : W1 m ρ c (Proc.devRef .tc main_v13)
    = Host.rsqrt (Cert.Gcn.degOf (Cert.Gcn.dstWords (m ((c.tc : Thread nD τ).loc main_arg1)))) := by
  show StableHlo.after hostOps0 _ (Proc.devRef .tc main_v13) = _
  after_results
  unfold Cert.Gcn.degOf Cert.Gcn.rawCol Cert.Gcn.dstWords Cert.Gcn.edgeWords
  rfl

/-- The zero the weights fall back to, as the first stretch leaves it. -/
theorem W1_cst_2 (c : Dev nD) : W1 m ρ c (Proc.devRef .tc main_cst_2)
    = constant (F := Ideal) Cert.Gcn.SUnit .f32 0x00000000#32 := by
  show StableHlo.after hostOps0 _ (Proc.devRef .tc main_cst_2) = _
  after_results

/-- The degree weights as a vector, after the second stretch: the inverse square root of the in-degree where it is
    positive, else zero. -/
theorem W2_v14 (c : Dev nD) : W2 m ρ c (Proc.devRef .tc main_v14)
    = Cert.Gcn.disOf (Cert.Gcn.dstWords (m ((c.tc : Thread nD τ).loc main_arg1))) := by
  have e : W2 m ρ c (Proc.devRef .tc main_v14)
      = (select (W1 m ρ c (Proc.devRef .tc main_v12) : IVec S100000 1)
          (W1 m ρ c (Proc.devRef .tc main_v13) : FVec Ideal S100000 .f32)
          (broadcastInDim S100000 ![] bcast_S_S100000
            (id (W1 m ρ c (Proc.devRef .tc main_cst_2) : FVec Ideal S_ .f32))) : FVec Ideal S100000 .f32) := by
    show StableHlo.after hostOps0_1 (W1 m ρ c) (Proc.devRef .tc main_v14) = _
    generalize W1 m ρ c = V1
    after_results
    rfl
  rw [e, W1_v12, W1_v13, W1_cst_2]
  unfold Cert.Gcn.disOf
  rfl

/-- The degree weights as a column, at the first kernel's entry: the vector viewed as one column. -/
theorem W3_v15 (c : Dev nD) : W3 m ρ c (Proc.devRef .tc main_v15)
    = shapeCast S100000x1 (Cert.Gcn.disOf (Cert.Gcn.dstWords (m ((c.tc : Thread nD τ).loc main_arg1)))) shapeCasts_S100000_S100000x1 := by
  have e : W3 m ρ c (Proc.devRef .tc main_v15)
      = shapeCast S100000x1 (W2 m ρ c (Proc.devRef .tc main_v14) : FVec Ideal S100000 .f32) shapeCasts_S100000_S100000x1 := by
    show StableHlo.after hostOps0_2 (W2 m ρ c) (Proc.devRef .tc main_v15) = _
    generalize W2 m ρ c = V2
    after_results
    rfl
  rw [e, W2_v14]

/-- The degree weights as a column. -/
theorem V3_v15 (c : Dev nD) (n : Fin 100000) :
    V3 m ρ c main_v15 (ix2 n (0 : Fin 1)) = Cert.Gcn.disOf (Cert.Gcn.dstWords (m ((c.tc : Thread nD τ).loc main_arg1))) (ix1 n) :=
  (congrFun (W3_v15 m ρ c) (ix2 n (0 : Fin 1))).trans (Cert.Column.shapeCast_a_a1_apply _ _ n 0)

/-! ## What the second kernel is entered with -/

/-- The source words at the first kernel's exit: neither the kernel nor the two stretches before it write them. -/
theorem W4_v5 (c : Dev nD) : W4 m ρ c (Proc.devRef .tc main_v5)
    = Cert.Gcn.srcWords (m ((c.tc : Thread nD τ).loc main_arg1)) :=
  calc W4 m ρ c (Proc.devRef .tc main_v5)
    _ = W3 m ρ c (Proc.devRef .tc main_v5) := W4_of_ne m ρ c main_v5 (by decide)
    _ = W2 m ρ c (Proc.devRef .tc main_v5) := by stretch_keeps hostOps0_2
    _ = W1 m ρ c (Proc.devRef .tc main_v5) := by stretch_keeps hostOps0_1
    _ = Cert.Gcn.srcWords (m ((c.tc : Thread nD τ).loc main_arg1)) := W1_v5 m ρ c

/-- The destination words at the first kernel's exit, likewise. -/
theorem W4_v6 (c : Dev nD) : W4 m ρ c (Proc.devRef .tc main_v6)
    = Cert.Gcn.dstWords (m ((c.tc : Thread nD τ).loc main_arg1)) :=
  calc W4 m ρ c (Proc.devRef .tc main_v6)
    _ = W3 m ρ c (Proc.devRef .tc main_v6) := W4_of_ne m ρ c main_v6 (by decide)
    _ = W2 m ρ c (Proc.devRef .tc main_v6) := by stretch_keeps hostOps0_2
    _ = W1 m ρ c (Proc.devRef .tc main_v6) := by stretch_keeps hostOps0_1
    _ = Cert.Gcn.dstWords (m ((c.tc : Thread nD τ).loc main_arg1)) := W1_v6 m ρ c

/-- The first aggregate as a whole array: the rows of the first kernel's output gathered at the wrapped source
    words and added into zeros at the destination words. -/
theorem W5_v32 (c : Dev nD) : W5 m ρ c (Proc.devRef .tc main_v32)
    = Host.scatterAdd scatter_S100000x64_S3300000x1_S3300000x64_1_0_0_1
        (broadcastInDim S100000x64 ![] bcast_S_S100000x64 (constant (F := Ideal) S_ .f32 0x00000000#32))
        (Cert.Gcn.rawCol (Cert.Gcn.dstWords (m ((c.tc : Thread nD τ).loc main_arg1))))
        (Host.gather gather_S100000x64_S3300000x1_S3300000x64_1_0_n_n_0_1_164
          (W4 m ρ c (Proc.devRef .tc main_v21) : FVec Ideal S100000x64 .f32)
          (Cert.Gcn.wrapCol (Cert.Gcn.srcWords (m ((c.tc : Thread nD τ).loc main_arg1))))) := by
  have e : W5 m ρ c (Proc.devRef .tc main_v32)
      = Host.scatterAdd scatter_S100000x64_S3300000x1_S3300000x64_1_0_0_1
          (broadcastInDim S100000x64 ![] bcast_S_S100000x64 (constant (F := Ideal) S_ .f32 0x00000000#32))
          (broadcastInDim S3300000x1 ![0] bcast_S3300000_S3300000x1_0 (W4 m ρ c (Proc.devRef .tc main_v6) : IVec S3300000 32))
          (extf .f32 (Host.gather gather_S100000x64_S3300000x1_S3300000x64_1_0_n_n_0_1_164
            (W4 m ρ c (Proc.devRef .tc main_v21) : FVec Ideal S100000x64 .bf16)
            (broadcastInDim S3300000x1 ![0] bcast_S3300000_S3300000x1_0
              (select
                (cmpi .slt (W4 m ρ c (Proc.devRef .tc main_v5) : IVec S3300000 32)
                  (broadcastInDim S3300000 ![] bcast_S_S3300000 (constantI S_ 32 0#32)))
                (addi (W4 m ρ c (Proc.devRef .tc main_v5) : IVec S3300000 32)
                  (broadcastInDim S3300000 ![] bcast_S_S3300000 (constantI S_ 32 100000#32)))
                (W4 m ρ c (Proc.devRef .tc main_v5) : IVec S3300000 32)))) bitsLt_bf16_f32) := by
    show StableHlo.after hostOps1 (W4 m ρ c) (Proc.devRef .tc main_v32) = _
    generalize W4 m ρ c = V4
    after_results
  have hx : ∀ X : FVec Ideal S3300000x64 .bf16, (extf .f32 X bitsLt_bf16_f32 : FVec Ideal S3300000x64 .f32) = X :=
    fun _ => rfl
  rw [e, hx, W4_v5, W4_v6]
  unfold Cert.Gcn.rawCol Cert.Gcn.wrapCol
  rfl

/-- The first aggregate: what lands on node n of the source rows of the first kernel's output. -/
theorem V5_v32 (c : Dev nD) (n : Fin 100000) (k : Fin 64) :
    V5 m ρ c main_v32 (ix2 n k)
      = Cert.Gcn.edgeSum (fun p q => W4 m ρ c (Proc.devRef .tc main_v21) (ix2 p q))
          (Cert.Gcn.vec (Cert.Gcn.srcWords (m ((c.tc : Thread nD τ).loc main_arg1)))) (Cert.Gcn.vec (Cert.Gcn.dstWords (m ((c.tc : Thread nD τ).loc main_arg1)))) n k :=
  (congrFun (W5_v32 m ρ c) (ix2 n k)).trans
    (Cert.Gcn.edgeSum_of_gather_scatter gather_S100000x64_S3300000x1_S3300000x64_1_0_n_n_0_1_164 rfl rfl rfl rfl rfl
      scatter_S100000x64_S3300000x1_S3300000x64_1_0_0_1 rfl rfl rfl rfl _ (fun i => Cert.Gcn.zeros_apply _ i) _ _ _ n k)

/-- The degree weights as a column, at the second kernel's entry: the third stretch does not write them, and the
    first kernel, which only reads them (its fifth window is an input), leaves them as it found them. -/
theorem V5_v15 (c : Dev nD) (n : Fin 100000) :
    V5 m ρ c main_v15 (ix2 n (0 : Fin 1)) = Cert.Gcn.disOf (Cert.Gcn.dstWords (m ((c.tc : Thread nD τ).loc main_arg1))) (ix1 n) := by
  have e : W5 m ρ c (Proc.devRef .tc main_v15) = W3 m ρ c (Proc.devRef .tc main_v15) :=
    calc W5 m ρ c (Proc.devRef .tc main_v15)
      _ = W4 m ρ c (Proc.devRef .tc main_v15) := by stretch_keeps hostOps1
      _ = W3 m ρ c (Proc.devRef .tc main_v15) :=
          (W4_arr m ρ c 4).trans (((dat0 (V3 m ρ) c).arrAt_in 4 rfl _).trans (A_eq0 (V3 m ρ) c 4))
  exact (congrFun e (ix2 n (0 : Fin 1))).trans (V3_v15 m ρ c n)

/-- The first layer's bias row, as a whole array: the bias vector viewed as one row. -/
theorem W5_v33 (c : Dev nD) : W5 m ρ c (Proc.devRef .tc main_v33)
    = shapeCast S1x64 (m ((c.tc : Thread nD τ).loc main_arg6)) shapeCasts_S64_S1x64 := by
  have e : W5 m ρ c (Proc.devRef .tc main_v33)
      = shapeCast S1x64 (W4 m ρ c (Proc.devRef .tc main_arg6) : FVec Ideal S64 .f32) shapeCasts_S64_S1x64 := by
    show StableHlo.after hostOps1 (W4 m ρ c) (Proc.devRef .tc main_v33) = _
    generalize W4 m ρ c = V4
    after_results
    rfl
  have e6 : W4 m ρ c (Proc.devRef .tc main_arg6) = m ((c.tc : Thread nD τ).loc main_arg6) :=
    calc W4 m ρ c (Proc.devRef .tc main_arg6)
      _ = W3 m ρ c (Proc.devRef .tc main_arg6) := W4_of_ne m ρ c main_arg6 (by decide)
      _ = W2 m ρ c (Proc.devRef .tc main_arg6) := by stretch_keeps hostOps0_2
      _ = W1 m ρ c (Proc.devRef .tc main_arg6) := by stretch_keeps hostOps0_1
      _ = W0 m ρ c (Proc.devRef .tc main_arg6) := by stretch_keeps hostOps0
      _ = m ((c.tc : Thread nD τ).loc main_arg6) := rfl
  rw [e, e6]

theorem V5_v33 (c : Dev nD) (q : Fin 64) : V5 m ρ c main_v33 (ix2 (0 : Fin 1) q) = m ((c.tc : Thread nD τ).loc main_arg6) (ix1 q) :=
  (congrFun (W5_v33 m ρ c) (ix2 (0 : Fin 1) q)).trans (shapeCast_b_1b_apply _ _ 0 q)

theorem V5_arg7 (c : Dev nD) : V5 m ρ c main_arg7 = m ((c.tc : Thread nD τ).loc main_arg7) :=
  calc W5 m ρ c (Proc.devRef .tc main_arg7)
    _ = W4 m ρ c (Proc.devRef .tc main_arg7) := by stretch_keeps hostOps1
    _ = W3 m ρ c (Proc.devRef .tc main_arg7) := W4_of_ne m ρ c main_arg7 (by decide)
    _ = W2 m ρ c (Proc.devRef .tc main_arg7) := by stretch_keeps hostOps0_2
    _ = W1 m ρ c (Proc.devRef .tc main_arg7) := by stretch_keeps hostOps0_1
    _ = W0 m ρ c (Proc.devRef .tc main_arg7) := by stretch_keeps hostOps0
    _ = m ((c.tc : Thread nD τ).loc main_arg7) := rfl

end Cert.KernelIdeal.KValue

end
-- ==== Proof.KHostB.lean ====
/-
  The host operations before the third kernel and after it, read at an index.
-/
import proofs.«425043_j20134806683790_3_alg».proof.Proof.Gen.KernelIdeal.Frame
import proofs.«425043_j20134806683790_3_alg».proof.Proof.Spec
import proofs.«425043_j20134806683790_3_alg».proof.Proof.LibColumn
import proofs.«425043_j20134806683790_3_alg».proof.Proof.LibRows
import proofs.«425043_j20134806683790_3_alg».proof.Proof.EdgeOps
import proofs.«425043_j20134806683790_3_alg».proof.Proof.KHostA
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ) (ρ : Dev nD → PrngReg)

/-- A buffer that no operation of a host stretch writes holds after the stretch what it held before it. -/
local macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## What the third kernel is entered with -/

/-- The source words with self-loops are written once, before the first kernel, from the edge array of the launch
    memory; nothing writes them afterwards. -/
theorem W6_v5 (c : Dev nD) :
    (W6 m ρ c (Proc.devRef .tc main_v5) : IVec S3300000 32) = Cert.Gcn.srcWords (m ((c.tc : Thread nD τ).loc main_arg1)) :=
  calc W6 m ρ c (Proc.devRef .tc main_v5)
    _ = W5 m ρ c (Proc.devRef .tc main_v5) := W6_of_ne m ρ c main_v5 (by decide)
    _ = W4 m ρ c (Proc.devRef .tc main_v5) := by host_keeps hostOps1
    _ = W3 m ρ c (Proc.devRef .tc main_v5) := W4_of_ne m ρ c main_v5 (by decide)
    _ = _ := by
      show StableHlo.after hostOps0_2 _ (Proc.devRef .tc main_v5) = _
      after_results
      all_goals unfold Cert.Gcn.srcWords Cert.Gcn.edgeWords
      all_goals rfl

/-- The destination words with self-loops, likewise. -/
theorem W6_v6 (c : Dev nD) :
    (W6 m ρ c (Proc.devRef .tc main_v6) : IVec S3300000 32) = Cert.Gcn.dstWords (m ((c.tc : Thread nD τ).loc main_arg1)) :=
  calc W6 m ρ c (Proc.devRef .tc main_v6)
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)
    _ = _ := by
      show StableHlo.after hostOps0_2 _ (Proc.devRef .tc main_v6) = _
      after_results
      all_goals unfold Cert.Gcn.dstWords Cert.Gcn.edgeWords
      all_goals rfl

set_option maxHeartbeats 1600000 in
/-- The second aggregate: what lands on node n of the source rows of the second kernel's output. -/
theorem V7_v45 (c : Dev nD) (n : Fin 100000) (k : Fin 64) :
    V7 m ρ c main_v45 (ix2 n k)
      = Cert.Gcn.edgeSum (fun p q => W6 m ρ c (Proc.devRef .tc main_v34) (ix2 p q))
          (Cert.Gcn.vec (Cert.Gcn.srcWords (m ((c.tc : Thread nD τ).loc main_arg1)))) (Cert.Gcn.vec (Cert.Gcn.dstWords (m ((c.tc : Thread nD τ).loc main_arg1)))) n k := by
  -- the aggregate is a scatter into zeros, at the destination words, of the rows gathered at the wrapped source
  -- words; a change of float format is the identity on extended reals
  have e45 : (V7 m ρ c main_v45 : FVec Ideal S100000x64 .f32)
      = Host.scatterAdd (F := Ideal) scatter_S100000x64_S3300000x1_S3300000x64_1_0_0_1
          (broadcastInDim S100000x64 ![] bcast_S_S100000x64 (constant (F := Ideal) S_ .f32 0x00000000#32))
          (Cert.Gcn.rawCol (W6 m ρ c (Proc.devRef .tc main_v6)))
          (Host.gather gather_S100000x64_S3300000x1_S3300000x64_1_0_n_n_0_1_164
            (W6 m ρ c (Proc.devRef .tc main_v34)) (Cert.Gcn.wrapCol (W6 m ρ c (Proc.devRef .tc main_v5)))) := by
    show StableHlo.after hostOps2 _ (Proc.devRef .tc main_v45) = _
    after_results_simp
    all_goals rfl
  rw [e45, W6_v5, W6_v6]
  exact Cert.Gcn.edgeSum_of_gather_scatter (φ := .f32) gather_S100000x64_S3300000x1_S3300000x64_1_0_n_n_0_1_164
    rfl rfl rfl rfl rfl scatter_S100000x64_S3300000x1_S3300000x64_1_0_0_1 rfl rfl rfl rfl _
    (fun i => Cert.Gcn.zeros_apply _ i) (W6 m ρ c (Proc.devRef .tc main_v34)) _ _ n k

/-- The degree weights as a column at the third kernel's entry are those at the second kernel's entry: the host
    operations between the two kernels do not write them, and the second kernel only reads them. -/
theorem V7_v15_V5 (c : Dev nD) : V7 m ρ c main_v15 = V5 m ρ c main_v15 :=
  calc W7 m ρ c (Proc.devRef .tc main_v15)
    _ = W6 m ρ c (Proc.devRef .tc main_v15) := by host_keeps hostOps2
    _ = W5 m ρ c (Proc.devRef .tc main_v15) :=
        (W6_arr m ρ c 1).trans (((dat1 (V5 m ρ) c).arrAt_in 1 rfl _).trans (A_eq1 (V5 m ρ) c 1))

theorem V7_v15 (c : Dev nD) (n : Fin 100000) :
    V7 m ρ c main_v15 (ix2 n (0 : Fin 1)) = Cert.Gcn.disOf (Cert.Gcn.dstWords (m ((c.tc : Thread nD τ).loc main_arg1))) (ix1 n) := by
  rw [V7_v15_V5]
  exact V5_v15 m ρ c n

/-- The graph words are written by nothing before the third kernel: they are the launch memory's. -/
theorem W6_arg2 (c : Dev nD) : W6 m ρ c (Proc.devRef .tc main_arg2) = m ((c.tc : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by host_keeps hostOps1
    _ = W3 m ρ c (Proc.devRef .tc main_arg2) := W4_of_ne m ρ c main_arg2 (by decide)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c.tc : Thread nD τ).loc main_arg2) := rfl

/-- The graph words as a column. -/
theorem V7_v46 (c : Dev nD) (n : Fin 100000) : V7 m ρ c main_v46 (ix2 n (0 : Fin 1)) = m ((c.tc : Thread nD τ).loc main_arg2) (ix1 n) := by
  have e : (V7 m ρ c main_v46 : S100000x1.Idx → BitVec 32)
      = shapeCast S100000x1 (W6 m ρ c (Proc.devRef .tc main_arg2)) shapeCasts_S100000_S100000x1 := by
    show StableHlo.after hostOps2 _ (Proc.devRef .tc main_v46) = _
    after_results
    all_goals rfl
  rw [e, Cert.Column.shapeCast_a_a1_apply, W6_arg2]

/-- The last bias is written by nothing before the third kernel: it is the launch memory's. -/
theorem W6_arg8 (c : Dev nD) : W6 m ρ c (Proc.devRef .tc main_arg8) = m ((c.tc : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by host_keeps hostOps1
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0
    _ = m ((c.tc : Thread nD τ).loc main_arg8) := rfl

theorem V7_v47 (c : Dev nD) (q : Fin 64) : V7 m ρ c main_v47 (ix2 (0 : Fin 1) q) = m ((c.tc : Thread nD τ).loc main_arg8) (ix1 q) := by
  have e : (V7 m ρ c main_v47 : S1x64.Idx → EReal)
      = shapeCast S1x64 (W6 m ρ c (Proc.devRef .tc main_arg8)) shapeCasts_S64_S1x64 := by
    show StableHlo.after hostOps2 _ (Proc.devRef .tc main_v47) = _
    after_results
    all_goals rfl
  rw [e]
  -- a [64] array viewed as one row [1, 64] reads its entry q at (0, q)
  refine (shapeCast_apply _ _ (ix2 (0 : Fin 1) q) (ix1 q) ?_).trans ?_
  · rw [Shape.rowMajor_val_two, Shape.rowMajor_val_one]
    show q.val = 0 * 64 + q.val
    omega
  · rw [W6_arg8]

/-! ## The result -/

/-- A column [a, 1] laid along the second axis of an [a, b] rectangle reads, at (p, k), the column's entry p. -/
theorem bcastCol_apply {α : Type} {a b : ℕ} (v : (⟨2, ![a, 1]⟩ : Shape).Idx → α)
    (h : (⟨2, ![a, 1]⟩ : Shape).BroadcastsInDim ⟨2, ![a, b]⟩ ![0, 1]) (p : Fin a) (k : Fin b) :
    broadcastInDim ⟨2, ![a, b]⟩ ![0, 1] h v (ix2 p k) = v (ix2 p (0 : Fin 1)) := by
  refine broadcastInDim_apply ![0, 1] h v (ix2 p k) (ix2 p (0 : Fin 1)) fun ax => ?_
  match ax with
  | ⟨0, _⟩ =>
    show p.val = if a = 1 then 0 else p.val
    split
    · have := p.isLt; omega
    · rfl
  | ⟨1, _⟩ => rfl

/-- The rows of each graph, counted: the count is written before the first kernel, from the graph words of the launch
    memory, and by nothing after it. -/
theorem W8_v19 (c : Dev nD) :
    (W8 m ρ c (Proc.devRef .tc main_v19) : FVec Ideal S64 .f32)
      = Host.scatterAdd (F := Ideal) scatter_S64_S100000x1_S100000_n_0_0_1
          (broadcastInDim S64 ![] bcast_S_S64 (constant (F := Ideal) S_ .f32 0x00000000#32))
          (broadcastInDim S100000x1 ![0] bcast_S100000_S100000x1_0 (m ((c.tc : Thread nD τ).loc main_arg2)))
          (broadcastInDim S100000 ![] bcast_S_S100000 (constant (F := Ideal) S_ .f32 0x3F800000#32)) :=
  calc W8 m ρ c (Proc.devRef .tc main_v19)
    _ = W7 m ρ c (Proc.devRef .tc main_v19) := W8_of_ne m ρ c main_v19 (by decide)
    _ = W6 m ρ c (Proc.devRef .tc main_v19) := by host_keeps hostOps2
    _ = W5 m ρ c (Proc.devRef .tc main_v19) := W6_of_ne m ρ c main_v19 (by decide)
    _ = W4 m ρ c (Proc.devRef .tc main_v19) := by host_keeps hostOps1
    _ = W3 m ρ c (Proc.devRef .tc main_v19) := W4_of_ne m ρ c main_v19 (by decide)
    _ = _ := by
      show StableHlo.after hostOps0_2 _ (Proc.devRef .tc main_v19) = _
      after_results <;> rfl

/-- The maximum of one and the counted rows, as the program spells it, is the clipped count of the graph words. -/
theorem clip_eq (c : Dev nD) :
    maximumf (F := Ideal) (φ := .f32) (broadcastInDim S64 ![] bcast_S_S64 (id (constant (F := Ideal) S_ .f32 0x3F800000#32)))
        (W8 m ρ c (Proc.devRef .tc main_v19))
      = Cert.Gcn.clipOf (m ((c.tc : Thread nD τ).loc main_arg2)) := by
  rw [W8_v19]; rfl

/-- The host's quotient of two arrays, read at an index: the quotient of the entries. -/
theorem hostDivf_apply {s : Shape} (a b : FVec Ideal s .f32) (i : s.Idx) :
    Host.divf a b i = Ideal.div (a i) (b i) := rfl

/-- The mean read at (g, k): graph g's sum at k over graph g's clipped count. -/
theorem meanOf_apply (p : Fin 64 → Fin 64 → EReal) (clip : FVec Ideal Cert.Gcn.SFeat .f32) (g k : Fin 64) :
    Cert.Gcn.meanOf p clip (ix2 g k) = Ideal.div (p g k) (clip (ix1 g)) := rfl

/-- The result: the third kernel's sums over the clipped row counts, entry by entry. -/
theorem W11_v52 (c : Dev nD) :
    W11 m ρ c (Proc.devRef .tc main_v52)
      = Cert.Gcn.meanOf (fun g k => W8 m ρ c (Proc.devRef .tc main_v48) (ix2 g k)) (Cert.Gcn.clipOf (m ((c.tc : Thread nD τ).loc main_arg2))) := by
  -- the result is the quotient of the third kernel's output by the clipped counts, laid as a column along each row
  have e52 : (W11 m ρ c (Proc.devRef .tc main_v52) : FVec Ideal S64x64 .f32)
      = Host.divf (F := Ideal) (φ := .f32) (W8 m ρ c (Proc.devRef .tc main_v48))
          (broadcastInDim S64x64 ![0, 1] bcast_S64x1_S64x64_0_1
            (shapeCast S64x1 (maximumf (F := Ideal) (φ := .f32) (broadcastInDim S64 ![] bcast_S_S64 (id (constant (F := Ideal) S_ .f32 0x3F800000#32)))
               (W8 m ρ c (Proc.devRef .tc main_v19))) shapeCasts_S64_S64x1)) := by
    show StableHlo.after hostOps3_2 _ (Proc.devRef .tc main_v52) = _
    after_results
    all_goals (try simp only [StableHlo.TRef.ofBuf, StableHlo.TRef.toBuf, cast_eq])
    all_goals rfl
  show (W11 m ρ c (Proc.devRef .tc main_v52) : FVec Ideal S64x64 .f32) = _
  refine funext fun (i : S64x64.Idx) => ?_
  obtain ⟨g, k, rfl⟩ : ∃ g k, i = ix2 g k := ⟨i 0, i 1, eq_ix2 i⟩
  rw [e52]
  refine (hostDivf_apply _ _ _).trans ?_
  refine Eq.trans ?_ (meanOf_apply _ _ g k).symm
  rw [bcastCol_apply, Cert.Column.shapeCast_a_a1_apply, clip_eq]

end Cert.KernelIdeal.KValue

end
-- ==== Proof.KValue.lean ====
/-
  The kernel program's result is the network with each row weighted before the edges' sum and each sum after it.

  The three kernels' output arrays, the two edge sums between them and the closing quotient, put end to end: the first
  kernel leaves H₁ · dis row by row (H₁ the encoded input projected once); the edges' sum of that, weighted, biased and
  cut at zero, projected again and weighted, is what the second kernel leaves; the edges' sum of that, weighted and
  biased, is pooled per graph by the third; the host divides by the clipped counts.
-/
import proofs.«425043_j20134806683790_3_alg».proof.Proof.KRegion0
import proofs.«425043_j20134806683790_3_alg».proof.Proof.KRegion1
import proofs.«425043_j20134806683790_3_alg».proof.Proof.KRegion2
import proofs.«425043_j20134806683790_3_alg».proof.Proof.KHostA
import proofs.«425043_j20134806683790_3_alg».proof.Proof.KHostB

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.Gcn
open Idealize.ShloMosaic.Pipeline (Dat Cfg Window)

variable (m : (ℓ : Loc nD τ sig) → Buf (Elt Ideal) ℓ) (ρ : Dev nD → PrngReg)

/-- The degree weights, the source words and the destination words of the launch memory, over plain indices. -/
abbrev disv (c : Dev nD) : Fin 100000 → EReal := vec (disOf (dstWords (m ((c.tc : Thread nD τ).loc main_arg1))))
abbrev srcv (c : Dev nD) : Fin 3300000 → BitVec 32 := vec (srcWords (m ((c.tc : Thread nD τ).loc main_arg1)))
abbrev dstv (c : Dev nD) : Fin 3300000 → BitVec 32 := vec (dstWords (m ((c.tc : Thread nD τ).loc main_arg1)))
/-- The encoded input projected by the first weight matrix. -/
abbrev hid1 (c : Dev nD) : Fin 100000 → Fin 64 → EReal :=
  dense (encode (mat (m ((c.tc : Thread nD τ).loc main_arg0))) (mat (m ((c.tc : Thread nD τ).loc main_arg3))) (vec (m ((c.tc : Thread nD τ).loc main_arg4)))) (mat (m ((c.tc : Thread nD τ).loc main_arg5)))
/-- The first layer's output cut at zero, projected by the second weight matrix. -/
abbrev hid2 (c : Dev nD) : Fin 100000 → Fin 64 → EReal :=
  dense (fun n k => max (convPost (hid1 m c) (disv m c) (srcv m c) (dstv m c) (vec (m ((c.tc : Thread nD τ).loc main_arg6))) n k) 0) (mat (m ((c.tc : Thread nD τ).loc main_arg7)))

/-- What the first kernel leaves: the first projection, each row times its weight. -/
theorem first_out (c : Dev nD) (p : Fin 100000) (q : Fin 64) :
    W4 m ρ c (Proc.devRef .tc main_v21) (ix2 p q) = hid1 m c p q * disv m c p := by
  have e : W4 m ρ c (Proc.devRef .tc main_v21) (ix2 p q) = (dat0 (V3 m ρ) c).arrAt 5 cfg0.N (ix2 p q) :=
    congrFun (W4_arr m ρ c (5 : Fin cfg0.W)) (ix2 p q)
  rw [e, region0_value (V3 m ρ) c p q, V3_v15 m ρ c p]
  have h0 : (fun a b => V3 m ρ c main_arg0 (ix2 a b)) = mat (m ((c.tc : Thread nD τ).loc main_arg0)) := by
    funext a b; exact congrFun (V3_arg0 m ρ c) (ix2 a b)
  have h3 : (fun a b => V3 m ρ c main_arg3 (ix2 a b)) = mat (m ((c.tc : Thread nD τ).loc main_arg3)) := by
    funext a b; exact congrFun (V3_arg3 m ρ c) (ix2 a b)
  have h4 : (fun b => V3 m ρ c main_v20 (ix2 (0 : Fin 1) b)) = vec (m ((c.tc : Thread nD τ).loc main_arg4)) := by
    funext b; exact V3_v20 m ρ c b
  have h5 : (fun a b => V3 m ρ c main_arg5 (ix2 a b)) = mat (m ((c.tc : Thread nD τ).loc main_arg5)) := by
    funext a b; exact congrFun (V3_arg5 m ρ c) (ix2 a b)
  rw [h0, h3, h4, h5]
  rfl

/-- What the second kernel leaves: the second projection, each row times its weight. -/
theorem second_out (c : Dev nD) (p : Fin 100000) (q : Fin 64) :
    W6 m ρ c (Proc.devRef .tc main_v34) (ix2 p q) = hid2 m c p q * disv m c p := by
  have e : W6 m ρ c (Proc.devRef .tc main_v34) (ix2 p q) = (dat1 (V5 m ρ) c).arrAt 4 cfg1.N (ix2 p q) :=
    congrFun (W6_arr m ρ c (4 : Fin cfg1.W)) (ix2 p q)
  rw [e, region1_value (V5 m ρ) c p q]
  have hin : (fun a j => max (agg1Arr (V5 m ρ) c (ix2 a j) * dis1Arr (V5 m ρ) c (ix2 a (0 : Fin 1))
        + bias1Arr (V5 m ρ) c (ix2 (0 : Fin 1) j)) 0)
      = fun n k => max (convPost (hid1 m c) (disv m c) (srcv m c) (dstv m c) (vec (m ((c.tc : Thread nD τ).loc main_arg6))) n k) 0 := by
    funext a j
    have h32 : agg1Arr (V5 m ρ) c (ix2 a j) = edgeSum (fun x y => hid1 m c x y * disv m c x) (srcv m c) (dstv m c) a j := by
      show V5 m ρ c main_v32 (ix2 a j) = _
      rw [V5_v32 m ρ c a j]
      exact congrArg (fun P => edgeSum P (srcv m c) (dstv m c) a j) (funext fun x => funext fun y => first_out m ρ c x y)
    have h15 : dis1Arr (V5 m ρ) c (ix2 a (0 : Fin 1)) = disv m c a := V5_v15 m ρ c a
    have h33 : bias1Arr (V5 m ρ) c (ix2 (0 : Fin 1) j) = vec (m ((c.tc : Thread nD τ).loc main_arg6)) j := V5_v33 m ρ c j
    rw [h32, h15, h33]
    rfl
  have h7 : (fun a b => w2Arr (V5 m ρ) c (ix2 a b)) = mat (m ((c.tc : Thread nD τ).loc main_arg7)) := by
    funext a b; exact congrFun (V5_arg7 m ρ c) (ix2 a b)
  have h15 : dis1Arr (V5 m ρ) c (ix2 p (0 : Fin 1)) = disv m c p := V5_v15 m ρ c p
  rw [hin, h7, h15]

/-- What the third kernel leaves: the second layer's output, pooled per graph. -/
theorem third_out (c : Dev nD) (g k : Fin 64) :
    W8 m ρ c (Proc.devRef .tc main_v48) (ix2 g k)
      = pool (convPost (hid2 m c) (disv m c) (srcv m c) (dstv m c) (vec (m ((c.tc : Thread nD τ).loc main_arg8)))) (vec (m ((c.tc : Thread nD τ).loc main_arg2))) g k := by
  have e : W8 m ρ c (Proc.devRef .tc main_v48) (ix2 g k) = (dat2 (V7 m ρ) c).arrAt 4 cfg2.N (ix2 g k) :=
    congrFun (W8_arr m ρ c (4 : Fin cfg2.W)) (ix2 g k)
  rw [e, region2_value (V7 m ρ) c g k]
  have hin : (fun n q => agg2Arr (V7 m ρ) c (ix2 n q) * dis2Arr (V7 m ρ) c (ix2 n (0 : Fin 1))
        + bias2Arr (V7 m ρ) c (ix2 (0 : Fin 1) q))
      = convPost (hid2 m c) (disv m c) (srcv m c) (dstv m c) (vec (m ((c.tc : Thread nD τ).loc main_arg8))) := by
    funext n q
    have h45 : agg2Arr (V7 m ρ) c (ix2 n q) = edgeSum (fun x y => hid2 m c x y * disv m c x) (srcv m c) (dstv m c) n q := by
      show V7 m ρ c main_v45 (ix2 n q) = _
      rw [V7_v45 m ρ c n q]
      exact congrArg (fun P => edgeSum P (srcv m c) (dstv m c) n q) (funext fun x => funext fun y => second_out m ρ c x y)
    have h15 : dis2Arr (V7 m ρ) c (ix2 n (0 : Fin 1)) = disv m c n := V7_v15 m ρ c n
    have h47 : bias2Arr (V7 m ρ) c (ix2 (0 : Fin 1) q) = vec (m ((c.tc : Thread nD τ).loc main_arg8)) q := V7_v47 m ρ c q
    rw [h45, h15, h47]
    rfl
  have hbt : (fun n => graphArr (V7 m ρ) c (ix2 n (0 : Fin 1))) = vec (m ((c.tc : Thread nD τ).loc main_arg2)) := by
    funext n; exact V7_v46 m ρ c n
  rw [hin, hbt]

/-- The kernel program's result buffer at the end of the run is the network of the argument arrays. -/
theorem kernel_value (c : Dev nD) :
    W11 m ρ c (Proc.devRef .tc main_v52)
      = outPost (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) := by
  rw [W11_v52 m ρ c]
  have hp : (fun g k => W8 m ρ c (Proc.devRef .tc main_v48) (ix2 g k))
      = pool (convPost (hid2 m c) (disv m c) (srcv m c) (dstv m c) (vec (m ((c.tc : Thread nD τ).loc main_arg8)))) (vec (m ((c.tc : Thread nD τ).loc main_arg2))) := by
    funext g k; exact third_out m ρ c g k
  rw [hp]
  rfl

end Cert.KernelIdeal.KValue

end
-- ==== Proof.RefValue.lean ====
/-
  The reference's result is the network with both weights on every edge.
-/
import proofs.«425043_j20134806683790_3_alg».proof.Proof.RefRun
import proofs.«425043_j20134806683790_3_alg».proof.Proof.RefReadGen
import proofs.«425043_j20134806683790_3_alg».proof.Proof.Spec
import proofs.«425043_j20134806683790_3_alg».proof.Proof.LibRows
import proofs.«425043_j20134806683790_3_alg».proof.Proof.LibColumn
import proofs.«425043_j20134806683790_3_alg».proof.Proof.EdgeOps

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

section Stages

open Cert.ReferenceIdeal.Read Cert.Gcn

/-! ## The shared host chains are the stages that spell them

Each stage below is, operation for operation, the named chain of the shared vocabulary: the edge words with self-loops,
their wrapped and raw columns, the degree weights, the clipped counts. -/

/-- The first row of the edge array followed by the node numbers is the sources with self-loops. -/
theorem stage11_eq (x1 : IVec SPair 32) : val_main_v11 (F := Ideal) x1 = srcWords x1 := rfl
/-- The second row of the edge array followed by the node numbers is the destinations with self-loops. -/
theorem stage12_eq (x1 : IVec SPair 32) : val_main_v12 (F := Ideal) x1 = dstWords x1 := rfl
/-- The second layer's own copy of the sources with self-loops. -/
theorem stage55_eq (x1 : IVec SPair 32) : val_main_v55 (F := Ideal) x1 = srcWords x1 := rfl
/-- The second layer's own copy of the destinations with self-loops. -/
theorem stage56_eq (x1 : IVec SPair 32) : val_main_v56 (F := Ideal) x1 = dstWords x1 := rfl
/-- The start words of the first layer's source-weight gather: the sources, wrapped, as a column. -/
theorem stage26_eq (x1 : IVec SPair 32) : val_main_v26 (F := Ideal) x1 = wrapCol (srcWords x1) := rfl
/-- The start words of the first layer's feature gather: the sources, wrapped, as a column. -/
theorem stage41_eq (x1 : IVec SPair 32) : val_main_v41 (F := Ideal) x1 = wrapCol (srcWords x1) := rfl
/-- The start words of the second layer's source-weight gather: the sources, wrapped, as a column. -/
theorem stage70_eq (x1 : IVec SPair 32) : val_main_v70 (F := Ideal) x1 = wrapCol (srcWords x1) := rfl
/-- The start words of the second layer's feature gather: the sources, wrapped, as a column. -/
theorem stage85_eq (x1 : IVec SPair 32) : val_main_v85 (F := Ideal) x1 = wrapCol (srcWords x1) := rfl
/-- The start words of the first layer's destination-weight gather: the destinations, wrapped, as a column. -/
theorem stage33_eq (x1 : IVec SPair 32) : val_main_v33 (F := Ideal) x1 = wrapCol (dstWords x1) := rfl
/-- The start words of the second layer's destination-weight gather: the destinations, wrapped, as a column. -/
theorem stage77_eq (x1 : IVec SPair 32) : val_main_v77 (F := Ideal) x1 = wrapCol (dstWords x1) := rfl
/-- The index words of the first layer's scatter: the destinations themselves, as a column. -/
theorem stage47_eq (x1 : IVec SPair 32) : val_main_v47 (F := Ideal) x1 = rawCol (dstWords x1) := rfl
/-- The index words of the second layer's scatter: the destinations themselves, as a column. -/
theorem stage91_eq (x1 : IVec SPair 32) : val_main_v91 (F := Ideal) x1 = rawCol (dstWords x1) := rfl
/-- The first layer's weights: the inverse square root of the in-degree with self-loops where it is positive, else zero. -/
theorem stage20_eq (x1 : IVec SPair 32) : val_main_v20 (F := Ideal) x1 = disOf (dstWords x1) := rfl
/-- The second layer's weights: the same function of the destinations. -/
theorem stage64_eq (x1 : IVec SPair 32) : val_main_v64 (F := Ideal) x1 = disOf (dstWords x1) := rfl
/-- The rows of each graph, counted, and clipped below at one. -/
theorem stage103_eq (x2 : IVec SNode 32) : val_main_v103 (F := Ideal) x2 = clipOf x2 := rfl

/-! ## The encoder and the first projection

The composed index functions of the stages are first read at explicit coordinates. -/

/-- Entry (n, k) of the encoder's product reads the input at (n, j) for the j-th term. -/
theorem lidx4 (n : Fin 100000) (k : Fin 64) (j : Fin 200) : lidx_main_v4 (ix2 n k) j = ix2 n j := by
  funext a; match a with | ⟨0, _⟩ => rfl | ⟨1, _⟩ => rfl
/-- … and the encoder's weight matrix at (j, k). -/
theorem ridx4 (n : Fin 100000) (k : Fin 64) (j : Fin 200) : ridx_main_v4 (ix2 n k) j = ix2 j k := by
  funext a; match a with | ⟨0, _⟩ => rfl | ⟨1, _⟩ => rfl
/-- The encoder's bias, laid along the rows, reads at (n, k) its entry k. -/
theorem idx56 (n : Fin 100000) (k : Fin 64) : idx_main_v5 (idx_main_v6 (ix2 n k)) = ix1 k := by
  funext a; match a with | ⟨0, _⟩ => rfl
/-- Entry (n, c) of the first projection reads the encoder's output at (n, k) for the k-th term. -/
theorem lidx9 (n : Fin 100000) (c k : Fin 64) : lidx_main_v9 (ix2 n c) k = ix2 n k := by
  funext a; match a with | ⟨0, _⟩ => rfl | ⟨1, _⟩ => rfl
/-- … and the first weight matrix at (k, c). -/
theorem ridx9 (n : Fin 100000) (c k : Fin 64) : ridx_main_v9 (ix2 n c) k = ix2 k c := by
  funext a; match a with | ⟨0, _⟩ => rfl | ⟨1, _⟩ => rfl

/-- The encoder's stage at (n, k): the dense layer of the inputs, its bias, the positive part. -/
theorem enc_apply (x0 : FVec Ideal SNodeIn .f32) (x3 : FVec Ideal SInFeat .f32) (x4 : FVec Ideal SFeat .f32)
    (n : Fin 100000) (k : Fin 64) :
    val_main_v8 (F := Ideal) x0 x3 x4 (ix2 n k) = encode (mat x0) (mat x3) (vec x4) n k := by
  rw [val_main_v8_apply, val_main_v7_apply, val_main_v4_apply, val_main_v6_apply, val_main_v5_apply,
    val_main_call0_v0_apply, val_main_call0_cst_apply]
  simp only [lidx4, ridx4, idx56, Ideal.ofBits_def, Ideal.addf_def, Ideal.maximumf_def, Ideal.ofBits_zero_f32]
  rfl

/-- The first projection's stage at (n, c): the encoder's rows times the first weight matrix. -/
theorem proj1_apply (x0 : FVec Ideal SNodeIn .f32) (x3 : FVec Ideal SInFeat .f32) (x4 : FVec Ideal SFeat .f32)
    (x5 : FVec Ideal SSq .f32) (n : Fin 100000) (c : Fin 64) :
    val_main_v9 (F := Ideal) x0 x3 x4 x5 (ix2 n c) = dense (encode (mat x0) (mat x3) (vec x4)) (mat x5) n c := by
  rw [val_main_v9_apply]
  simp only [lidx9, ridx9, enc_apply]
  rfl

/-- The first layer's edge weights, laid along the features, read at (e, k) their entry e. -/
theorem idx4344 (e : Fin 3300000) (k : Fin 64) : idx_main_v43 (idx_main_v44 (ix2 e k)) = ix1 e := by
  funext a; match a with | ⟨0, _⟩ => rfl
/-- The first layer's bias, laid along the rows, reads at (n, k) its entry k. -/
theorem idx4950 (n : Fin 100000) (k : Fin 64) : idx_main_v49 (idx_main_v50 (ix2 n k)) = ix1 k := by
  funext a; match a with | ⟨0, _⟩ => rfl

/-- The first layer's edge weight at e: the source row's weight times the destination row's. -/
theorem weight1_apply (x1 : IVec SPair 32) (e : Fin 3300000) :
    val_main_v35 (F := Ideal) x1 (ix1 e)
      = vec (disOf (dstWords x1)) (row (vec (srcWords x1) e)) * vec (disOf (dstWords x1)) (row (vec (dstWords x1) e)) := by
  rewrite [val_main_v35_apply]
  unfold val_main_v27 val_main_v34
  rewrite [stage20_eq, stage26_eq, stage33_eq,
    gather1_wrapCol_apply gather_S100000_S3300000x1_S3300000_n_0_n_n_0_1_1 rfl rfl rfl rfl,
    gather1_wrapCol_apply gather_S100000_S3300000x1_S3300000_n_0_n_n_0_1_1 rfl rfl rfl rfl]
  rfl

/-- The first layer's message on edge e at feature k: the source row of the projected features times the edge weight. -/
theorem message1_apply (x0 : FVec Ideal SNodeIn .f32) (x1 : IVec SPair 32) (x3 : FVec Ideal SInFeat .f32) (x4 : FVec Ideal SFeat .f32) (x5 : FVec Ideal SSq .f32) (e : Fin 3300000) (k : Fin 64) :
    val_main_v45 (F := Ideal) x0 x1 x3 x4 x5 (ix2 e k)
      = mat (val_main_v9 (F := Ideal) x0 x3 x4 x5) (row (vec (srcWords x1) e)) k
        * (vec (disOf (dstWords x1)) (row (vec (srcWords x1) e)) * vec (disOf (dstWords x1)) (row (vec (dstWords x1) e))) := by
  rewrite [val_main_v45_apply, val_main_v44_apply, val_main_v43_apply, idx4344, weight1_apply]
  unfold val_main_v42
  rewrite [stage41_eq, gather_wrapCol_apply gather_S100000x64_S3300000x1_S3300000x64_1_0_n_n_0_1_164 rfl rfl rfl rfl rfl]
  rfl

/-- The first layer's accumulator starts at zero. -/
theorem zeros46 (i : SNodeFeat.Idx) : val_main_v46 (F := Ideal) i = (0 : EReal) := zeros_apply bcast_S_S100000x64 i

/-- The first layer's stage at (n, k): the layer, both weights on every edge, of the projected features. -/
theorem conv1_apply (x0 : FVec Ideal SNodeIn .f32) (x1 : IVec SPair 32) (x3 : FVec Ideal SInFeat .f32) (x4 : FVec Ideal SFeat .f32) (x5 : FVec Ideal SSq .f32) (x6 : FVec Ideal SFeat .f32) (n : Fin 100000) (k : Fin 64) :
    val_main_v51 (F := Ideal) x0 x1 x3 x4 x5 x6 (ix2 n k)
      = convEdge (mat (val_main_v9 (F := Ideal) x0 x3 x4 x5)) (vec (disOf (dstWords x1))) (vec (srcWords x1)) (vec (dstWords x1))
          (vec x6) n k := by
  rewrite [val_main_v51_apply, val_main_v50_apply, val_main_v49_apply, idx4950]
  unfold val_main_v48
  rewrite [stage47_eq, scatter_rawCol_apply scatter_S100000x64_S3300000x1_S3300000x64_1_0_0_1 rfl rfl rfl rfl _ zeros46]
  simp only [message1_apply]
  rfl

/-! ## Between the layers: the positive part and the second projection -/

/-- Entry (n, c) of the second projection reads the first layer's positive part at (n, k) for the k-th term. -/
theorem lidx53 (n : Fin 100000) (c k : Fin 64) : lidx_main_v53 (ix2 n c) k = ix2 n k := by
  funext a; match a with | ⟨0, _⟩ => rfl | ⟨1, _⟩ => rfl
/-- … and the second weight matrix at (k, c). -/
theorem ridx53 (n : Fin 100000) (c k : Fin 64) : ridx_main_v53 (ix2 n c) k = ix2 k c := by
  funext a; match a with | ⟨0, _⟩ => rfl | ⟨1, _⟩ => rfl

/-- The first projection as a matrix is the dense layer of the encoder. -/
theorem proj1_mat (x0 : FVec Ideal SNodeIn .f32) (x3 : FVec Ideal SInFeat .f32) (x4 : FVec Ideal SFeat .f32) (x5 : FVec Ideal SSq .f32) :
    mat (val_main_v9 (F := Ideal) x0 x3 x4 x5) = dense (encode (mat x0) (mat x3) (vec x4)) (mat x5) := by
  funext n c
  exact proj1_apply x0 x3 x4 x5 n c

/-- The positive part of the first layer at (n, k). -/
theorem relu1_apply (x0 : FVec Ideal SNodeIn .f32) (x1 : IVec SPair 32) (x3 : FVec Ideal SInFeat .f32) (x4 : FVec Ideal SFeat .f32) (x5 : FVec Ideal SSq .f32) (x6 : FVec Ideal SFeat .f32) (n : Fin 100000) (k : Fin 64) :
    val_main_v52 (F := Ideal) x0 x1 x3 x4 x5 x6 (ix2 n k)
      = max (convEdge (mat (val_main_v9 (F := Ideal) x0 x3 x4 x5)) (vec (disOf (dstWords x1)))
          (vec (srcWords x1)) (vec (dstWords x1)) (vec x6) n k) 0 := by
  rewrite [val_main_v52_apply, conv1_apply, val_main_call2_v0_apply, val_main_call2_cst_apply,
    Ideal.ofBits_def, Ideal.maximumf_def, Ideal.ofBits_zero_f32]
  exact Eq.refl _

/-- The second projection's stage at (n, c): the positive part of the first layer, times the second weight matrix. -/
theorem proj2_apply (x0 : FVec Ideal SNodeIn .f32) (x1 : IVec SPair 32) (x3 : FVec Ideal SInFeat .f32) (x4 : FVec Ideal SFeat .f32) (x5 : FVec Ideal SSq .f32) (x6 : FVec Ideal SFeat .f32) (x7 : FVec Ideal SSq .f32) (n : Fin 100000) (c : Fin 64) :
    val_main_v53 (F := Ideal) x0 x1 x3 x4 x5 x6 x7 (ix2 n c)
      = dense (fun p k => max (convEdge (mat (val_main_v9 (F := Ideal) x0 x3 x4 x5)) (vec (disOf (dstWords x1)))
          (vec (srcWords x1)) (vec (dstWords x1)) (vec x6) p k) 0) (mat x7) n c := by
  rewrite [val_main_v53_apply]
  unfold dense
  refine Finset.sum_congr rfl fun k _ => ?_
  rewrite [lidx53, ridx53, relu1_apply]
  exact Eq.refl _

/-- The second projection as a matrix. -/
theorem proj2_mat (x0 : FVec Ideal SNodeIn .f32) (x1 : IVec SPair 32) (x3 : FVec Ideal SInFeat .f32) (x4 : FVec Ideal SFeat .f32) (x5 : FVec Ideal SSq .f32) (x6 : FVec Ideal SFeat .f32) (x7 : FVec Ideal SSq .f32) :
    mat (val_main_v53 (F := Ideal) x0 x1 x3 x4 x5 x6 x7)
      = dense (fun p k => max (convEdge (mat (val_main_v9 (F := Ideal) x0 x3 x4 x5)) (vec (disOf (dstWords x1)))
          (vec (srcWords x1)) (vec (dstWords x1)) (vec x6) p k) 0) (mat x7) := by
  funext n c
  exact proj2_apply x0 x1 x3 x4 x5 x6 x7 n c

/-- The second layer's edge weights, laid along the features, read at (e, k) their entry e. -/
theorem idx8788 (e : Fin 3300000) (k : Fin 64) : idx_main_v87 (idx_main_v88 (ix2 e k)) = ix1 e := by
  funext a; match a with | ⟨0, _⟩ => rfl
/-- The second layer's bias, laid along the rows, reads at (n, k) its entry k. -/
theorem idx9394 (n : Fin 100000) (k : Fin 64) : idx_main_v93 (idx_main_v94 (ix2 n k)) = ix1 k := by
  funext a; match a with | ⟨0, _⟩ => rfl

/-- The second layer's edge weight at e: the source row's weight times the destination row's. -/
theorem weight2_apply (x1 : IVec SPair 32) (e : Fin 3300000) :
    val_main_v79 (F := Ideal) x1 (ix1 e)
      = vec (disOf (dstWords x1)) (row (vec (srcWords x1) e)) * vec (disOf (dstWords x1)) (row (vec (dstWords x1) e)) := by
  rewrite [val_main_v79_apply]
  unfold val_main_v71 val_main_v78
  rewrite [stage64_eq, stage70_eq, stage77_eq,
    gather1_wrapCol_apply gather_S100000_S3300000x1_S3300000_n_0_n_n_0_1_1 rfl rfl rfl rfl,
    gather1_wrapCol_apply gather_S100000_S3300000x1_S3300000_n_0_n_n_0_1_1 rfl rfl rfl rfl]
  rfl

/-- The second layer's message on edge e at feature k: the source row of the projected features times the edge weight. -/
theorem message2_apply (x0 : FVec Ideal SNodeIn .f32) (x1 : IVec SPair 32) (x3 : FVec Ideal SInFeat .f32) (x4 : FVec Ideal SFeat .f32) (x5 : FVec Ideal SSq .f32) (x6 : FVec Ideal SFeat .f32) (x7 : FVec Ideal SSq .f32) (e : Fin 3300000) (k : Fin 64) :
    val_main_v89 (F := Ideal) x0 x1 x3 x4 x5 x6 x7 (ix2 e k)
      = mat (val_main_v53 (F := Ideal) x0 x1 x3 x4 x5 x6 x7) (row (vec (srcWords x1) e)) k
        * (vec (disOf (dstWords x1)) (row (vec (srcWords x1) e)) * vec (disOf (dstWords x1)) (row (vec (dstWords x1) e))) := by
  rewrite [val_main_v89_apply, val_main_v88_apply, val_main_v87_apply, idx8788, weight2_apply]
  unfold val_main_v86
  rewrite [stage85_eq, gather_wrapCol_apply gather_S100000x64_S3300000x1_S3300000x64_1_0_n_n_0_1_164 rfl rfl rfl rfl rfl]
  rfl

/-- The second layer's accumulator starts at zero. -/
theorem zeros90 (i : SNodeFeat.Idx) : val_main_v90 (F := Ideal) i = (0 : EReal) := zeros_apply bcast_S_S100000x64 i

/-- The second layer's stage at (n, k): the layer, both weights on every edge, of the projected features. -/
theorem conv2_apply (x0 : FVec Ideal SNodeIn .f32) (x1 : IVec SPair 32) (x3 : FVec Ideal SInFeat .f32) (x4 : FVec Ideal SFeat .f32) (x5 : FVec Ideal SSq .f32) (x6 : FVec Ideal SFeat .f32) (x7 : FVec Ideal SSq .f32) (x8 : FVec Ideal SFeat .f32) (n : Fin 100000) (k : Fin 64) :
    val_main_v95 (F := Ideal) x0 x1 x3 x4 x5 x6 x7 x8 (ix2 n k)
      = convEdge (mat (val_main_v53 (F := Ideal) x0 x1 x3 x4 x5 x6 x7)) (vec (disOf (dstWords x1))) (vec (srcWords x1)) (vec (dstWords x1))
          (vec x8) n k := by
  rewrite [val_main_v95_apply, val_main_v94_apply, val_main_v93_apply, idx9394]
  unfold val_main_v92
  rewrite [stage91_eq, scatter_rawCol_apply scatter_S100000x64_S3300000x1_S3300000x64_1_0_0_1 rfl rfl rfl rfl _ zeros90]
  simp only [message2_apply]
  rfl

/-! ## The two layers, the pool, the mean -/

/-- The second layer's stage as a matrix is the two-layer network, both weights on every edge. -/
theorem net_mat (x0 : FVec Ideal SNodeIn .f32) (x1 : IVec SPair 32) (x3 : FVec Ideal SInFeat .f32) (x4 : FVec Ideal SFeat .f32) (x5 : FVec Ideal SSq .f32) (x6 : FVec Ideal SFeat .f32) (x7 : FVec Ideal SSq .f32) (x8 : FVec Ideal SFeat .f32) :
    mat (val_main_v95 (F := Ideal) x0 x1 x3 x4 x5 x6 x7 x8)
      = net (fun H b => convEdge H (vec (disOf (dstWords x1))) (vec (srcWords x1)) (vec (dstWords x1)) b)
          (mat x0) (mat x3) (vec x4) (mat x5) (vec x6) (mat x7) (vec x8) := by
  funext n k
  refine (conv2_apply x0 x1 x3 x4 x5 x6 x7 x8 n k).trans ?_
  rewrite [proj2_mat, proj1_mat]
  unfold net
  exact Eq.refl _

/-- The pool's accumulator starts at zero. -/
theorem zeros96 (i : SSq.Idx) : val_main_v96 (F := Ideal) i = (0 : EReal) := zeros_apply bcast_S_S64x64 i

/-- The pool's stage at (g, k): the rows of graph g of the second layer, added. -/
theorem pool_apply (x0 : FVec Ideal SNodeIn .f32) (x1 : IVec SPair 32) (x2 : IVec SNode 32) (x3 : FVec Ideal SInFeat .f32) (x4 : FVec Ideal SFeat .f32) (x5 : FVec Ideal SSq .f32) (x6 : FVec Ideal SFeat .f32) (x7 : FVec Ideal SSq .f32) (x8 : FVec Ideal SFeat .f32) (g k : Fin 64) :
    val_main_v98 (F := Ideal) x0 x1 x2 x3 x4 x5 x6 x7 x8 (ix2 g k)
      = pool (mat (val_main_v95 (F := Ideal) x0 x1 x3 x4 x5 x6 x7 x8)) (vec x2) g k := by
  unfold val_main_v98 val_main_v97
  exact scatter_graph_apply scatter_S64x64_S100000x1_S100000x64_1_0_0_1 rfl rfl rfl rfl _ zeros96
    bcast_S100000_S100000x1_0 x2 _ g k

/-- The clipped counts, laid along the features, read at (g, k) their entry g. -/
theorem idx104105 (g k : Fin 64) : idx_main_v104 (idx_main_v105 (ix2 g k)) = ix1 g := by
  funext a; match a with | ⟨0, _⟩ => rfl

/-- The divisor's stage at (g, k): the clipped row count of graph g. -/
theorem divisor_apply (x2 : IVec SNode 32) (g k : Fin 64) :
    val_main_v105 (F := Ideal) x2 (ix2 g k) = clipOf x2 (ix1 g) := by
  rewrite [val_main_v105_apply, val_main_v104_apply, idx104105, stage103_eq]
  exact Eq.refl _

/-- The last stage is the network, both weights on every edge, of the argument arrays. -/
theorem out_value (x0 : FVec Ideal SNodeIn .f32) (x1 : IVec SPair 32) (x2 : IVec SNode 32) (x3 : FVec Ideal SInFeat .f32) (x4 : FVec Ideal SFeat .f32) (x5 : FVec Ideal SSq .f32) (x6 : FVec Ideal SFeat .f32) (x7 : FVec Ideal SSq .f32) (x8 : FVec Ideal SFeat .f32) :
    val_main_v106 (F := Ideal) x0 x1 x2 x3 x4 x5 x6 x7 x8 = outEdge x0 x1 x2 x3 x4 x5 x6 x7 x8 := by
  funext i
  obtain ⟨g, k, rfl⟩ : ∃ (g k : Fin 64), i = ix2 g k := ⟨i 0, i 1, eq_ix2 i⟩
  rewrite [val_main_v106_apply, pool_apply, divisor_apply, net_mat, Ideal.hostDivf_def]
  unfold outEdge outWith meanOf
  exact Eq.refl _

end Stages

/-- The reference run's result term is the network, both weights on every edge, of the argument arrays. -/
theorem ref_value (m : (ℓ : Loc nD τ sig) → Buf (Elt Ideal) ℓ) (c : Dev nD) :
    Cert.ReferenceIdeal.Value.res_main_v106 (F := Ideal) m c
      = Cert.Gcn.outEdge (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (Cert.ReferenceIdeal.Read.val_main_v106_eq m c).trans (out_value _ _ _ _ _ _ _ _ _)

end Cert.ReferenceIdeal.RefValue

end
-- ==== Proof.Algebra.lean ====
/-
  The two arrangements of a layer agree on real numbers, and so do the two networks.
-/
import proofs.«425043_j20134806683790_3_alg».proof.Proof.Spec
import Idealize.ShloMosaic.PureOps.Ideal.Laws

noncomputable section

open scoped BigOperators

namespace Cert.Gcn

open Idealize.ShloMosaic Idealize.ShloMosaic.ValueIdx

/-- An extended real that is a real number. -/
def IsReal (x : EReal) : Prop := ∃ r : ℝ, x = (r : EReal)

/-! ## Real numbers are closed under the operations of a layer -/

/-- Zero is a real number. -/
theorem IsReal.zero : IsReal 0 := ⟨0, rfl⟩

/-- The sum of two real numbers is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is real: it is one of the two. -/
theorem IsReal.max {x y : EReal} (hx : IsReal x) (hy : IsReal y) : IsReal (max x y) := by
  rcases le_total x y with h | h
  · rw [max_eq_right h]; exact hy
  · rw [max_eq_left h]; exact hx

/-- A finite sum of real numbers is real. -/
theorem IsReal.sum {ι : Type} (t : Finset ι) (f : ι → EReal) (h : ∀ i ∈ t, IsReal (f i)) : IsReal (∑ i ∈ t, f i) := by
  classical
  induction t using Finset.induction_on with
  | empty => simpa using IsReal.zero
  | insert a t ha ih =>
    rw [Finset.sum_insert ha]
    exact (h a (Finset.mem_insert_self a t)).add (ih fun i hi => h i (Finset.mem_insert_of_mem hi))

/-- The coercion of the reals into the extended reals carries a finite sum to the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-! ## One layer -/

/-- A word that names node n as a scatter word reads row n as a gather start word: read signed it is n, which is not
    negative, so the word is not wrapped, and n is below the node count, so the clamp keeps it. -/
theorem row_of_lands {v : BitVec 32} {n : Fin 100000} (h : lands v n) : row v = n := by
  unfold lands at h
  have hn : v.slt 0#32 = false := by
    simp only [BitVec.slt, BitVec.toInt_zero, decide_eq_false_iff_not, not_lt, h]
    exact Int.natCast_nonneg _
  have hs : Scalar.select (IntOp.cmpi .slt v 0#32) (IntOp.addi v 100000#32) v = v := by
    simp [Scalar.select, IntOp.cmpi, hn]
  apply Fin.ext
  simp only [row, hs, h, Int.toNat_natCast]
  have := n.isLt
  omega

/-- One layer: weighting each row before the edges' sum and the sum after it is weighting every edge by both weights,
    when the matrix and the weights are real (a finite sum of real products distributes) and every edge landing on n
    reads its destination weight at n. -/
theorem convPost_eq_convEdge (H : Fin 100000 → Fin 64 → EReal) (dis : Fin 100000 → EReal)
    (s d : Fin 3300000 → BitVec 32) (b : Fin 64 → EReal)
    (hH : ∀ n c, IsReal (H n c)) (hd : ∀ n, IsReal (dis n)) :
    convPost H dis s d b = convEdge H dis s d b := by
  funext n c
  choose h hh using hH
  choose w hw using hd
  unfold convPost convEdge edgeSum
  -- every edge of the sum lands on n, so its destination weight is read at n; every term is a real product
  have hR : ∀ e ∈ Finset.univ.filter (fun e => lands (d e) n),
      H (row (s e)) c * (dis (row (s e)) * dis (row (d e))) = ((h (row (s e)) c * w (row (s e)) * w n : ℝ) : EReal) := by
    intro e he
    rw [row_of_lands (Finset.mem_filter.mp he).2, hh, hw, hw, EReal.coe_mul, EReal.coe_mul, mul_assoc]
  have hL : ∀ e ∈ Finset.univ.filter (fun e => lands (d e) n),
      H (row (s e)) c * dis (row (s e)) = ((h (row (s e)) c * w (row (s e)) : ℝ) : EReal) := by
    intro e _
    rw [hh, hw, EReal.coe_mul]
  rw [Finset.sum_congr rfl hR, Finset.sum_congr rfl hL, ← coe_sum, ← coe_sum, zero_add, zero_add, hw n, ← EReal.coe_mul,
    Finset.sum_mul]

/-! ## The degree weights -/

/-- The pattern of the float one denotes a real number: its exponent field is neither all ones nor zero. -/
theorem one_isReal : IsReal (Ideal.ofBits .f32 0x3F800000#32) := by
  simp only [Ideal.ofBits, Ideal.ieee]
  rw [if_neg (by decide), if_neg (by decide)]
  exact ⟨_, rfl⟩

/-- The pattern of the float zero denotes the real number zero. -/
theorem zero_isReal : IsReal (Ideal.ofBits .f32 0x00000000#32) := ⟨0, Ideal.ofBits_zero_f32⟩

/-- A constant spread over a shape reads the constant's value at every index. -/
theorem bcast_const_apply {t : Shape} (h : (⟨0, ![]⟩ : Shape).BroadcastsInDim t (![] : Fin 0 → Fin t.rank)) (b : BitVec 32)
    (j : t.Idx) : broadcastInDim t ![] h (constant (F := Ideal) ⟨0, ![]⟩ .f32 b) j = Ideal.ofBits .f32 b := rfl

/-- A constant whose pattern denotes a real number, spread over a shape, is real at every index. -/
theorem bcast_const_isReal {t : Shape} (h : (⟨0, ![]⟩ : Shape).BroadcastsInDim t (![] : Fin 0 → Fin t.rank)) (b : BitVec 32)
    (hb : IsReal (Ideal.ofBits .f32 b)) (j : t.Idx) :
    IsReal (broadcastInDim t ![] h (constant (F := Ideal) ⟨0, ![]⟩ .f32 b) j) := hb

/-- An accumulating scatter of real updates into real entries is real at every index: the entry plus a finite sum
    of updates. -/
theorem scatterAdd_isReal {s si su : Shape} {φ : FTy} {w : ℕ} (d : ScatterDims s si su) (x : FVec Ideal s φ)
    (idx : IVec si w) (upd : FVec Ideal su φ) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (IsReal.sum _ _ fun j _ => hu j)

/-- The inverse square root where a real degree is positive, and zero elsewhere, is real: the compare answers one
    exactly when the degree is positive, and there the inverse square root of a real number is real. -/
theorem weight_isReal {s : Shape} (deg zero zero' : FVec Ideal s .f32) (i : s.Idx) (hdeg : IsReal (deg i))
    (hz : zero i = 0) (hz' : zero' i = 0) :
    IsReal (select (cmpf (F := Ideal) .ogt deg zero) (Host.rsqrt deg) zero' i) := by
  obtain ⟨r, hr⟩ := hdeg
  show IsReal (Scalar.select (Ideal.cmp .ogt (deg i) (zero i)) (Ideal.rsqrt (deg i)) (zero' i))
  rw [hr, hz, hz']
  unfold Scalar.select Ideal.cmp
  split_ifs with h
  · have hbit : ∀ c : Bool, BitVec.ofBool c = 1 → c = true := by decide
    have hpos : (0 : EReal) < (r : EReal) := of_decide_eq_true (hbit _ h)
    have hr0 : 0 < r := by exact_mod_cast hpos
    rw [Ideal.rsqrt_coe, if_neg (not_lt.mpr hr0.le), if_neg hr0.ne']
    exact ⟨_, rfl⟩
  · exact IsReal.zero

/-- The degree is a real number at every node: the zero entry plus a finite sum of ones. -/
theorem degOf_isReal (d : IVec SEdge 32) (i : SNode.Idx) : IsReal (degOf d i) := by
  delta degOf
  exact scatterAdd_isReal _ _ _ _ (bcast_const_isReal _ _ zero_isReal) (bcast_const_isReal _ _ one_isReal) i

/-- The degree weight is a real number at every node. -/
theorem disOf_isReal (d : IVec SEdge 32) (i : SNode.Idx) : IsReal (disOf d i) := by
  delta disOf
  exact weight_isReal (degOf d) _ _ i (degOf_isReal d i) ((bcast_const_apply _ _ _).trans Ideal.ofBits_zero_f32)
    ((bcast_const_apply _ _ _).trans Ideal.ofBits_zero_f32)

/-! ## The two layers -/

/-- A dense layer of real data is real: a finite sum of real products. -/
theorem dense_isReal {K : ℕ} (h : Fin 100000 → Fin K → EReal) (W : Fin K → Fin 64 → EReal)
    (hh : ∀ n k, IsReal (h n k)) (hW : ∀ k c, IsReal (W k c)) (n : Fin 100000) (c : Fin 64) : IsReal (dense h W n c) :=
  IsReal.sum _ _ fun k _ => (hh n k).mul (hW k c)

/-- The encoder of real data is real: a dense layer, a real bias added, the larger of that and zero. -/
theorem encode_isReal (x : Fin 100000 → Fin 200 → EReal) (We : Fin 200 → Fin 64 → EReal) (be : Fin 64 → EReal)
    (hx : ∀ n k, IsReal (x n k)) (hWe : ∀ k c, IsReal (We k c)) (hbe : ∀ c, IsReal (be c)) (n : Fin 100000) (k : Fin 64) :
    IsReal (encode x We be n k) :=
  ((dense_isReal x We hx hWe n k).add (hbe k)).max IsReal.zero

/-- One layer of real data with real weights and a real bias is real: a finite sum of real products, the bias added. -/
theorem convEdge_isReal (H : Fin 100000 → Fin 64 → EReal) (dis : Fin 100000 → EReal)
    (s d : Fin 3300000 → BitVec 32) (b : Fin 64 → EReal)
    (hH : ∀ n c, IsReal (H n c)) (hd : ∀ n, IsReal (dis n)) (hb : ∀ c, IsReal (b c)) (n : Fin 100000) (c : Fin 64) :
    IsReal (convEdge H dis s d b n c) :=
  (IsReal.zero.add (IsReal.sum _ _ fun e _ => (hH _ c).mul ((hd _).mul (hd _)))).add (hb c)

/-- The two layers agree in the two arrangements when the data, the weights and the degree weights are real:
    the first layer's input is real, so its two arrangements agree; its output in the second arrangement is real,
    so the second layer's input is real and its two arrangements agree. -/
theorem net_convPost_eq_convEdge (dis : Fin 100000 → EReal) (s d : Fin 3300000 → BitVec 32)
    (x : Fin 100000 → Fin 200 → EReal) (We : Fin 200 → Fin 64 → EReal) (be : Fin 64 → EReal)
    (W1 : Fin 64 → Fin 64 → EReal) (b1 : Fin 64 → EReal) (W2 : Fin 64 → Fin 64 → EReal) (b2 : Fin 64 → EReal)
    (hdis : ∀ n, IsReal (dis n)) (hx : ∀ n k, IsReal (x n k)) (hWe : ∀ k c, IsReal (We k c)) (hbe : ∀ c, IsReal (be c))
    (hW1 : ∀ k c, IsReal (W1 k c)) (hb1 : ∀ c, IsReal (b1 c)) (hW2 : ∀ k c, IsReal (W2 k c)) :
    net (fun H b => convPost H dis s d b) x We be W1 b1 W2 b2 = net (fun H b => convEdge H dis s d b) x We be W1 b1 W2 b2 := by
  have h1 : ∀ n k, IsReal (dense (encode x We be) W1 n k) := dense_isReal _ _ (encode_isReal x We be hx hWe hbe) hW1
  have h2 : ∀ n k, IsReal (dense (fun n k => max (convEdge (dense (encode x We be) W1) dis s d b1 n k) 0) W2 n k) :=
    dense_isReal _ _ (fun n k => (convEdge_isReal _ _ _ _ _ h1 hdis hb1 n k).max IsReal.zero) hW2
  unfold net
  beta_reduce
  rw [convPost_eq_convEdge _ _ _ _ _ h1 hdis, convPost_eq_convEdge _ _ _ _ _ h2 hdis]

/-- The two arrangements of the whole network agree on real inputs. -/
theorem outPost_eq_outEdge (x : FVec Ideal SNodeIn .f32) (ei : IVec SPair 32) (bt : IVec SNode 32)
    (We : FVec Ideal SInFeat .f32) (be : FVec Ideal SFeat .f32) (W1 : FVec Ideal SSq .f32) (b1 : FVec Ideal SFeat .f32)
    (W2 : FVec Ideal SSq .f32) (b2 : FVec Ideal SFeat .f32)
    (hx : ∀ i, IsReal (x i)) (hWe : ∀ i, IsReal (We i)) (hbe : ∀ i, IsReal (be i)) (hW1 : ∀ i, IsReal (W1 i))
    (hb1 : ∀ i, IsReal (b1 i)) (hW2 : ∀ i, IsReal (W2 i)) (hb2 : ∀ i, IsReal (b2 i)) :
    outPost x ei bt We be W1 b1 W2 b2 = outEdge x ei bt We be W1 b1 W2 b2 := by
  -- the degree weights are real at every node
  have hdis : ∀ n, IsReal (vec (disOf (dstWords ei)) n) := by
    intro n
    delta vec
    exact disOf_isReal _ _
  delta outPost outEdge outWith
  beta_reduce
  rw [net_convPost_eq_convEdge (vec (disOf (dstWords ei))) (vec (srcWords ei)) (vec (dstWords ei)) (mat x) (mat We) (vec be)
    (mat W1) (vec b1) (mat W2) (vec b2) hdis (fun n k => hx _) (fun k c => hWe _) (fun c => hbe _) (fun k c => hW1 _)
    (fun c => hb1 _) (fun k c => hW2 _)]

end Cert.Gcn

end
-- ==== Proof.Finite.lean ====
/-
  Under the precondition every float argument holds real numbers.

  The precondition is a conjunction, one `all` per float argument, of "the absolute value is below +∞" entry by entry.
  At the exact values the absolute value of x is max x (−x), so the entry is neither +∞ nor −∞: a real number.
-/
import proofs.«425043_j20134806683790_3_alg».proof.Pre_finite_inputs
import proofs.«425043_j20134806683790_3_alg».proof.Proof.Algebra
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx Cert.Gcn

/-- An extended real whose absolute value is below +∞ is a real number. -/
theorem isReal_of_abs_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have h' : BitVec.ofBool (decide (max x (-x) < ⊤)) = 1#1 := h
  have hlt : max x (-x) < ⊤ := by
    cases hd : decide (max x (-x) < ⊤) with
    | true => exact of_decide_eq_true hd
    | false => rw [hd] at h'; exact absurd h' (by decide)
  induction x using EReal.rec with
  | bot => simp at hlt
  | top => simp at hlt
  | coe r => exact ⟨r, rfl⟩

instance : Subsingleton S_.Idx := ⟨fun a b => funext fun d => d.elim0⟩

variable [Facts]

/-- One `all` of the precondition, read back: every entry of the array is real. -/
theorem isReal_of_all {s : Shape} (a : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf a) (broadcastInDim s ![] hb (constant S_ .f32 0x7F800000#32)))
        (constantI S_ 1 1#1) hr hu ix0 = 1#1) (i : s.Idx) : IsReal (a i) :=
  isReal_of_abs_lt (a i) (Host.reduce_andi_all _ _ hr hu ix0 e i)

/-- Under the precondition the seven float arguments hold real numbers. -/
theorem real_inputs (a0 : FVec Ideal S100000x200 .f32) (a1 : IVec S2x3200000 32) (a2 : IVec S100000 32)
    (a3 : FVec Ideal S200x64 .f32) (a4 : FVec Ideal S64 .f32) (a5 : FVec Ideal S64x64 .f32) (a6 : FVec Ideal S64 .f32)
    (a7 : FVec Ideal S64x64 .f32) (a8 : FVec Ideal S64 .f32)
    (h : fn (F := Ideal) a0 a1 a2 a3 a4 a5 a6 a7 a8 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) := by
  have h0 := congrFun h ix0
  dsimp only [fn, fn_part1] at h0
  obtain ⟨h6, e8⟩ := IntOp.andi_eq_one.1 h0
  obtain ⟨h5, e7⟩ := IntOp.andi_eq_one.1 h6
  obtain ⟨h4, e6⟩ := IntOp.andi_eq_one.1 h5
  obtain ⟨h3, e5⟩ := IntOp.andi_eq_one.1 h4
  obtain ⟨h2, e4⟩ := IntOp.andi_eq_one.1 h3
  obtain ⟨e0, e3⟩ := IntOp.andi_eq_one.1 h2
  exact ⟨isReal_of_all a0 _ _ _ e0, isReal_of_all a3 _ _ _ e3, isReal_of_all a4 _ _ _ e4, isReal_of_all a5 _ _ _ e5,
    isReal_of_all a6 _ _ _ e6, isReal_of_all a7 _ _ _ e7, isReal_of_all a8 _ _ _ e8⟩

end Cert.Pre_finite_inputs.Finite

end
-- ==== Proof.lean ====
/-
  The kernel is a two-layer graph convolution with a mean pool over graph ids, in three Pallas kernels with the
  gather and scatter-add of the edges on the host between them; the reference is the same network in jnp.

  Over the extended reals the two differ in ONE place: the symmetric normalisation dis(src) · dis(dst) of an edge's
  message.  The reference multiplies every edge's message by both weights before the scatter-add; the kernel scales
  each row by its own weight before the edges are gathered and each node's sum by the node's weight after the
  scatter-add.  A finite sum of products distributes when the entries are real numbers, and they are: the float
  arguments are finite by the precondition, and the weight is the inverse square root of a positive count (or zero).
  On an edge that lands on node n the destination weight the reference gathers is the weight of n itself, because a
  destination word that names a node is not negative and is not clamped.  Everything else is the same function
  spelt twice: a change of float format is the identity, a matmul into a zero accumulator and a dot_general are one
  sum, fifty blocks of two thousand rows added in turn through a 0/1 matrix are the sum over the rows of each graph.

  The three frames: the two kernel programs' are the generated ones; the reference's is its run with the result
  dropped.  The idealization rewrote nothing, so there is nothing to preserve.  For the equivalence, both runs end at
  one function of the arguments: the kernel's result is read off its run boundary by boundary (the three kernels'
  output arrays as whole-array functions, the host operations between them at an index), the reference's off its run
  one operation at a time, and the two arrangements agree on real inputs.
-/
import proofs.«425043_j20134806683790_3_alg».proof.Defs
import proofs.«425043_j20134806683790_3_alg».proof.Proof.Gen.Kernel
import proofs.«425043_j20134806683790_3_alg».proof.Proof.Gen.Kernel.Frame
import proofs.«425043_j20134806683790_3_alg».proof.Proof.Gen.KernelIdeal
import proofs.«425043_j20134806683790_3_alg».proof.Proof.Gen.KernelIdeal.Frame
import proofs.«425043_j20134806683790_3_alg».proof.Proof.Gen.ReferenceIdeal
import proofs.«425043_j20134806683790_3_alg».proof.Proof.Gen.Pre_finite_inputs
import proofs.«425043_j20134806683790_3_alg».proof.Proof.KRun
import proofs.«425043_j20134806683790_3_alg».proof.Proof.KValue
import proofs.«425043_j20134806683790_3_alg».proof.Proof.RefRun
import proofs.«425043_j20134806683790_3_alg».proof.Proof.RefValue
import proofs.«425043_j20134806683790_3_alg».proof.Proof.Algebra
import proofs.«425043_j20134806683790_3_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the network of the arguments: the kernel's run names its result as the arrangement with a
    weight before and after the edges' sum, the reference's as the arrangement with both weights on every edge, and on
    arguments that agree and are real the two are one function. -/
theorem algebraic : Cert.algebraic_KernelIdeal_ReferenceIdeal := by
  intro m ρ m' ρ' hpre hagree
  refine ⟨fun c => Cert.Gcn.outEdge (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.Gen.run_result (F := Ideal) m ρ)
    obtain ⟨h0, h3, h4, h5, h6, h7, h8⟩ := Cert.Pre_finite_inputs.Finite.real_inputs _ _ _ _ _ _ _ _ _ (hpre c)
    exact (Cert.KernelIdeal.KValue.kernel_value m ρ c).trans
      (Cert.Gcn.outPost_eq_outEdge _ _ _ _ _ _ _ _ _ h0 h3 h4 h5 h6 h7 h8)
  · refine (θ_run Cert.ReferenceIdeal.defs _ _).mono (fun r h c => ⟨(h c).1.trans ?_, (h c).2⟩)
      (Cert.ReferenceIdeal.Value.run (F := Ideal) m' ρ')
    rw [Cert.ReferenceIdeal.RefValue.ref_value m' c, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
